-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x100 : Shape := ⟨2, ![4096, 100]⟩
abbrev S4096x3x64x64 : Shape := ⟨4, ![4096, 3, 64, 64]⟩
abbrev S4096x512 : Shape := ⟨2, ![4096, 512]⟩
abbrev S4096 : Shape := ⟨1, ![4096]⟩
abbrev S_ : Shape := ⟨0, ![]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel
  bcast_S_S4096x3x64x64 : S_.BroadcastsInDim S4096x3x64x64 (![] : Fin 0 → Fin S4096x3x64x64.rank)
  reducesTo_S4096x3x64x64_S_d0_1_2_3 : S4096x3x64x64.ReducesTo [0, 1, 2, 3] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x3x64x64 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x3x64x64 .f32 := Host.absf main_arg4
  let main_cst_6 : FVec F S_ .f32 := constant S_ .f32 0x7F800000#32
  let main_v20 : FVec F S4096x3x64x64 .f32 := broadcastInDim S4096x3x64x64 ![] bcast_S_S4096x3x64x64 main_cst_6
  let main_v21 : IVec S4096x3x64x64 1 := cmpf .olt main_v19 main_v20
  let main_c_7 : IVec S_ 1 := constantI S_ 1 1#1
  let main_v22 : IVec S_ 1 := (fun x v => Host.reduce IntOp.andi x v reducesTo_S4096x3x64x64_S_d0_1_2_3 h_S_) main_v21 main_c_7
  let main_v23 : IVec S_ 1 := andi main_v18 main_v22
  main_v23

def fn {F : FTy → Type} [FloatOps F] (main_arg0 : FVec F S4096x100 .f32) (main_arg1 : FVec F S4096x3x64x64 .f32) (main_arg2 : FVec F S4096x512 .f32) (main_arg3 : FVec F S4096x512 .f32) (main_arg4 : FVec F S4096x3x64x64 .f32) (main_arg5 : IVec S4096 32) : IVec S_ 1 :=
  let main_v0 : FVec F S4096x100 .f32 := Host.absf main_arg0
  let main_cst : FVec F S_ .f32 := constant S_ .f32 0x7F800000#32
  let main_v1 : FVec F S4096x100 .f32 := broadcastInDim S4096x100 ![] bcast_S_S4096x100 main_cst
  let main_v2 : IVec S4096x100 1 := cmpf .olt main_v0 main_v1
  let main_c : IVec S_ 1 := constantI S_ 1 1#1
  let main_v3 : IVec S_ 1 := (fun x v => Host.reduce IntOp.andi x v reducesTo_S4096x100_S_d0_1 h_S_) main_v2 main_c
  let main_v4 : FVec F S4096x3x64x64 .f32 := Host.absf main_arg1
  let main_cst_0 : FVec F S_ .f32 := constant S_ .f32 0x7F800000#32
  let main_v5 : FVec F S4096x3x64x64 .f32 := broadcastInDim S4096x3x64x64 ![] bcast_S_S4096x3x64x64 main_cst_0
  let main_v6 : IVec S4096x3x64x64 1 := cmpf .olt main_v4 main_v5
  let main_c_1 : IVec S_ 1 := constantI S_ 1 1#1
  let main_v7 : IVec S_ 1 := (fun x v => Host.reduce IntOp.andi x v reducesTo_S4096x3x64x64_S_d0_1_2_3 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_v13 main_v16
-- ==== Kernel.lean ====
abbrev S4096x100 : Shape := ⟨2, ![4096, 100]⟩
abbrev S4096x3x64x64 : Shape := ⟨4, ![4096, 3, 64, 64]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x12288 : Shape := ⟨2, ![4096, 12288]⟩
abbrev S16x128 : Shape := ⟨2, ![16, 128]⟩
abbrev S128x12288 : Shape := ⟨2, ![128, 12288]⟩
abbrev S8x128 : Shape := ⟨2, ![8, 128]⟩
abbrev S128 : Shape := ⟨1, ![128]⟩
abbrev S128x1 : Shape := ⟨2, ![128, 1]⟩
abbrev S1x1 : Shape := ⟨2, ![1, 1]⟩
abbrev S1x128 : Shape := ⟨2, ![1, 128]⟩
abbrev S4096x128 : Shape := ⟨2, ![4096, 128]⟩
abbrev S128x4096 : Shape := ⟨2, ![128, 4096]⟩
abbrev S128x512 : Shape := ⟨2, ![128, 512]⟩
abbrev S1x100 : Shape := ⟨2, ![1, 100]⟩
abbrev S100 : Shape := ⟨1, ![100]⟩
abbrev S7 : Shape := ⟨1, ![7]⟩

abbrev nBuf : Space → Nat
  | .hbm => 141
  | .vmem => 16
  | .smem => 0
  | _ => 0

abbrev hbmTy0_0 (i : Nat) : BufTy := match i % 128 with
  | 0 => ⟨S4096x100, .f32⟩
  | 1 => ⟨S4096x3x64x64, .f32⟩
  | 2 => ⟨S4096x512, .f32⟩
  | 3 => ⟨S4096x512, .f32⟩
  | 4 => ⟨S4096x3x64x64, .f32⟩
  | 5 => ⟨S4096, .i32⟩
  | 6 => ⟨S_, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S4096x100, .f32⟩
  | 13 => ⟨S4096x100, .f32⟩
  | 14 => ⟨S4096x100, .f32⟩
  | 15 => ⟨S_, .f32⟩
  | 16 => ⟨S4096, .f32⟩
  | 17 => ⟨S4096x1, .f32⟩
  | 18 => ⟨S4096x1, .f32⟩
  | 19 => ⟨S4096x100, .f32⟩
  | 20 => ⟨S4096x100, .f32⟩
  | 21 => ⟨S4096x1, .i32⟩
  | 22 => ⟨S_, .i32⟩
  | 23 => ⟨S4096x1, .i32⟩
  | 24 => ⟨S4096x1, .i1⟩
  | 25 => ⟨S_, .i32⟩
  | 26 => ⟨S4096x1, .i32⟩
  | 27 => ⟨S4096x1, .i32⟩
  | 28 => ⟨S4096x1, .i32⟩
  | 29 => ⟨S4096x1x1, .i32⟩
  | 30 => ⟨S1, .i32⟩
  | 31 => ⟨S_, .i32⟩
  | 32 => ⟨S4096x1x1, .i32⟩
  | 33 => ⟨S4096x1x1, .i1⟩
  | 34 => ⟨S1x1x1, .i32⟩
  | 35 => ⟨S4096x1x1, .i32⟩
  | 36 => ⟨S4096x1x1, .i1⟩
  | 37 => ⟨S4096x1x1, .i1⟩
  | 38 => ⟨S_, .i1⟩
  | 39 => ⟨S4096x1, .i1⟩
  | 40 => ⟨S4096x1, .f32⟩
  | 41 => ⟨S_, .f32⟩
  | 42 => ⟨S4096x1, .f32⟩
  | 43 => ⟨S4096x1, .f32⟩
  | 44 => ⟨S_, .f32⟩
  | 45 => ⟨S_, .f32⟩
  | 46 => ⟨S_, .f32⟩
  | 47 => ⟨S_, .f32⟩
  | 48 => ⟨S_, .f32⟩
  | 49 => ⟨S4096x12288, .f32⟩
  | 50 => ⟨S4096x12288, .f32⟩
  | 51 => ⟨S16x128, .f32⟩
  | 52 => ⟨S16x128, .f32⟩
  | 53 => ⟨S1x1, .f32⟩
  | 54 => ⟨S_, .f32⟩
  | 55 => ⟨S1x1, .f32⟩
  | 56 => ⟨S_, .f32⟩
  | 57 => ⟨S_, .f32⟩
  | 58 => ⟨S1x1, .f32⟩
  | 59 => ⟨S_, .f32⟩
  | 60 => ⟨S1x1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4096x1, .i32⟩
  | 73 => ⟨S1x128, .f32⟩
  | 74 => ⟨S1x128, .f32⟩
  | 75 => ⟨S1x128, .f32⟩
  | 76 => ⟨S1x100, .f32⟩
  | 77 => ⟨S100, .f32⟩
  | 78 => ⟨S1x100, .f32⟩
  | 79 => ⟨S100, .f32⟩
  | 80 => ⟨S1x100, .f32⟩
  | 81 => ⟨S100, .f32⟩
  | 82 => ⟨S_, .f32⟩
  | 83 => ⟨S100, .f32⟩
  | 84 => ⟨S100, .i1⟩
  | 85 => ⟨S100, .f32⟩
  | 86 => ⟨S_, .f32⟩
  | 87 => ⟨S_, .f32⟩
  | 88 => ⟨S_, .f32⟩
  | 89 => ⟨S100, .f32⟩
  | 90 => ⟨S100, .f32⟩
  | 91 => ⟨S_, .f32⟩
  | 92 => ⟨S100, .f32⟩
  | 93 => ⟨S100, .f32⟩
  | 94 => ⟨S_, .f32⟩
  | 95 => ⟨S_, .f32⟩
  | 96 => ⟨S100, .f32⟩
  | 97 => ⟨S100, .f32⟩
  | 98 => ⟨S_, .f32⟩
  | 99 => ⟨S_, .f32⟩
  | 100 => ⟨S_, .f32⟩
  | 101 => ⟨S_, .f32⟩
  | 102 => ⟨S100, .f32⟩
  | 103 => ⟨S100, .f32⟩
  | 104 => ⟨S_, .f32⟩
  | 105 => ⟨S100, .f32⟩
  | 106 => ⟨S100, .f32⟩
  | 107 => ⟨S_, .f32⟩
  | 108 => ⟨S100, .f32⟩
  | 109 => ⟨S100, .f32⟩
  | 110 => ⟨S_, .f32⟩
  | 111 => ⟨S_, .f32⟩
  | 112 => ⟨S100, .f32⟩
  | 113 => ⟨S100, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x100, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S1, .f32⟩
  | 12 => ⟨S7, .f32⟩
  | _ => ⟨S4096x100, .f32⟩

abbrev hbmTy (i : Nat) : BufTy := match i / 128 with
  | 0 => hbmTy0_0 i
  | 1 => hbmTy0_1 i
  | _ => ⟨S4096x100, .f32⟩

abbrev bufTy : (tb : Table) → Fin (tcTables nBuf tb) → BufTy
  | .hbm, ⟨i, _⟩ => hbmTy i
  | .local _ .vmem, ⟨0, _⟩ => ⟨S128x12288, .f32⟩
  | .local _ .vmem, ⟨1, _⟩ => ⟨S128x12288, .f32⟩
  | .local _ .vmem, ⟨2, _⟩ => ⟨S128x12288, .f32⟩
  | .local _ .vmem, ⟨3, _⟩ => ⟨S128x12288, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S4096x512, .f32⟩
  | .local _ .vmem, ⟨11, _⟩ => ⟨S4096x512, .f32⟩
  | .local _ .vmem, ⟨12, _⟩ => ⟨S4096x1, .i32⟩
  | .local _ .vmem, ⟨13, _⟩ => ⟨S1x128, .f32⟩
  | .local _ .vmem, ⟨14, _⟩ => ⟨S1x128, .f32⟩
  | .local _ .vmem, ⟨15, _⟩ => ⟨S1x128, .f32⟩
  | _, _ => ⟨S4096x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_cst : Ref sig .tc := ⟨.hbm, 44, rfl⟩
abbrev main_v3 : Ref sig .tc := ⟨.hbm, 45, rfl⟩
abbrev main_cst_0 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8_0 : Ref sig .tc := ⟨.hbm, 51, rfl⟩
abbrev main_v8_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_1 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_v26_0 : Ref sig .tc := ⟨.hbm, 73, rfl⟩
abbrev main_v26_1 : Ref sig .tc := ⟨.hbm, 74, rfl⟩
abbrev main_v26_2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_4 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_5 : Ref sig .tc := ⟨.hbm, 86, rfl⟩
abbrev main_v36 : Ref sig .tc := ⟨.hbm, 87, rfl⟩
abbrev main_cst_6 : Ref sig .tc := ⟨.hbm, 88, rfl⟩
abbrev main_v37 : Ref sig .tc := ⟨.hbm, 89, rfl⟩
abbrev main_v38 : Ref sig .tc := ⟨.hbm, 90, rfl⟩
abbrev main_call2_cst : Ref sig .tc := ⟨.hbm, 91, rfl⟩
abbrev main_call2_v0 : Ref sig .tc := ⟨.hbm, 92, rfl⟩
abbrev main_v39 : Ref sig .tc := ⟨.hbm, 93, rfl⟩
abbrev main_cst_7 : Ref sig .tc := ⟨.hbm, 94, rfl⟩
abbrev main_call3_v0 : Ref sig .tc := ⟨.hbm, 95, rfl⟩
abbrev main_call3_v1 : Ref sig .tc := ⟨.hbm, 96, rfl⟩
abbrev main_v40 : Ref sig .tc := ⟨.hbm, 97, rfl⟩
abbrev main_cst_8 : Ref sig .tc := ⟨.hbm, 98, rfl⟩
abbrev main_v41 : Ref sig .tc := ⟨.hbm, 99, rfl⟩
abbrev main_v42 : Ref sig .tc := ⟨.hbm, 100, rfl⟩
abbrev main_cst_9 : Ref sig .tc := ⟨.hbm, 101, rfl⟩
abbrev main_v43 : Ref sig .tc := ⟨.hbm, 102, rfl⟩
abbrev main_v44 : Ref sig .tc := ⟨.hbm, 103, rfl⟩
abbrev main_cst_10 : Ref sig .tc := ⟨.hbm, 104, rfl⟩
abbrev main_v45 : Ref sig .tc := ⟨.hbm, 105, rfl⟩
abbrev main_v46 : Ref sig .tc := ⟨.hbm, 106, rfl⟩
abbrev main_call4_cst : Ref sig .tc := ⟨.hbm, 107, rfl⟩
abbrev main_call4_v0 : Ref sig .tc := ⟨.hbm, 108, rfl⟩
abbrev main_v47 : Ref sig .tc := ⟨.hbm, 109, rfl⟩
abbrev main_cst_11 : Ref sig .tc := ⟨.hbm, 110, rfl⟩
abbrev main_call5_v0 : Ref sig .tc := ⟨.hbm, 111, rfl⟩
abbrev main_call5_v1 : Ref sig .tc := ⟨.hbm, 112, rfl⟩
abbrev main_v48 : Ref sig .tc := ⟨.hbm, 113, rfl⟩
abbrev main_cst_12 : Ref sig .tc := ⟨.hbm, 114, rfl⟩
abbrev main_v49 : Ref sig .tc := ⟨.hbm, 115, rfl⟩
abbrev main_v50 : Ref sig .tc := ⟨.hbm, 116, rfl⟩
abbrev main_cst_13 : Ref sig .tc := ⟨.hbm, 117, rfl⟩
abbrev main_v51 : Ref sig .tc := ⟨.hbm, 118, rfl⟩
abbrev main_cst_14 : Ref sig .tc := ⟨.hbm, 119, rfl⟩
abbrev main_v52 : Ref sig .tc := ⟨.hbm, 120, rfl⟩
abbrev main_v53 : Ref sig .tc := ⟨.hbm, 121, rfl⟩
abbrev main_cst_15 : Ref sig .tc := ⟨.hbm, 122, rfl⟩
abbrev main_v54 : Ref sig .tc := ⟨.hbm, 123, rfl⟩
abbrev main_v55 : Ref sig .tc := ⟨.hbm, 124, rfl⟩
abbrev main_cst_16 : Ref sig .tc := ⟨.hbm, 125, rfl⟩
abbrev main_v56 : Ref sig .tc := ⟨.hbm, 126, rfl⟩
abbrev main_v57 : Ref sig .tc := ⟨.hbm, 127, rfl⟩
abbrev main_cst_17 : Ref sig .tc := ⟨.hbm, 128, rfl⟩
abbrev main_v58 : Ref sig .tc := ⟨.hbm, 129, rfl⟩
abbrev main_cst_18 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  reducesTo_S4096x100_S4096_d1 : S4096x100.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  shapeCasts_S4096x3x64x64_S4096x12288 : S4096x3x64x64.ShapeCasts S4096x12288
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128x12288_S128x12288_0_0 : ∀ a, (![0, 0] : Fin 2 → Nat) a + S128x12288.size a ≤ S128x12288.size a
  h_S128x12288 : 0 < S128x12288.numel
  shapeCasts_S128x12288_S128x12288 : S128x12288.ShapeCasts S128x12288
  reduces_S128x12288_S128 : S128x12288.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  reduces_S4096x128_S128 : S4096x128.Reduces [0] S128
  shapeCasts_S128_S1x128 : S128.ShapeCasts S1x128
  inb_S4096x512_S4096x512_0_0 : ∀ a, (![0, 0] : Fin 2 → Nat) a + S4096x512.size a ≤ S4096x512.size a
  h_S4096x512 : 0 < S4096x512.numel
  transposes_S4096x128_p1_0_S128x4096 : S4096x128.Transposes [1, 0] S128x4096
  transposes_S1x128_p1_0_S128x1 : S1x128.Transposes [1, 0] S128x1
  broadcasts_S128x1_S128x512 : S128x1.Broadcasts S128x512
  reduces_S4096x512_S4096 : S4096x512.Reduces [1] S4096
  shapeCasts_S4096_S4096x1 : S4096.ShapeCasts S4096x1
  transposes_S128x1_p1_0_S1x128 : S128x1.Transposes [1, 0] S1x128
  inb_S1x128_S1x128_0_0 : ∀ a, (![0, 0] : Fin 2 → Nat) a + S1x128.size a ≤ S1x128.size a
  h_S1x128 : 0 < S1x128.numel
  slices_S1x128_S1x100_0_0 : S1x128.Slices ![0, 0] S1x100
  shapeCasts_S1x100_S100 : S1x100.ShapeCasts S100
  bcast_S_S100 : S_.BroadcastsInDim S100 (![] : Fin 0 → Fin S100.rank)
  reducesTo_S100_S_d0 : S100.ReducesTo [0] S_
  bcast_S_S1 : S_.BroadcastsInDim S1 (![] : Fin 0 → Fin S1.rank)
  concatenates_S1_S1_S1_S1_S1_S1_S1_S7_d0 : Shape.Concatenates [S1, S1, S1, S1, S1, S1, S1] S7 0
  gather_S4096x100_S4096x1x1_S4096x1_n_1_0_0_1_2_11_wf : GatherDims.WF S4096x100 S4096x1x1 S4096x1 [] [1] [0] [1] [0] 2 ![1, 1]
  dot_S128x4096_S4096x512_S128x512_1_0_0_1_n_n_wf : DotDims.WF S128x4096 S4096x512 S128x512 [1] [0] [0] [1] [] []
  dot_S4096x128_S128x512_S4096x512_1_0_0_1_n_n_wf : DotDims.WF S4096x128 S128x512 S4096x512 [1] [0] [0] [1] [] []
  dot_S128x4096_S4096x1_S128x1_1_0_0_1_n_n_wf : DotDims.WF S128x4096 S4096x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12288.size a ≤ S4096x12288.size a
  hwx0_0 : ∀ i : grid0.Coords, EltTy.bits .f32 = 32 ∨ (Rect.block (s := S4096x12288) S128x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x12288.size a ≤ S4096x12288.size a
  hwx0_1 : ∀ i : grid0.Coords, EltTy.bits .f32 = 32 ∨ (Rect.block (s := S4096x12288) S128x12288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .f32 = 32 ∨ (Rect.block (s := S4096x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .i32 = 32 ∨ (Rect.block (s := S4096x1) S4096x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)

variable [Facts₀]

def gather_S4096x100_S4096x1x1_S4096x1_n_1_0_0_1_2_11 : GatherDims S4096x100 S4096x1x1 S4096x1 where
  offsetDims := []
  collapsedSliceDims := [1]
  operandBatchingDims := [0]
  startIndicesBatchingDims := [0]
  startIndexMap := [1]
  indexVectorDim := 2
  sliceSizes := ![1, 1]
  wf := gather_S4096x100_S4096x1x1_S4096x1_n_1_0_0_1_2_11_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

abbrev win0_0 : Pipeline.Window sig grid0 :=
  Pipeline.Window.ofSpec (Memref.whole main_v6) S128x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x100 : Shape := ⟨2, ![4096, 100]⟩
abbrev S4096x3x64x64 : Shape := ⟨4, ![4096, 3, 64, 64]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S100 : Shape := ⟨1, ![100]⟩
abbrev S100x512 : Shape := ⟨2, ![100, 512]⟩
abbrev S100x1 : Shape := ⟨2, ![100, 1]⟩
abbrev S7 : Shape := ⟨1, ![7]⟩

abbrev nBuf : Space → Nat
  | .hbm => 197
  | .vmem => 0
  | .smem => 0
  | _ => 0

abbrev hbmTy0_0 (i : Nat) : BufTy := match i % 128 with
  | 0 => ⟨S4096x100, .f32⟩
  | 1 => ⟨S4096x3x64x64, .f32⟩
  | 2 => ⟨S4096x512, .f32⟩
  | 3 => ⟨S4096x512, .f32⟩
  | 4 => ⟨S4096x3x64x64, .f32⟩
  | 5 => ⟨S4096, .i32⟩
  | 6 => ⟨S_, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S4096x100, .f32⟩
  | 13 => ⟨S4096x100, .f32⟩
  | 14 => ⟨S4096x100, .f32⟩
  | 15 => ⟨S_, .f32⟩
  | 16 => ⟨S4096, .f32⟩
  | 17 => ⟨S4096x1, .f32⟩
  | 18 => ⟨S4096x1, .f32⟩
  | 19 => ⟨S4096x100, .f32⟩
  | 20 => ⟨S4096x100, .f32⟩
  | 21 => ⟨S4096x1, .i32⟩
  | 22 => ⟨S_, .i32⟩
  | 23 => ⟨S4096x1, .i32⟩
  | 24 => ⟨S4096x1, .i1⟩
  | 25 => ⟨S_, .i32⟩
  | 26 => ⟨S4096x1, .i32⟩
  | 27 => ⟨S4096x1, .i32⟩
  | 28 => ⟨S4096x1, .i32⟩
  | 29 => ⟨S4096x1x1, .i32⟩
  | 30 => ⟨S1, .i32⟩
  | 31 => ⟨S_, .i32⟩
  | 32 => ⟨S4096x1x1, .i32⟩
  | 33 => ⟨S4096x1x1, .i1⟩
  | 34 => ⟨S1x1x1, .i32⟩
  | 35 => ⟨S4096x1x1, .i32⟩
  | 36 => ⟨S4096x1x1, .i1⟩
  | 37 => ⟨S4096x1x1, .i1⟩
  | 38 => ⟨S_, .i1⟩
  | 39 => ⟨S4096x1, .i1⟩
  | 40 => ⟨S4096x1, .f32⟩
  | 41 => ⟨S_, .f32⟩
  | 42 => ⟨S4096x1, .f32⟩
  | 43 => ⟨S4096x1, .f32⟩
  | 44 => ⟨S_, .f32⟩
  | 45 => ⟨S_, .f32⟩
  | 46 => ⟨S_, .f32⟩
  | 47 => ⟨S_, .f32⟩
  | 48 => ⟨S_, .f32⟩
  | 49 => ⟨S4096x3x64x64, .f32⟩
  | 50 => ⟨S4096x3x64x64, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S4096, .f32⟩
  | 66 => ⟨S_, .f32⟩
  | 67 => ⟨S100, .f32⟩
  | 68 => ⟨S4096x1, .i32⟩
  | 69 => ⟨S100, .f32⟩
  | 70 => ⟨S_, .f32⟩
  | 71 => ⟨S100, .f32⟩
  | 72 => ⟨S100, .f32⟩
  | 73 => ⟨S_, .f32⟩
  | 74 => ⟨S100x512, .f32⟩
  | 75 => ⟨S4096x1, .i32⟩
  | 76 => ⟨S100x512, .f32⟩
  | 77 => ⟨S100x1, .f32⟩
  | 78 => ⟨S100x512, .f32⟩
  | 79 => ⟨S100x512, .f32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S4096x512, .f32⟩
  | 89 => ⟨S4096x512, .f32⟩
  | 90 => ⟨S4096x512, .f32⟩
  | 91 => ⟨S_, .f32⟩
  | 92 => ⟨S4096, .f32⟩
  | 93 => ⟨S_, .f32⟩
  | 94 => ⟨S100, .f32⟩
  | 95 => ⟨S4096x1, .i32⟩
  | 96 => ⟨S100, .f32⟩
  | 97 => ⟨S_, .f32⟩
  | 98 => ⟨S100, .f32⟩
  | 99 => ⟨S100, .f32⟩
  | 100 => ⟨S100, .f32⟩
  | 101 => ⟨S_, .f32⟩
  | 102 => ⟨S4096, .f32⟩
  | 103 => ⟨S_, .f32⟩
  | 104 => ⟨S100, .f32⟩
  | 105 => ⟨S4096x1, .i32⟩
  | 106 => ⟨S100, .f32⟩
  | 107 => ⟨S_, .f32⟩
  | 108 => ⟨S100, .f32⟩
  | 109 => ⟨S100, .f32⟩
  | 110 => ⟨S_, .f32⟩
  | 111 => ⟨S100x512, .f32⟩
  | 112 => ⟨S4096x1, .i32⟩
  | 113 => ⟨S100x512, .f32⟩
  | 114 => ⟨S100x1, .f32⟩
  | 115 => ⟨S100x512, .f32⟩
  | 116 => ⟨S100x512, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x512, .f32⟩
  | 126 => ⟨S4096x512, .f32⟩
  | 127 => ⟨S4096x512, .f32⟩
  | _ => ⟨S4096x100, .f32⟩

abbrev hbmTy0_1 (i : Nat) : BufTy := match i % 128 with
  | 0 => ⟨S_, .f32⟩
  | 1 => ⟨S4096, .f32⟩
  | 2 => ⟨S_, .f32⟩
  | 3 => ⟨S100, .f32⟩
  | 4 => ⟨S4096x1, .i32⟩
  | 5 => ⟨S100, .f32⟩
  | 6 => ⟨S_, .f32⟩
  | 7 => ⟨S100, .f32⟩
  | 8 => ⟨S100, .f32⟩
  | 9 => ⟨S100, .f32⟩
  | 10 => ⟨S_, .f32⟩
  | 11 => ⟨S100, .f32⟩
  | 12 => ⟨S100, .i1⟩
  | 13 => ⟨S100, .f32⟩
  | 14 => ⟨S_, .f32⟩
  | 15 => ⟨S_, .f32⟩
  | 16 => ⟨S_, .f32⟩
  | 17 => ⟨S100, .f32⟩
  | 18 => ⟨S100, .f32⟩
  | 19 => ⟨S_, .f32⟩
  | 20 => ⟨S100, .f32⟩
  | 21 => ⟨S100, .f32⟩
  | 22 => ⟨S_, .f32⟩
  | 23 => ⟨S_, .f32⟩
  | 24 => ⟨S100, .f32⟩
  | 25 => ⟨S100, .f32⟩
  | 26 => ⟨S_, .f32⟩
  | 27 => ⟨S_, .f32⟩
  | 28 => ⟨S_, .f32⟩
  | 29 => ⟨S_, .f32⟩
  | 30 => ⟨S100, .f32⟩
  | 31 => ⟨S100, .f32⟩
  | 32 => ⟨S_, .f32⟩
  | 33 => ⟨S100, .f32⟩
  | 34 => ⟨S100, .f32⟩
  | 35 => ⟨S_, .f32⟩
  | 36 => ⟨S100, .f32⟩
  | 37 => ⟨S100, .f32⟩
  | 38 => ⟨S_, .f32⟩
  | 39 => ⟨S_, .f32⟩
  | 40 => ⟨S100, .f32⟩
  | 41 => ⟨S100, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S1, .f32⟩
  | 62 => ⟨S1, .f32⟩
  | 63 => ⟨S1, .f32⟩
  | 64 => ⟨S1, .f32⟩
  | 65 => ⟨S1, .f32⟩
  | 66 => ⟨S1, .f32⟩
  | 67 => ⟨S1, .f32⟩
  | 68 => ⟨S7, .f32⟩
  | _ => ⟨S4096x100, .f32⟩

abbrev hbmTy (i : Nat) : BufTy := match i / 128 with
  | 0 => hbmTy0_0 i
  | 1 => hbmTy0_1 i
  | _ => ⟨S4096x100, .f32⟩

abbrev bufTy : (tb : Table) → Fin (tcTables nBuf tb) → BufTy
  | .hbm, ⟨i, _⟩ => hbmTy i
  | _, _ => ⟨S4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_cst : Ref sig .tc := ⟨.hbm, 44, rfl⟩
abbrev main_v3 : Ref sig .tc := ⟨.hbm, 45, rfl⟩
abbrev main_cst_0 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_cst_2 : Ref sig .tc := ⟨.hbm, 53, rfl⟩
abbrev main_v9 : Ref sig .tc := ⟨.hbm, 54, rfl⟩
abbrev main_cst_3 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_cst_4 : Ref sig .tc := ⟨.hbm, 60, rfl⟩
abbrev main_v14 : Ref sig .tc := ⟨.hbm, 61, rfl⟩
abbrev main_cst_5 : Ref sig .tc := ⟨.hbm, 62, rfl⟩
abbrev main_v15 : Ref sig .tc := ⟨.hbm, 63, rfl⟩
abbrev main_cst_6 : Ref sig .tc := ⟨.hbm, 64, rfl⟩
abbrev main_v16 : Ref sig .tc := ⟨.hbm, 65, rfl⟩
abbrev main_cst_7 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_cst_8 : Ref sig .tc := ⟨.hbm, 70, rfl⟩
abbrev main_v20 : Ref sig .tc := ⟨.hbm, 71, rfl⟩
abbrev main_v21 : Ref sig .tc := ⟨.hbm, 72, rfl⟩
abbrev main_cst_9 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c : Ref sig .tc := ⟨.hbm, 80, rfl⟩
abbrev main_v28 : Ref sig .tc := ⟨.hbm, 81, rfl⟩
abbrev main_v29 : Ref sig .tc := ⟨.hbm, 82, rfl⟩
abbrev main_c_10 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_11 : Ref sig .tc := ⟨.hbm, 91, rfl⟩
abbrev main_v37 : Ref sig .tc := ⟨.hbm, 92, rfl⟩
abbrev main_cst_12 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_13 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_14 : Ref sig .tc := ⟨.hbm, 101, rfl⟩
abbrev main_v44 : Ref sig .tc := ⟨.hbm, 102, rfl⟩
abbrev main_cst_15 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_16 : Ref sig .tc := ⟨.hbm, 107, rfl⟩
abbrev main_v48 : Ref sig .tc := ⟨.hbm, 108, rfl⟩
abbrev main_v49 : Ref sig .tc := ⟨.hbm, 109, rfl⟩
abbrev main_cst_17 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_c_18 : Ref sig .tc := ⟨.hbm, 117, rfl⟩
abbrev main_v56 : Ref sig .tc := ⟨.hbm, 118, rfl⟩
abbrev main_v57 : Ref sig .tc := ⟨.hbm, 119, rfl⟩
abbrev main_c_19 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_20 : Ref sig .tc := ⟨.hbm, 128, rfl⟩
abbrev main_v65 : Ref sig .tc := ⟨.hbm, 129, rfl⟩
abbrev main_cst_21 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_22 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_23 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_cst_24 : Ref sig .tc := ⟨.hbm, 142, rfl⟩
abbrev main_v75 : Ref sig .tc := ⟨.hbm, 143, rfl⟩
abbrev main_cst_25 : Ref sig .tc := ⟨.hbm, 144, rfl⟩
abbrev main_v76 : Ref sig .tc := ⟨.hbm, 145, rfl⟩
abbrev main_v77 : Ref sig .tc := ⟨.hbm, 146, rfl⟩
abbrev main_call2_cst : Ref sig .tc := ⟨.hbm, 147, rfl⟩
abbrev main_call2_v0 : Ref sig .tc := ⟨.hbm, 148, rfl⟩
abbrev main_v78 : Ref sig .tc := ⟨.hbm, 149, rfl⟩
abbrev main_cst_26 : Ref sig .tc := ⟨.hbm, 150, rfl⟩
abbrev main_call3_v0 : Ref sig .tc := ⟨.hbm, 151, rfl⟩
abbrev main_call3_v1 : Ref sig .tc := ⟨.hbm, 152, rfl⟩
abbrev main_v79 : Ref sig .tc := ⟨.hbm, 153, rfl⟩
abbrev main_cst_27 : Ref sig .tc := ⟨.hbm, 154, rfl⟩
abbrev main_v80 : Ref sig .tc := ⟨.hbm, 155, rfl⟩
abbrev main_v81 : Ref sig .tc := ⟨.hbm, 156, rfl⟩
abbrev main_cst_28 : Ref sig .tc := ⟨.hbm, 157, rfl⟩
abbrev main_v82 : Ref sig .tc := ⟨.hbm, 158, rfl⟩
abbrev main_v83 : Ref sig .tc := ⟨.hbm, 159, rfl⟩
abbrev main_cst_29 : Ref sig .tc := ⟨.hbm, 160, rfl⟩
abbrev main_v84 : Ref sig .tc := ⟨.hbm, 161, rfl⟩
abbrev main_v85 : Ref sig .tc := ⟨.hbm, 162, rfl⟩
abbrev main_call4_cst : Ref sig .tc := ⟨.hbm, 163, rfl⟩
abbrev main_call4_v0 : Ref sig .tc := ⟨.hbm, 164, rfl⟩
abbrev main_v86 : Ref sig .tc := ⟨.hbm, 165, rfl⟩
abbrev main_cst_30 : Ref sig .tc := ⟨.hbm, 166, rfl⟩
abbrev main_call5_v0 : Ref sig .tc := ⟨.hbm, 167, rfl⟩
abbrev main_call5_v1 : Ref sig .tc := ⟨.hbm, 168, rfl⟩
abbrev main_v87 : Ref sig .tc := ⟨.hbm, 169, rfl⟩
abbrev main_cst_31 : Ref sig .tc := ⟨.hbm, 170, rfl⟩
abbrev main_v88 : Ref sig .tc := ⟨.hbm, 171, rfl⟩
abbrev main_v89 : Ref sig .tc := ⟨.hbm, 172, rfl⟩
abbrev main_cst_32 : Ref sig .tc := ⟨.hbm, 173, rfl⟩
abbrev main_v90 : Ref sig .tc := ⟨.hbm, 174, rfl⟩
abbrev main_cst_33 : Ref sig .tc := ⟨.hbm, 175, rfl⟩
abbrev main_v91 : Ref sig .tc := ⟨.hbm, 176, rfl⟩
abbrev main_v92 : Ref sig .tc := ⟨.hbm, 177, rfl⟩
abbrev main_cst_34 : Ref sig .tc := ⟨.hbm, 178, rfl⟩
abbrev main_v93 : Ref sig .tc := ⟨.hbm, 179, rfl⟩
abbrev main_v94 : Ref sig .tc := ⟨.hbm, 180, rfl⟩
abbrev main_cst_35 : Ref sig .tc := ⟨.hbm, 181, rfl⟩
abbrev main_v95 : Ref sig .tc := ⟨.hbm, 182, rfl⟩
abbrev main_v96 : Ref sig .tc := ⟨.hbm, 183, rfl⟩
abbrev main_cst_36 : Ref sig .tc := ⟨.hbm, 184, rfl⟩
abbrev main_v97 : Ref sig .tc := ⟨.hbm, 185, rfl⟩
abbrev main_cst_37 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩

abbrev nD : Nat := 1
abbrev τ : Topo := Topo.v7x

variable {F : FTy → Type} [FloatOps F]

class Facts₀ : Prop where
  reducesTo_S4096x100_S4096_d1 : S4096x100.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x3x64x64_S_d0_1_2_3 : S4096x3x64x64.ReducesTo [0, 1, 2, 3] S_
  bcast_S_S100 : S_.BroadcastsInDim S100 (![] : Fin 0 → Fin S100.rank)
  bcast_S_S100x512 : S_.BroadcastsInDim S100x512 (![] : Fin 0 → Fin S100x512.rank)
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  reducesTo_S4096x512_S4096_d1 : S4096x512.ReducesTo [1] S4096
  reducesTo_S100_S_d0 : S100.ReducesTo [0] S_
  bcast_S_S1 : S_.BroadcastsInDim S1 (![] : Fin 0 → Fin S1.rank)
  concatenates_S1_S1_S1_S1_S1_S1_S1_S7_d0 : Shape.Concatenates [S1, S1, S1, S1, S1, S1, S1] S7 0
  gather_S4096x100_S4096x1x1_S4096x1_n_1_0_0_1_2_11_wf : GatherDims.WF S4096x100 S4096x1x1 S4096x1 [] [1] [0] [1] [0] 2 ![1, 1]
  scatter_S100_S4096x1_S4096_n_0_0_1_wf : ScatterDims.WF S100 S4096x1 S4096 [] [0] [0] 1
  scatter_S100x512_S4096x1_S4096x512_1_0_0_1_wf : ScatterDims.WF S100x512 S4096x1 S4096x512 [1] [0] [0] 1
  gather_S100x512_S4096x1_S4096x512_1_0_n_n_0_1_1512_wf : GatherDims.WF S100x512 S4096x1 S4096x512 [1] [0] [] [0] [] 1 ![1, 512]

variable [Facts₀]

def gather_S4096x100_S4096x1x1_S4096x1_n_1_0_0_1_2_11 : GatherDims S4096x100 S4096x1x1 S4096x1 where
  offsetDims := []
  collapsedSliceDims := [1]
  operandBatchingDims := [0]
  startIndicesBatchingDims := [0]
  startIndexMap := [1]
  indexVectorDim := 2
  sliceSizes := ![1, 1]
  wf := gather_S4096x100_S4096x1x1_S4096x1_n_1_0_0_1_2_11_wf
def scatter_S100_S4096x1_S4096_n_0_0_1 : ScatterDims S100 S4096x1 S4096 where
  updateWindowDims := []
  insertedWindowDims := [0]
  scatterDimsToOperandDims := [0]
  indexVectorDim := 1
  wf := scatter_S100_S4096x1_S4096_n_0_0_1_wf
def scatter_S100x512_S4096x1_S4096x512_1_0_0_1 : ScatterDims S100x512 S4096x1 S4096x512 where
  updateWindowDims := [1]
  insertedWindowDims := [0]
  scatterDimsToOperandDims := [0]
  indexVectorDim := 1
  wf := scatter_S100x512_S4096x1_S4096x512_1_0_0_1_wf
def gather_S100x512_S4096x1_S4096x512_1_0_n_n_0_1_1512 : GatherDims S100x512 S4096x1 S4096x512 where
  offsetDims := [1]
  collapsedSliceDims := [0]
  operandBatchingDims := []
  startIndicesBatchingDims := []
  startIndexMap := [0]
  indexVectorDim := 1
  sliceSizes := ![1, 512]
  wf := gather_S100x512_S4096x1_S4096x512_1_0_n_n_0_1_1512_wf

class Facts : Prop extends Facts₀ where

variable [Facts]
-- ==== Proof.K.R0Run.lean ====
/-
  The reconstruction-statistics kernel's body as Hoare triples, at any float instance.

  At a grid point the body adds the block's sum of squared differences onto a running sum kept in a scratch buffer
  and folds the block's maximum into a running maximum kept in a second one, after resetting both at the first
  point of each core's row of the grid; it then copies both scratch buffers to the output blocks.
-/
import proofs.«403987_j59588376264841_3_alg».proof.Proof.Gen.Kernel.Launch
import proofs.«403987_j59588376264841_3_alg».proof.Proof.Gen.Kernel.Skeleton
import proofs.«403987_j59588376264841_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: every access is the whole block -/

abbrev rB : Rect S128x12288 := Rect.unit (s := S128x12288) ![0, 0] S128x12288.size inb_S128x12288_S128x12288_0_0
abbrev rS : Rect S8x128 := Rect.unit (s := S8x128) ![0, 0] S8x128.size inb_S8x128_S8x128_0_0

/-- The body's one branch: taken at the points whose second grid coordinate is zero. -/
abbrev isFirst (i : grid0.Coords) : Prop :=
  (Scalar.cmpi .ne (Scalar.extui (Scalar.cmpi .eq (BitVec.ofNat 32 (i 1).val) 0#32)) 0#32) = 1#1

theorem hz2 : (![0, 0] : Fin 2 → ℕ) = fun _ => 0 := by funext a; fin_cases a <;> rfl

/-- One store of the whole block covers it, -/
theorem coverS (p0 : Vec F S8x128 .f32) (y : S8x128.Idx) :
    ∃ pc ∈ ([⟨rS, p0⟩] : List (View.Piece (Elt F) S8x128 .f32)), y ∈ pc.1.set :=
  View.cover_of_tiled [⟨rS, p0⟩] S8x128.size (by rfl) y

/-- whatever was stored before. -/
theorem coverS2 (p0 : Vec F S8x128 .f32) (L : List (View.Piece (Elt F) S8x128 .f32)) (y : S8x128.Idx) :
    ∃ pc ∈ ((⟨rS, p0⟩ : View.Piece (Elt F) S8x128 .f32) :: L), y ∈ pc.1.set := by
  obtain ⟨pc, h, hy⟩ := coverS p0 y
  rw [List.mem_singleton] at h; subst h
  exact ⟨_, List.mem_cons_self .., hy⟩

/-- A load of the whole block after a store of the whole block reads what was stored last. -/
theorem readCov_last {κ : Kind} {sp : Space} (v : View sig κ sp S8x128 .f32) (w : Vec F S8x128 .f32) (L : List (View.Piece (Elt F) S8x128 .f32)) :
    v.readCov ((⟨Rect.unit ![0, 0] ![8, 128] inb_S8x128_S8x128_0_0, w⟩ : View.Piece (Elt F) S8x128 .f32) :: L) (Rect.unit ![0, 0] ![8, 128] inb_S8x128_S8x128_0_0).toLoadRect = w := by
  rw [View.readCov_eq_canon_ld _ _ _ (coverS2 w L)]
  exact (congrArg (fun X => View.ld X rS) (View.canon_cons_unit_zero (S := S8x128) hz2 _ w L)).trans (View.ld_unit_zero (S := S8x128) hz2 _ w)

/-- What stores ending in one of the whole block leave. -/
theorem read_writes_last {κ : Kind} {sp : Space} (v : View sig κ sp S8x128 .f32) (f : v.ty.Contents (Elt F)) (w : Vec F S8x128 .f32) (L : List (View.Piece (Elt F) S8x128 .f32)) :
    v.read (Elt F) (v.writes (Elt F) f ((⟨Rect.unit ![0, 0] ![8, 128] inb_S8x128_S8x128_0_0, w⟩ : View.Piece (Elt F) S8x128 .f32) :: L)) = w :=
  (View.read_writes_eq_canon _ _ _ (coverS2 w L)).trans (View.canon_cons_unit_zero (S := S8x128) hz2 _ w L)

set_option maxHeartbeats 4000000 in
/-- At a first point: the scratch buffers hold anything before, and afterwards what one step makes of the reset values.
    Both output blocks end as copies of the scratch buffers. -/
theorem sound_kernel0_first (c : Dev nD) (E : Set ℕ) (i : grid0.Coords) (hc : isFirst i)
    (arg2 : Memref sig .tc .vmem S128x12288 .f32) (harg2 : arg2.IsWhole) (arg3 : Memref sig .tc .vmem S128x12288 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (x y : Vec F S128x12288 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare y
            ∗ owns (c : Thread nD τ) arg4 fullShare (k0_pay3 x y k0_pay1) ∗ owns (c : Thread nD τ) arg5 fullShare (k0_pay4 y k0_pay2)
            ∗ owns (c : Thread nD τ) arg6 fullShare (k0_pay3 x y k0_pay1) ∗ owns (c : Thread nD τ) arg7 fullShare (k0_pay4 y k0_pay2)) -∗ K ⟨⟩))
      ⊢ wp frame (wpE (defs₀ (F := F)) Variants.none c none) E (cc0__rec_stats_kernel i arg2 harg2 arg3 harg3 arg4 harg4 arg5 harg5 arg6 harg6 arg7 harg7) K := by
  simp only [cc0__rec_stats_kernel_eq_skeleton]; unfold cc0__rec_stats_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [read_writes_last, readCov_last, View.readAt_eq_ld, View.ld_unit_zero (S := S128x12288) hz2, View.ld_unit_zero (S := S8x128) hz2]
  isplitl [H5]
  · iexists _; isplitr
    swap; · iexact H5
    ipureintro
    sl_unfold_words
    simp only [read_writes_last, readCov_last, View.readAt_eq_ld, View.ld_unit_zero (S := S128x12288) hz2, View.ld_unit_zero (S := S8x128) hz2]
  isplitl [H6]
  · iexists _; isplitr
    swap; · iexact H6
    ipureintro
    sl_unfold_words
    simp only [read_writes_last, readCov_last, View.readAt_eq_ld, View.ld_unit_zero (S := S128x12288) hz2, View.ld_unit_zero (S := S8x128) hz2]
  iexists _; isplitr
  swap; · iexact H7
  ipureintro
  sl_unfold_words
  simp only [read_writes_last, readCov_last, View.readAt_eq_ld, View.ld_unit_zero (S := S128x12288) hz2, View.ld_unit_zero (S := S8x128) hz2]

set_option maxHeartbeats 4000000 in
/-- At a later point: the scratch buffers hold `s6`, `s7` before, and afterwards what one step makes of them.
    Both output blocks end as copies of the scratch buffers. -/
theorem sound_kernel0_later (c : Dev nD) (E : Set ℕ) (i : grid0.Coords) (hc : ¬ isFirst i)
    (arg2 : Memref sig .tc .vmem S128x12288 .f32) (harg2 : arg2.IsWhole) (arg3 : Memref sig .tc .vmem S128x12288 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (x y : Vec F S128x12288 .f32) (s6 s7 : Vec F S8x128 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare x ∗ owns (c : Thread nD τ) arg3 fullShare y
            ∗ owns (c : Thread nD τ) arg4 fullShare (k0_pay3 x y s6) ∗ owns (c : Thread nD τ) arg5 fullShare (k0_pay4 y s7)
            ∗ owns (c : Thread nD τ) arg6 fullShare (k0_pay3 x y s6) ∗ owns (c : Thread nD τ) arg7 fullShare (k0_pay4 y s7)) -∗ K ⟨⟩))
      ⊢ wp frame (wpE (defs₀ (F := F)) Variants.none c none) E (cc0__rec_stats_kernel i arg2 harg2 arg3 harg3 arg4 harg4 arg5 harg5 arg6 harg6 arg7 harg7) K := by
  simp only [cc0__rec_stats_kernel_eq_skeleton]; unfold cc0__rec_stats_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf2; subst hf3; subst hf6; subst hf7
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [read_writes_last, readCov_last, View.readAt_eq_ld, View.ld_unit_zero (S := S128x12288) hz2, View.ld_unit_zero (S := S8x128) hz2]
  isplitl [H5]
  · iexists _; isplitr
    swap; · iexact H5
    ipureintro
    sl_unfold_words
    simp only [read_writes_last, readCov_last, View.readAt_eq_ld, View.ld_unit_zero (S := S128x12288) hz2, View.ld_unit_zero (S := S8x128) hz2]
  isplitl [H6]
  · iexists _; isplitr
    swap; · iexact H6
    ipureintro
    sl_unfold_words
    simp only [read_writes_last, readCov_last, View.readAt_eq_ld, View.ld_unit_zero (S := S128x12288) hz2, View.ld_unit_zero (S := S8x128) hz2]
  iexists _; isplitr
  swap; · iexact H7
  ipureintro
  sl_unfold_words
  simp only [read_writes_last, readCov_last, View.readAt_eq_ld, View.ld_unit_zero (S := S128x12288) hz2, View.ld_unit_zero (S := S8x128) hz2]

end Cert.Kernel.Hand

end
-- ==== Proof.K.R0Dat.lean ====
/-
  The reconstruction-statistics kernel's region: the running sum and maximum point by point, the pipeline's proof
  data and the body obligation, at the contents `V` the region is entered with.

  The grid is 2 × 16, walked row by row: positions 0 … 15 belong to the first row, 16 … 31 to the second. At the first
  position of a row the two scratch buffers are reset before the block's contribution is folded in; at every other
  position the contribution is folded into what the position before left. Both output blocks are copies of the
  scratch buffers at every position, and are written back when the row ends.
-/
import proofs.«403987_j59588376264841_3_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken exactly at the positions that start a row of the grid. -/
theorem isFirst_iff : ∀ t : Fin cfg0.N, isFirst (grid0.coords t) ↔ t.val % 16 = 0 :=
  (by decide +kernel : ∀ t : Fin grid0.N, isFirst (grid0.coords t) ↔ t.val % 16 = 0)

/-- The two scratch buffers, whole. -/
abbrev scSum : Memref sig .tc .vmem S8x128 .f32 := Memref.whole cc0_scratch0
abbrev scMax : Memref sig .tc .vmem S8x128 .f32 := Memref.whole cc0_scratch1

/-- The core's other scoped buffers (the second kernel's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- What the region is entered with besides the windows: every scoped buffer that is no staging buffer of this kernel
    at some contents — the two scratch buffers among them — and the generator register. -/
theorem PhiA0_eq (c : Dev nD) :
    (Pipeline.ΦA spec0 c : sProp 𝕄)
      = iprop(((∃ d, owns (c : Thread nD τ) scSum fullShare d) ∗ (∃ d, owns (c : Thread nD τ) scMax fullShare d) ∗ otherScoped c) ∗ (∃ r, prngReg c r)) := by
  unfold Pipeline.ΦA otherScoped; rw [scopedRest0_eq]; simp only [scSum, scMax, owns_whole]; try rfl

section
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the running sum and the running maximum after position `n` — one step from the reset values at
    a position that starts a row, one step from what the position before left elsewhere. -/
def accAt0 (c : Dev nD) : (n : ℕ) → n < cfg0.N → Vec F S8x128 .f32 × Vec F S8x128 .f32
  | 0, hn => (k0_pay3 (iblk0 V c 0 ⟨0, hn⟩) (iblk0 V c 1 ⟨0, hn⟩) k0_pay1, k0_pay4 (iblk0 V c 1 ⟨0, hn⟩) k0_pay2)
  | n + 1, hn =>
    if (n + 1) % 16 = 0 then
      (k0_pay3 (iblk0 V c 0 ⟨n + 1, hn⟩) (iblk0 V c 1 ⟨n + 1, hn⟩) k0_pay1, k0_pay4 (iblk0 V c 1 ⟨n + 1, hn⟩) k0_pay2)
    else
      (k0_pay3 (iblk0 V c 0 ⟨n + 1, hn⟩) (iblk0 V c 1 ⟨n + 1, hn⟩) (accAt0 c n (Nat.lt_of_succ_lt hn)).1,
        k0_pay4 (iblk0 V c 1 ⟨n + 1, hn⟩) (accAt0 c n (Nat.lt_of_succ_lt hn)).2)

theorem accAt0_first (c : Dev nD) (t : Fin cfg0.N) (h : t.val % 16 = 0) :
    accAt0 V c t.val t.isLt = (k0_pay3 (iblk0 V c 0 t) (iblk0 V c 1 t) k0_pay1, k0_pay4 (iblk0 V c 1 t) k0_pay2) := by
  obtain ⟨n, hn⟩ := t
  cases n with
  | zero => rfl
  | succ n => exact if_pos h

theorem accAt0_later (c : Dev nD) (t : Fin cfg0.N) (h : ¬ t.val % 16 = 0) :
    accAt0 V c t.val t.isLt = (k0_pay3 (iblk0 V c 0 t) (iblk0 V c 1 t) (accAt0 V c (t.val - 1) (Nat.lt_of_le_of_lt (Nat.sub_le _ _) t.isLt)).1,
      k0_pay4 (iblk0 V c 1 t) (accAt0 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: at the start what the region was entered with; afterwards the two
    scratch buffers at what the position before left, the other scoped buffers at anything, the generator register. -/
def PhiS0 (c : Dev nD) : (n : ℕ) → n ≤ cfg0.N → sProp 𝕄
  | 0, _ => Pipeline.ΦA spec0 c
  | n + 1, hn => iprop((owns (c : Thread nD τ) scSum fullShare (accAt0 V c n hn).1 ∗ owns (c : Thread nD τ) scMax fullShare (accAt0 V c n hn).2 ∗ otherScoped c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scSum fullShare (accAt0 V c n hn).1 ∗ owns (c : Thread nD τ) scMax fullShare (accAt0 V c n hn).2 ∗ otherScoped c) ∗ (∃ r, prngReg c r)) := rfl

theorem PhiS0_pos (c : Dev nD) (n : ℕ) (h : n ≤ cfg0.N) (hz : n ≠ 0) :
    PhiS0 V c n h = iprop((owns (c : Thread nD τ) scSum fullShare (accAt0 V c (n - 1) (by omega)).1 ∗ owns (c : Thread nD τ) scMax fullShare (accAt0 V c (n - 1) (by omega)).2 ∗ otherScoped c) ∗ (∃ r, prngReg c r)) := by
  cases n with
  | zero => exact absurd rfl hz
  | succ n => rfl

/-- The proof data of the pipeline on core `c`: the arrays as the region finds them; after the body at position `t`
    each input's buffer at its block, the two outputs' at the running sum and maximum; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any position: the inputs' buffers hold their blocks; whether the position starts a row decides which
    triple applies; the invariant hands the body the scratch buffers at what the position before left (at anything
    at the very first position) and takes them back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2, after0_3, PhiS0_castSucc V c t]
  by_cases h0 : t.val % 16 = 0
  · rw [accAt0_first V c t h0]
    by_cases hz : t.val = 0
    · rw [PhiS0_zero V c _ _ hz, PhiA0_eq]
      iintro ⟨⟨⟨HS, HM, HR⟩, Hg⟩, Ho, ⟨%d0, H0⟩, ⟨%d1, H1⟩, ⟨%d2, H2⟩, ⟨%d3, H3⟩⟩
      iapply (sound_kernel0_first c Set.univ (grid0.coords t) ((isFirst_iff t).mpr h0) _ _ _ _ _ _ _ _ _ _ _ _ (iblk0 V c 0 t) (iblk0 V c 1 t) _)
      isplitl [H0]; · iexact H0
      isplitl [H1]; · iexact H1
      isplitl [H2]; · iexists _; iexact H2
      isplitl [H3]; · iexists _; iexact H3
      isplitl [HS]; · iexact HS
      isplitl [HM]; · iexact HM
      iintro ⟨H0, H1, H2, H3, HS, HM⟩
      isplitl [HS HM HR Hg]
      · isplitr [Hg]
        · isplitl [HS]; · iexact HS
          isplitl [HM]; · iexact HM
          iexact HR
        · iexact Hg
      isplitl [Ho]; · iexact Ho
      isplitl [H0]; · iexact H0
      isplitl [H1]; · iexact H1
      isplitl [H2]; · iexact H2
      iexact H3
    · rw [PhiS0_pos V c _ _ hz]
      iintro ⟨⟨⟨HS, HM, HR⟩, Hg⟩, Ho, ⟨%d0, H0⟩, ⟨%d1, H1⟩, ⟨%d2, H2⟩, ⟨%d3, H3⟩⟩
      iapply (sound_kernel0_first c Set.univ (grid0.coords t) ((isFirst_iff t).mpr h0) _ _ _ _ _ _ _ _ _ _ _ _ (iblk0 V c 0 t) (iblk0 V c 1 t) _)
      isplitl [H0]; · iexact H0
      isplitl [H1]; · iexact H1
      isplitl [H2]; · iexists _; iexact H2
      isplitl [H3]; · iexists _; iexact H3
      isplitl [HS]; · iexists _; iexact HS
      isplitl [HM]; · iexists _; iexact HM
      iintro ⟨H0, H1, H2, H3, HS, HM⟩
      isplitl [HS HM HR Hg]
      · isplitr [Hg]
        · isplitl [HS]; · iexact HS
          isplitl [HM]; · iexact HM
          iexact HR
        · iexact Hg
      isplitl [Ho]; · iexact Ho
      isplitl [H0]; · iexact H0
      isplitl [H1]; · iexact H1
      isplitl [H2]; · iexact H2
      iexact H3
  · rw [accAt0_later V c t h0]
    have hz : t.val ≠ 0 := fun e => h0 (by rw [e])
    rw [PhiS0_pos V c _ _ hz]
    iintro ⟨⟨⟨HS, HM, HR⟩, Hg⟩, Ho, ⟨%d0, H0⟩, ⟨%d1, H1⟩, ⟨%d2, H2⟩, ⟨%d3, H3⟩⟩
    iapply (sound_kernel0_later c Set.univ (grid0.coords t) (fun h => h0 ((isFirst_iff t).mp h)) _ _ _ _ _ _ _ _ _ _ _ _ (iblk0 V c 0 t) (iblk0 V c 1 t) _ _ _)
    isplitl [H0]; · iexact H0
    isplitl [H1]; · iexact H1
    isplitl [H2]; · iexists _; iexact H2
    isplitl [H3]; · iexists _; iexact H3
    isplitl [HS]; · iexact HS
    isplitl [HM]; · iexact HM
    iintro ⟨H0, H1, H2, H3, HS, HM⟩
    isplitl [HS HM HR Hg]
    · isplitr [Hg]
      · isplitl [HS]; · iexact HS
        isplitl [HM]; · iexact HM
        iexact HR
      · iexact Hg
    isplitl [Ho]; · iexact Ho
    isplitl [H0]; · iexact H0
    isplitl [H1]; · iexact H1
    isplitl [H2]; · iexact H2
    iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives it back: the scratch buffers' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HM, HR⟩, Hg⟩
  isplitr [Hg]
  · isplitl [HS]; · iexists _; iexact HS
    isplitl [HM]; · iexists _; iexact HM
    iexact HR
  · iexact Hg

end

end Cert.Kernel.Hand

end
-- ==== Proof.K.R1Run.lean ====
/-
  The per-class kernel's body as a Hoare triple, at any float instance.

  The body reads its three input blocks whole (the two feature matrices and the label column), and stores three
  rows of 128 lanes: the class counts, and for each feature matrix the per-class mean absolute deviation. Each
  stored row is a pure function of the blocks read; the triple names them.
-/
import proofs.«403987_j59588376264841_3_alg».proof.Proof.Gen.Kernel.Launch
import proofs.«403987_j59588376264841_3_alg».proof.Proof.Gen.Kernel.Skeleton
import proofs.«403987_j59588376264841_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: every access is the whole block -/

abbrev rX : Rect S4096x512 := Rect.unit (s := S4096x512) ![0, 0] S4096x512.size inb_S4096x512_S4096x512_0_0
abbrev rL : Rect S4096x1 := Rect.unit (s := S4096x1) ![0, 0] S4096x1.size inb_S4096x1_S4096x1_0_0
abbrev rO : Rect S1x128 := Rect.unit (s := S1x128) ![0, 0] S1x128.size inb_S1x128_S1x128_0_0

/-! ## What the body leaves in each output row -/

/-- The class counts: column sums of the one-hot matrix of the labels. -/
def cntRow (lbl : Vec F S4096x1 .i32) : Vec F S1x128 .f32 :=
  View.canon [⟨rO, k1_pay3 (View.ld lbl rL)⟩]

/-- The first feature matrix's per-class mean absolute deviation. -/
def devRowX (lbl : Vec F S4096x1 .i32) (x : Vec F S4096x512 .f32) : Vec F S1x128 .f32 :=
  View.canon [⟨rO, k1_pay5 (View.ld lbl rL) (View.ld x rX)⟩]

/-- The second feature matrix's. -/
def devRowY (lbl : Vec F S4096x1 .i32) (y : Vec F S4096x512 .f32) : Vec F S1x128 .f32 :=
  View.canon [⟨rO, k1_pay1 (k1_pay2 (View.ld lbl rL)) (k1_pay4 (View.ld lbl rL)) (k1_pay6 (View.ld lbl rL) (View.ld y rX))⟩]

/-- One store of the whole row covers it. -/
theorem coverO (p0 : Vec F S1x128 .f32) (y : S1x128.Idx) :
    ∃ pc ∈ ([⟨rO, p0⟩] : List (View.Piece (Elt F) S1x128 .f32)), y ∈ pc.1.set :=
  View.cover_of_tiled [⟨rO, p0⟩] S1x128.size (by rfl) y

/-! ## The triple -/

set_option maxHeartbeats 4000000 in
/-- On whole staging memrefs, the inputs at contents `x`, `y`, `lbl` and the outputs at anything, the body runs to
    the continuation with the inputs unchanged and the three output rows at their named contents. -/
theorem sound_kernel1 (c : Dev nD) (E : Set ℕ) (i : grid1.Coords)
    (arg1 : Memref sig .tc .vmem S4096x512 .f32) (harg1 : arg1.IsWhole) (arg2 : Memref sig .tc .vmem S4096x512 .f32) (harg2 : arg2.IsWhole)
    (arg3 : Memref sig .tc .vmem S4096x1 .i32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (x y : Vec F S4096x512 .f32) (lbl : Vec F S4096x1 .i32) (K : PUnit → sProp 𝕄) :
    iprop(owns (c : Thread nD τ) arg1 fullShare x ∗ owns (c : Thread nD τ) arg2 fullShare y ∗ owns (c : Thread nD τ) arg3 fullShare lbl
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare y ∗ owns (c : Thread nD τ) arg3 fullShare lbl
            ∗ owns (c : Thread nD τ) arg4 fullShare (cntRow lbl) ∗ owns (c : Thread nD τ) arg5 fullShare (devRowX lbl x)
            ∗ owns (c : Thread nD τ) arg6 fullShare (devRowY lbl y)) -∗ K ⟨⟩))
      ⊢ wp frame (wpE (defs₀ (F := F)) Variants.none c none) E (cc1__per_class_kernel i arg1 harg1 arg2 harg2 arg3 harg3 arg4 harg4 arg5 harg5 arg6 harg6) K := by
  simp only [cc1__per_class_kernel_eq_skeleton]; unfold cc1__per_class_kernel_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.Kernel.Hand

end
-- ==== Proof.K.R1Dat.lean ====
/-
  The per-class kernel's region: the pipeline's proof data and the body obligation, at the contents `V` the region
  is entered with.

  The grid has one point. Each input window's staging buffer holds the whole array; each output window's buffer is
  left at its named row and written back at that point.
-/
import proofs.«403987_j59588376264841_3_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the per-class pipeline on core `c`: the arrays as the region finds them; after the body each
    input's buffer at its block, the three outputs' at the counts and the two deviation rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => cntRow (iblk1 V c 2 t)
    | ⟨4, _⟩ => devRowX (iblk1 V c 2 t) (iblk1 V c 0 t)
    | ⟨5, _⟩ => devRowY (iblk1 V c 2 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = cntRow (iblk1 V c 2 t) := by dsimp only [dat1]
theorem after1_4 (c : Dev nD) (t : Fin cfg1.N) : (dat1 V c).after 4 t = devRowX (iblk1 V c 2 t) (iblk1 V c 0 t) := by dsimp only [dat1]
theorem after1_5 (c : Dev nD) (t : Fin cfg1.N) : (dat1 V c).after 5 t = devRowY (iblk1 V c 2 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Launch.lean ====
/-
  The kernel program's launch: its two kernel regions as segments of @main, the frame (every argument array ends as
  launched) and the run with the result buffer named.

  Between @main's items core `c` holds every unscoped buffer at a valuation: the launch contents, then each host
  stretch's operations applied, then at a region's exit its output arrays at what the pipeline's write-backs leave.
  The regions' unknown outputs are instantiated by those arrays.
-/
import proofs.«403987_j59588376264841_3_alg».proof.Proof.K.R0Dat
import proofs.«403987_j59588376264841_3_alg».proof.Proof.K.R1Dat
import proofs.«403987_j59588376264841_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev Rst (c : Dev nD) : sProp 𝕄 := iprop((∃ r, prngReg c r) ∗ ∃ W, owes (c : Thread nD τ) (0 : CellTallies nD τ sig Unit) W)

/-! ## The contents at the regions' boundaries -/

/-- What the first region is entered with, read at the TensorCore's references. -/
abbrev Vin0 : (c : Dev nD) → (b : Ref sig .tc) → Buf (Elt F) ((c : Thread nD τ).loc b) := fun c b => Gen.V4 m c b
/-- At its exit: its arrays at what the pipeline leaves, every other buffer as entered. -/
def W5 (c : Dev nD) : Valuation τ sig (Elt F) :=
  Pipeline.withArrays spec0 c (Gen.V4 m c) fun w => (dat0 (Vin0 m) c).arrAt w cfg0.N
/-- The first region's outputs as the unknowns of the generated valuations. -/
def outs0 : Gen.Outs (F := F) := fun _ r c => W5 m c (Proc.devRef .tc r)
/-- What the second region is entered with. -/
abbrev Vin1 : (c : Dev nD) → (b : Ref sig .tc) → Buf (Elt F) ((c : Thread nD τ).loc b) := fun c b => Gen.V6 m (outs0 m) c b
def W7 (c : Dev nD) : Valuation τ sig (Elt F) :=
  Pipeline.withArrays spec1 c (Gen.V6 m (outs0 m) c) fun w => (dat1 (Vin1 m) c).arrAt w cfg1.N
/-- Both regions' outputs: the second's at item 7, the first's elsewhere. -/
def outs : Gen.Outs (F := F) := fun n r c => if n = 7 then W7 m c (Proc.devRef .tc r) else W5 m c (Proc.devRef .tc r)

theorem outs_5 (r : Ref sig .tc) (c : Dev nD) : outs m 5 r c = W5 m c (Proc.devRef .tc r) := rfl
theorem outs_7 (r : Ref sig .tc) (c : Dev nD) : outs m 7 r c = W7 m c (Proc.devRef .tc r) := rfl
theorem V5_outs (c : Dev nD) : Gen.V5 m (outs m) c = Gen.V5 m (outs0 m) c := rfl
theorem V6_outs (c : Dev nD) : Gen.V6 m (outs m) c = Gen.V6 m (outs0 m) c := rfl

abbrev Vout0 : (c : Dev nD) → (b : Ref sig .tc) → Buf (Elt F) ((c : Thread nD τ).loc b) := fun c b => Gen.V5 m (outs m) c b
abbrev Vout1 : (c : Dev nD) → (b : Ref sig .tc) → Buf (Elt F) ((c : Thread nD τ).loc b) := fun c b => Gen.V7 m (outs m) c b

theorem W5_arr (c : Dev nD) (w : Fin cfg0.W) :
    W5 m c (Proc.devRef .tc (Pipeline.arrRef spec0 w)) = (dat0 (Vin0 m) c).arrAt w cfg0.N := by
  unfold W5; exact Pipeline.withArrays_arr spec0 launch0.win.arr_inj c _ _ w
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w

/-- At the first region's exit each of its arrays holds what the pipeline leaves, -/
theorem hF0 (c : Dev nD) (w : Fin cfg0.W) : (dat0 (Vin0 m) c).arrAt w cfg0.N = Vout0 m c (Pipeline.arrRef spec0 w) := by
  match w with
  | ⟨0, _⟩ => exact (((dat0 (Vin0 m) c).arrAt_in 0 rfl _).trans (A_eq0 (Vin0 m) c 0)).trans (Gen.V5_of m (outs m) c main_v6 (by decide)).symm
  | ⟨1, _⟩ => exact (((dat0 (Vin0 m) c).arrAt_in 1 rfl _).trans (A_eq0 (Vin0 m) c 1)).trans (Gen.V5_of m (outs m) c main_v7 (by decide)).symm
  | ⟨2, _⟩ =>
    show _ = Function.update (Function.update (Gen.V4 m c) main_v8_0 (outs m 5 main_v8_0 c)) main_v8_1 (outs m 5 main_v8_1 c) main_v8_0
    rw [Function.update_of_ne (StableHlo.devRef_ne_of_ne (by decide)), Function.update_self, outs_5]
    exact (W5_arr m c 2).symm
  | ⟨3, _⟩ =>
    show _ = Function.update (Function.update (Gen.V4 m c) main_v8_0 (outs m 5 main_v8_0 c)) main_v8_1 (outs m 5 main_v8_1 c) main_v8_1
    rw [Function.update_self, outs_5]
    exact (W5_arr m c 3).symm
/-- and every other buffer what it held at entry. -/
theorem hrest0 (c : Dev nD) : ∀ b, b ∉ Finset.univ.image (Pipeline.arrRef spec0) → Vout0 m c b = Vin0 m c b := fun b hb =>
  Gen.V5_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

theorem hF1 (c : Dev nD) (w : Fin cfg1.W) : (dat1 (Vin1 m) c).arrAt w cfg1.N = Vout1 m c (Pipeline.arrRef spec1 w) := by
  match w with
  | ⟨0, _⟩ => exact (((dat1 (Vin1 m) c).arrAt_in 0 rfl _).trans (A_eq1 (Vin1 m) c 0)).trans (Gen.V7_of m (outs m) c main_arg2 (by decide)).symm
  | ⟨1, _⟩ => exact (((dat1 (Vin1 m) c).arrAt_in 1 rfl _).trans (A_eq1 (Vin1 m) c 1)).trans (Gen.V7_of m (outs m) c main_arg3 (by decide)).symm
  | ⟨2, _⟩ => exact (((dat1 (Vin1 m) c).arrAt_in 2 rfl _).trans (A_eq1 (Vin1 m) c 2)).trans (Gen.V7_of m (outs m) c main_v25 (by decide)).symm
  | ⟨3, _⟩ =>
    show _ = Function.update (Function.update (Function.update (Gen.V6 m (outs m) c) main_v26_0 (outs m 7 main_v26_0 c)) main_v26_1 (outs m 7 main_v26_1 c)) main_v26_2 (outs m 7 main_v26_2 c) main_v26_0
    rw [Function.update_of_ne (StableHlo.devRef_ne_of_ne (by decide)), Function.update_of_ne (StableHlo.devRef_ne_of_ne (by decide)), Function.update_self, outs_7]
    exact (W7_arr m c 3).symm
  | ⟨4, _⟩ =>
    show _ = Function.update (Function.update (Function.update (Gen.V6 m (outs m) c) main_v26_0 (outs m 7 main_v26_0 c)) main_v26_1 (outs m 7 main_v26_1 c)) main_v26_2 (outs m 7 main_v26_2 c) main_v26_1
    rw [Function.update_of_ne (StableHlo.devRef_ne_of_ne (by decide)), Function.update_self, outs_7]
    exact (W7_arr m c 4).symm
  | ⟨5, _⟩ =>
    show _ = Function.update (Function.update (Function.update (Gen.V6 m (outs m) c) main_v26_0 (outs m 7 main_v26_0 c)) main_v26_1 (outs m 7 main_v26_1 c)) main_v26_2 (outs m 7 main_v26_2 c) main_v26_2
    rw [Function.update_self, outs_7]
    exact (W7_arr m c 5).symm
theorem hrest1 (c : Dev nD) : ∀ b, b ∉ Finset.univ.image (Pipeline.arrRef spec1) → Vout1 m c b = Vin1 m c b := fun b hb =>
  Gen.V7_of m (outs m) c b (by
    intro h
    rcases List.mem_cons.mp h with h | h
    · exact hb (Finset.mem_image.mpr ⟨3, Finset.mem_univ _, h.symm⟩)
    · rcases List.mem_cons.mp h with h | h
      · exact hb (Finset.mem_image.mpr ⟨4, Finset.mem_univ _, h.symm⟩)
      · rcases List.mem_cons.mp h with h | h
        · exact hb (Finset.mem_image.mpr ⟨5, Finset.mem_univ _, h.symm⟩)
        · exact absurd h (List.not_mem_nil))

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-! ## The regions as segments -/

-- unification with the pinned configuration may unfold plain definitions in a metavariable's type
set_option backward.isDefEq.respectTransparency.types false in
/-- Region 0 over the thread state: entered from every unscoped buffer at the contents before it, left at the
    contents after it. Its arrays are split out of the unscoped buffers and put back at what the pipeline leaves; the
    generator register goes into the invariant and comes out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V4 m c) ∗ Rst c)
  post c := iprop(StableHlo.held (c : Thread nD τ) (Pipeline.ucRefs τ sig) (Gen.V5 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at the contents before it, left at the
    contents after it. Its arrays are split out of the unscoped buffers and put back at what the pipeline leaves; the
    generator register goes into the invariant and comes out; nothing is owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outs0 m) c) ∗ Rst c)
  post c := iprop(StableHlo.held (c : Thread nD τ) (Pipeline.ucRefs τ sig) (Gen.V7 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the launch theorem's implicit arguments are found by unifying its conclusion with this one
set_option backward.isDefEq.respectTransparency.types false in
/-- THE FRAME at any float instance: from any memory with zero counters every weakly fair execution of @main
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => .rfl) (fun c => .rfl)
    (reg1 m) (fun c => .rfl) (fun c => .rfl)

end Cert.Kernel.Hand

end
-- ==== Proof.KI.R0Run.lean ====
/-
  The reconstruction-statistics kernel's body as Hoare triples, at any float instance.

  At a grid point the body adds the block's sum of squared differences onto a running sum kept in a scratch buffer
  and folds the block's maximum into a running maximum kept in a second one, after resetting both at the first
  point of each core's row of the grid; it then copies both scratch buffers to the output blocks.
-/
import proofs.«403987_j59588376264841_3_alg».proof.Proof.Gen.KernelIdeal.Launch
import proofs.«403987_j59588376264841_3_alg».proof.Proof.Gen.KernelIdeal.Skeleton
import proofs.«403987_j59588376264841_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: every access is the whole block -/

abbrev rB : Rect S128x12288 := Rect.unit (s := S128x12288) ![0, 0] S128x12288.size inb_S128x12288_S128x12288_0_0
abbrev rS : Rect S8x128 := Rect.unit (s := S8x128) ![0, 0] S8x128.size inb_S8x128_S8x128_0_0

/-- The body's one branch: taken at the points whose second grid coordinate is zero. -/
abbrev isFirst (i : grid0.Coords) : Prop :=
  (Scalar.cmpi .ne (Scalar.extui (Scalar.cmpi .eq (BitVec.ofNat 32 (i 1).val) 0#32)) 0#32) = 1#1

theorem hz2 : (![0, 0] : Fin 2 → ℕ) = fun _ => 0 := by funext a; fin_cases a <;> rfl

/-- One store of the whole block covers it, -/
theorem coverS (p0 : Vec F S8x128 .f32) (y : S8x128.Idx) :
    ∃ pc ∈ ([⟨rS, p0⟩] : List (View.Piece (Elt F) S8x128 .f32)), y ∈ pc.1.set :=
  View.cover_of_tiled [⟨rS, p0⟩] S8x128.size (by rfl) y

/-- whatever was stored before. -/
theorem coverS2 (p0 : Vec F S8x128 .f32) (L : List (View.Piece (Elt F) S8x128 .f32)) (y : S8x128.Idx) :
    ∃ pc ∈ ((⟨rS, p0⟩ : View.Piece (Elt F) S8x128 .f32) :: L), y ∈ pc.1.set := by
  obtain ⟨pc, h, hy⟩ := coverS p0 y
  rw [List.mem_singleton] at h; subst h
  exact ⟨_, List.mem_cons_self .., hy⟩

/-- A load of the whole block after a store of the whole block reads what was stored last. -/
theorem readCov_last {κ : Kind} {sp : Space} (v : View sig κ sp S8x128 .f32) (w : Vec F S8x128 .f32) (L : List (View.Piece (Elt F) S8x128 .f32)) :
    v.readCov ((⟨Rect.unit ![0, 0] ![8, 128] inb_S8x128_S8x128_0_0, w⟩ : View.Piece (Elt F) S8x128 .f32) :: L) (Rect.unit ![0, 0] ![8, 128] inb_S8x128_S8x128_0_0).toLoadRect = w := by
  rw [View.readCov_eq_canon_ld _ _ _ (coverS2 w L)]
  exact (congrArg (fun X => View.ld X rS) (View.canon_cons_unit_zero (S := S8x128) hz2 _ w L)).trans (View.ld_unit_zero (S := S8x128) hz2 _ w)

/-- What stores ending in one of the whole block leave. -/
theorem read_writes_last {κ : Kind} {sp : Space} (v : View sig κ sp S8x128 .f32) (f : v.ty.Contents (Elt F)) (w : Vec F S8x128 .f32) (L : List (View.Piece (Elt F) S8x128 .f32)) :
    v.read (Elt F) (v.writes (Elt F) f ((⟨Rect.unit ![0, 0] ![8, 128] inb_S8x128_S8x128_0_0, w⟩ : View.Piece (Elt F) S8x128 .f32) :: L)) = w :=
  (View.read_writes_eq_canon _ _ _ (coverS2 w L)).trans (View.canon_cons_unit_zero (S := S8x128) hz2 _ w L)

set_option maxHeartbeats 4000000 in
/-- At a first point: the scratch buffers hold anything before, and afterwards what one step makes of the reset values.
    Both output blocks end as copies of the scratch buffers. -/
theorem sound_kernel0_first (c : Dev nD) (E : Set ℕ) (i : grid0.Coords) (hc : isFirst i)
    (arg2 : Memref sig .tc .vmem S128x12288 .f32) (harg2 : arg2.IsWhole) (arg3 : Memref sig .tc .vmem S128x12288 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (x y : Vec F S128x12288 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare y
            ∗ owns (c : Thread nD τ) arg4 fullShare (k0_pay3 x y k0_pay1) ∗ owns (c : Thread nD τ) arg5 fullShare (k0_pay4 y k0_pay2)
            ∗ owns (c : Thread nD τ) arg6 fullShare (k0_pay3 x y k0_pay1) ∗ owns (c : Thread nD τ) arg7 fullShare (k0_pay4 y k0_pay2)) -∗ K ⟨⟩))
      ⊢ wp frame (wpE (defs₀ (F := F)) Variants.none c none) E (cc0__rec_stats_kernel i arg2 harg2 arg3 harg3 arg4 harg4 arg5 harg5 arg6 harg6 arg7 harg7) K := by
  simp only [cc0__rec_stats_kernel_eq_skeleton]; unfold cc0__rec_stats_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [read_writes_last, readCov_last, View.readAt_eq_ld, View.ld_unit_zero (S := S128x12288) hz2, View.ld_unit_zero (S := S8x128) hz2]
  isplitl [H5]
  · iexists _; isplitr
    swap; · iexact H5
    ipureintro
    sl_unfold_words
    simp only [read_writes_last, readCov_last, View.readAt_eq_ld, View.ld_unit_zero (S := S128x12288) hz2, View.ld_unit_zero (S := S8x128) hz2]
  isplitl [H6]
  · iexists _; isplitr
    swap; · iexact H6
    ipureintro
    sl_unfold_words
    simp only [read_writes_last, readCov_last, View.readAt_eq_ld, View.ld_unit_zero (S := S128x12288) hz2, View.ld_unit_zero (S := S8x128) hz2]
  iexists _; isplitr
  swap; · iexact H7
  ipureintro
  sl_unfold_words
  simp only [read_writes_last, readCov_last, View.readAt_eq_ld, View.ld_unit_zero (S := S128x12288) hz2, View.ld_unit_zero (S := S8x128) hz2]

set_option maxHeartbeats 4000000 in
/-- At a later point: the scratch buffers hold `s6`, `s7` before, and afterwards what one step makes of them.
    Both output blocks end as copies of the scratch buffers. -/
theorem sound_kernel0_later (c : Dev nD) (E : Set ℕ) (i : grid0.Coords) (hc : ¬ isFirst i)
    (arg2 : Memref sig .tc .vmem S128x12288 .f32) (harg2 : arg2.IsWhole) (arg3 : Memref sig .tc .vmem S128x12288 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (x y : Vec F S128x12288 .f32) (s6 s7 : Vec F S8x128 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare x ∗ owns (c : Thread nD τ) arg3 fullShare y
            ∗ owns (c : Thread nD τ) arg4 fullShare (k0_pay3 x y s6) ∗ owns (c : Thread nD τ) arg5 fullShare (k0_pay4 y s7)
            ∗ owns (c : Thread nD τ) arg6 fullShare (k0_pay3 x y s6) ∗ owns (c : Thread nD τ) arg7 fullShare (k0_pay4 y s7)) -∗ K ⟨⟩))
      ⊢ wp frame (wpE (defs₀ (F := F)) Variants.none c none) E (cc0__rec_stats_kernel i arg2 harg2 arg3 harg3 arg4 harg4 arg5 harg5 arg6 harg6 arg7 harg7) K := by
  simp only [cc0__rec_stats_kernel_eq_skeleton]; unfold cc0__rec_stats_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf2; subst hf3; subst hf6; subst hf7
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [read_writes_last, readCov_last, View.readAt_eq_ld, View.ld_unit_zero (S := S128x12288) hz2, View.ld_unit_zero (S := S8x128) hz2]
  isplitl [H5]
  · iexists _; isplitr
    swap; · iexact H5
    ipureintro
    sl_unfold_words
    simp only [read_writes_last, readCov_last, View.readAt_eq_ld, View.ld_unit_zero (S := S128x12288) hz2, View.ld_unit_zero (S := S8x128) hz2]
  isplitl [H6]
  · iexists _; isplitr
    swap; · iexact H6
    ipureintro
    sl_unfold_words
    simp only [read_writes_last, readCov_last, View.readAt_eq_ld, View.ld_unit_zero (S := S128x12288) hz2, View.ld_unit_zero (S := S8x128) hz2]
  iexists _; isplitr
  swap; · iexact H7
  ipureintro
  sl_unfold_words
  simp only [read_writes_last, readCov_last, View.readAt_eq_ld, View.ld_unit_zero (S := S128x12288) hz2, View.ld_unit_zero (S := S8x128) hz2]

end Cert.KernelIdeal.Hand

end
-- ==== Proof.KI.R0Dat.lean ====
/-
  The reconstruction-statistics kernel's region: the running sum and maximum point by point, the pipeline's proof
  data and the body obligation, at the contents `V` the region is entered with.

  The grid is 2 × 16, walked row by row: positions 0 … 15 belong to the first row, 16 … 31 to the second. At the first
  position of a row the two scratch buffers are reset before the block's contribution is folded in; at every other
  position the contribution is folded into what the position before left. Both output blocks are copies of the
  scratch buffers at every position, and are written back when the row ends.
-/
import proofs.«403987_j59588376264841_3_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken exactly at the positions that start a row of the grid. -/
theorem isFirst_iff : ∀ t : Fin cfg0.N, isFirst (grid0.coords t) ↔ t.val % 16 = 0 :=
  (by decide +kernel : ∀ t : Fin grid0.N, isFirst (grid0.coords t) ↔ t.val % 16 = 0)

/-- The two scratch buffers, whole. -/
abbrev scSum : Memref sig .tc .vmem S8x128 .f32 := Memref.whole cc0_scratch0
abbrev scMax : Memref sig .tc .vmem S8x128 .f32 := Memref.whole cc0_scratch1

/-- The core's other scoped buffers (the second kernel's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- What the region is entered with besides the windows: every scoped buffer that is no staging buffer of this kernel
    at some contents — the two scratch buffers among them — and the generator register. -/
theorem PhiA0_eq (c : Dev nD) :
    (Pipeline.ΦA spec0 c : sProp 𝕄)
      = iprop(((∃ d, owns (c : Thread nD τ) scSum fullShare d) ∗ (∃ d, owns (c : Thread nD τ) scMax fullShare d) ∗ otherScoped c) ∗ (∃ r, prngReg c r)) := by
  unfold Pipeline.ΦA otherScoped; rw [scopedRest0_eq]; simp only [scSum, scMax, owns_whole]; try rfl

section
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the running sum and the running maximum after position `n` — one step from the reset values at
    a position that starts a row, one step from what the position before left elsewhere. -/
def accAt0 (c : Dev nD) : (n : ℕ) → n < cfg0.N → Vec F S8x128 .f32 × Vec F S8x128 .f32
  | 0, hn => (k0_pay3 (iblk0 V c 0 ⟨0, hn⟩) (iblk0 V c 1 ⟨0, hn⟩) k0_pay1, k0_pay4 (iblk0 V c 1 ⟨0, hn⟩) k0_pay2)
  | n + 1, hn =>
    if (n + 1) % 16 = 0 then
      (k0_pay3 (iblk0 V c 0 ⟨n + 1, hn⟩) (iblk0 V c 1 ⟨n + 1, hn⟩) k0_pay1, k0_pay4 (iblk0 V c 1 ⟨n + 1, hn⟩) k0_pay2)
    else
      (k0_pay3 (iblk0 V c 0 ⟨n + 1, hn⟩) (iblk0 V c 1 ⟨n + 1, hn⟩) (accAt0 c n (Nat.lt_of_succ_lt hn)).1,
        k0_pay4 (iblk0 V c 1 ⟨n + 1, hn⟩) (accAt0 c n (Nat.lt_of_succ_lt hn)).2)

theorem accAt0_first (c : Dev nD) (t : Fin cfg0.N) (h : t.val % 16 = 0) :
    accAt0 V c t.val t.isLt = (k0_pay3 (iblk0 V c 0 t) (iblk0 V c 1 t) k0_pay1, k0_pay4 (iblk0 V c 1 t) k0_pay2) := by
  obtain ⟨n, hn⟩ := t
  cases n with
  | zero => rfl
  | succ n => exact if_pos h

theorem accAt0_later (c : Dev nD) (t : Fin cfg0.N) (h : ¬ t.val % 16 = 0) :
    accAt0 V c t.val t.isLt = (k0_pay3 (iblk0 V c 0 t) (iblk0 V c 1 t) (accAt0 V c (t.val - 1) (Nat.lt_of_le_of_lt (Nat.sub_le _ _) t.isLt)).1,
      k0_pay4 (iblk0 V c 1 t) (accAt0 V c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: at the start what the region was entered with; afterwards the two
    scratch buffers at what the position before left, the other scoped buffers at anything, the generator register. -/
def PhiS0 (c : Dev nD) : (n : ℕ) → n ≤ cfg0.N → sProp 𝕄
  | 0, _ => Pipeline.ΦA spec0 c
  | n + 1, hn => iprop((owns (c : Thread nD τ) scSum fullShare (accAt0 V c n hn).1 ∗ owns (c : Thread nD τ) scMax fullShare (accAt0 V c n hn).2 ∗ otherScoped c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scSum fullShare (accAt0 V c n hn).1 ∗ owns (c : Thread nD τ) scMax fullShare (accAt0 V c n hn).2 ∗ otherScoped c) ∗ (∃ r, prngReg c r)) := rfl

theorem PhiS0_pos (c : Dev nD) (n : ℕ) (h : n ≤ cfg0.N) (hz : n ≠ 0) :
    PhiS0 V c n h = iprop((owns (c : Thread nD τ) scSum fullShare (accAt0 V c (n - 1) (by omega)).1 ∗ owns (c : Thread nD τ) scMax fullShare (accAt0 V c (n - 1) (by omega)).2 ∗ otherScoped c) ∗ (∃ r, prngReg c r)) := by
  cases n with
  | zero => exact absurd rfl hz
  | succ n => rfl

/-- The proof data of the pipeline on core `c`: the arrays as the region finds them; after the body at position `t`
    each input's buffer at its block, the two outputs' at the running sum and maximum; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any position: the inputs' buffers hold their blocks; whether the position starts a row decides which
    triple applies; the invariant hands the body the scratch buffers at what the position before left (at anything
    at the very first position) and takes them back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2, after0_3, PhiS0_castSucc V c t]
  by_cases h0 : t.val % 16 = 0
  · rw [accAt0_first V c t h0]
    by_cases hz : t.val = 0
    · rw [PhiS0_zero V c _ _ hz, PhiA0_eq]
      iintro ⟨⟨⟨HS, HM, HR⟩, Hg⟩, Ho, ⟨%d0, H0⟩, ⟨%d1, H1⟩, ⟨%d2, H2⟩, ⟨%d3, H3⟩⟩
      iapply (sound_kernel0_first c Set.univ (grid0.coords t) ((isFirst_iff t).mpr h0) _ _ _ _ _ _ _ _ _ _ _ _ (iblk0 V c 0 t) (iblk0 V c 1 t) _)
      isplitl [H0]; · iexact H0
      isplitl [H1]; · iexact H1
      isplitl [H2]; · iexists _; iexact H2
      isplitl [H3]; · iexists _; iexact H3
      isplitl [HS]; · iexact HS
      isplitl [HM]; · iexact HM
      iintro ⟨H0, H1, H2, H3, HS, HM⟩
      isplitl [HS HM HR Hg]
      · isplitr [Hg]
        · isplitl [HS]; · iexact HS
          isplitl [HM]; · iexact HM
          iexact HR
        · iexact Hg
      isplitl [Ho]; · iexact Ho
      isplitl [H0]; · iexact H0
      isplitl [H1]; · iexact H1
      isplitl [H2]; · iexact H2
      iexact H3
    · rw [PhiS0_pos V c _ _ hz]
      iintro ⟨⟨⟨HS, HM, HR⟩, Hg⟩, Ho, ⟨%d0, H0⟩, ⟨%d1, H1⟩, ⟨%d2, H2⟩, ⟨%d3, H3⟩⟩
      iapply (sound_kernel0_first c Set.univ (grid0.coords t) ((isFirst_iff t).mpr h0) _ _ _ _ _ _ _ _ _ _ _ _ (iblk0 V c 0 t) (iblk0 V c 1 t) _)
      isplitl [H0]; · iexact H0
      isplitl [H1]; · iexact H1
      isplitl [H2]; · iexists _; iexact H2
      isplitl [H3]; · iexists _; iexact H3
      isplitl [HS]; · iexists _; iexact HS
      isplitl [HM]; · iexists _; iexact HM
      iintro ⟨H0, H1, H2, H3, HS, HM⟩
      isplitl [HS HM HR Hg]
      · isplitr [Hg]
        · isplitl [HS]; · iexact HS
          isplitl [HM]; · iexact HM
          iexact HR
        · iexact Hg
      isplitl [Ho]; · iexact Ho
      isplitl [H0]; · iexact H0
      isplitl [H1]; · iexact H1
      isplitl [H2]; · iexact H2
      iexact H3
  · rw [accAt0_later V c t h0]
    have hz : t.val ≠ 0 := fun e => h0 (by rw [e])
    rw [PhiS0_pos V c _ _ hz]
    iintro ⟨⟨⟨HS, HM, HR⟩, Hg⟩, Ho, ⟨%d0, H0⟩, ⟨%d1, H1⟩, ⟨%d2, H2⟩, ⟨%d3, H3⟩⟩
    iapply (sound_kernel0_later c Set.univ (grid0.coords t) (fun h => h0 ((isFirst_iff t).mp h)) _ _ _ _ _ _ _ _ _ _ _ _ (iblk0 V c 0 t) (iblk0 V c 1 t) _ _ _)
    isplitl [H0]; · iexact H0
    isplitl [H1]; · iexact H1
    isplitl [H2]; · iexists _; iexact H2
    isplitl [H3]; · iexists _; iexact H3
    isplitl [HS]; · iexact HS
    isplitl [HM]; · iexact HM
    iintro ⟨H0, H1, H2, H3, HS, HM⟩
    isplitl [HS HM HR Hg]
    · isplitr [Hg]
      · isplitl [HS]; · iexact HS
        isplitl [HM]; · iexact HM
        iexact HR
      · iexact Hg
    isplitl [Ho]; · iexact Ho
    isplitl [H0]; · iexact H0
    isplitl [H1]; · iexact H1
    isplitl [H2]; · iexact H2
    iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives it back: the scratch buffers' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HM, HR⟩, Hg⟩
  isplitr [Hg]
  · isplitl [HS]; · iexists _; iexact HS
    isplitl [HM]; · iexists _; iexact HM
    iexact HR
  · iexact Hg

end

end Cert.KernelIdeal.Hand

end
-- ==== Proof.KI.R1Run.lean ====
/-
  The per-class kernel's body as a Hoare triple, at any float instance.

  The body reads its three input blocks whole (the two feature matrices and the label column), and stores three
  rows of 128 lanes: the class counts, and for each feature matrix the per-class mean absolute deviation. Each
  stored row is a pure function of the blocks read; the triple names them.
-/
import proofs.«403987_j59588376264841_3_alg».proof.Proof.Gen.KernelIdeal.Launch
import proofs.«403987_j59588376264841_3_alg».proof.Proof.Gen.KernelIdeal.Skeleton
import proofs.«403987_j59588376264841_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body touches: every access is the whole block -/

abbrev rX : Rect S4096x512 := Rect.unit (s := S4096x512) ![0, 0] S4096x512.size inb_S4096x512_S4096x512_0_0
abbrev rL : Rect S4096x1 := Rect.unit (s := S4096x1) ![0, 0] S4096x1.size inb_S4096x1_S4096x1_0_0
abbrev rO : Rect S1x128 := Rect.unit (s := S1x128) ![0, 0] S1x128.size inb_S1x128_S1x128_0_0

/-! ## What the body leaves in each output row -/

/-- The class counts: column sums of the one-hot matrix of the labels. -/
def cntRow (lbl : Vec F S4096x1 .i32) : Vec F S1x128 .f32 :=
  View.canon [⟨rO, k1_pay3 (View.ld lbl rL)⟩]

/-- The first feature matrix's per-class mean absolute deviation. -/
def devRowX (lbl : Vec F S4096x1 .i32) (x : Vec F S4096x512 .f32) : Vec F S1x128 .f32 :=
  View.canon [⟨rO, k1_pay5 (View.ld lbl rL) (View.ld x rX)⟩]

/-- The second feature matrix's. -/
def devRowY (lbl : Vec F S4096x1 .i32) (y : Vec F S4096x512 .f32) : Vec F S1x128 .f32 :=
  View.canon [⟨rO, k1_pay1 (k1_pay2 (View.ld lbl rL)) (k1_pay4 (View.ld lbl rL)) (k1_pay6 (View.ld lbl rL) (View.ld y rX))⟩]

/-- One store of the whole row covers it. -/
theorem coverO (p0 : Vec F S1x128 .f32) (y : S1x128.Idx) :
    ∃ pc ∈ ([⟨rO, p0⟩] : List (View.Piece (Elt F) S1x128 .f32)), y ∈ pc.1.set :=
  View.cover_of_tiled [⟨rO, p0⟩] S1x128.size (by rfl) y

/-! ## The triple -/

set_option maxHeartbeats 4000000 in
/-- On whole staging memrefs, the inputs at contents `x`, `y`, `lbl` and the outputs at anything, the body runs to
    the continuation with the inputs unchanged and the three output rows at their named contents. -/
theorem sound_kernel1 (c : Dev nD) (E : Set ℕ) (i : grid1.Coords)
    (arg1 : Memref sig .tc .vmem S4096x512 .f32) (harg1 : arg1.IsWhole) (arg2 : Memref sig .tc .vmem S4096x512 .f32) (harg2 : arg2.IsWhole)
    (arg3 : Memref sig .tc .vmem S4096x1 .i32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (x y : Vec F S4096x512 .f32) (lbl : Vec F S4096x1 .i32) (K : PUnit → sProp 𝕄) :
    iprop(owns (c : Thread nD τ) arg1 fullShare x ∗ owns (c : Thread nD τ) arg2 fullShare y ∗ owns (c : Thread nD τ) arg3 fullShare lbl
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare y ∗ owns (c : Thread nD τ) arg3 fullShare lbl
            ∗ owns (c : Thread nD τ) arg4 fullShare (cntRow lbl) ∗ owns (c : Thread nD τ) arg5 fullShare (devRowX lbl x)
            ∗ owns (c : Thread nD τ) arg6 fullShare (devRowY lbl y)) -∗ K ⟨⟩))
      ⊢ wp frame (wpE (defs₀ (F := F)) Variants.none c none) E (cc1__per_class_kernel i arg1 harg1 arg2 harg2 arg3 harg3 arg4 harg4 arg5 harg5 arg6 harg6) K := by
  simp only [cc1__per_class_kernel_eq_skeleton]; unfold cc1__per_class_kernel_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.KernelIdeal.Hand

end
-- ==== Proof.KI.R1Dat.lean ====
/-
  The per-class kernel's region: the pipeline's proof data and the body obligation, at the contents `V` the region
  is entered with.

  The grid has one point. Each input window's staging buffer holds the whole array; each output window's buffer is
  left at its named row and written back at that point.
-/
import proofs.«403987_j59588376264841_3_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the per-class pipeline on core `c`: the arrays as the region finds them; after the body each
    input's buffer at its block, the three outputs' at the counts and the two deviation rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => cntRow (iblk1 V c 2 t)
    | ⟨4, _⟩ => devRowX (iblk1 V c 2 t) (iblk1 V c 0 t)
    | ⟨5, _⟩ => devRowY (iblk1 V c 2 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = cntRow (iblk1 V c 2 t) := by dsimp only [dat1]
theorem after1_4 (c : Dev nD) (t : Fin cfg1.N) : (dat1 V c).after 4 t = devRowX (iblk1 V c 2 t) (iblk1 V c 0 t) := by dsimp only [dat1]
theorem after1_5 (c : Dev nD) (t : Fin cfg1.N) : (dat1 V c).after 5 t = devRowY (iblk1 V c 2 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Launch.lean ====
/-
  The kernel program's launch: its two kernel regions as segments of @main, the frame (every argument array ends as
  launched) and the run with the result buffer named.

  Between @main's items core `c` holds every unscoped buffer at a valuation: the launch contents, then each host
  stretch's operations applied, then at a region's exit its output arrays at what the pipeline's write-backs leave.
  The regions' unknown outputs are instantiated by those arrays.
-/
import proofs.«403987_j59588376264841_3_alg».proof.Proof.KI.R0Dat
import proofs.«403987_j59588376264841_3_alg».proof.Proof.KI.R1Dat
import proofs.«403987_j59588376264841_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev Rst (c : Dev nD) : sProp 𝕄 := iprop((∃ r, prngReg c r) ∗ ∃ W, owes (c : Thread nD τ) (0 : CellTallies nD τ sig Unit) W)

/-! ## The contents at the regions' boundaries -/

/-- What the first region is entered with, read at the TensorCore's references. -/
abbrev Vin0 : (c : Dev nD) → (b : Ref sig .tc) → Buf (Elt F) ((c : Thread nD τ).loc b) := fun c b => Gen.V4 m c b
/-- At its exit: its arrays at what the pipeline leaves, every other buffer as entered. -/
def W5 (c : Dev nD) : Valuation τ sig (Elt F) :=
  Pipeline.withArrays spec0 c (Gen.V4 m c) fun w => (dat0 (Vin0 m) c).arrAt w cfg0.N
/-- The first region's outputs as the unknowns of the generated valuations. -/
def outs0 : Gen.Outs (F := F) := fun _ r c => W5 m c (Proc.devRef .tc r)
/-- What the second region is entered with. -/
abbrev Vin1 : (c : Dev nD) → (b : Ref sig .tc) → Buf (Elt F) ((c : Thread nD τ).loc b) := fun c b => Gen.V6 m (outs0 m) c b
def W7 (c : Dev nD) : Valuation τ sig (Elt F) :=
  Pipeline.withArrays spec1 c (Gen.V6 m (outs0 m) c) fun w => (dat1 (Vin1 m) c).arrAt w cfg1.N
/-- Both regions' outputs: the second's at item 7, the first's elsewhere. -/
def outs : Gen.Outs (F := F) := fun n r c => if n = 7 then W7 m c (Proc.devRef .tc r) else W5 m c (Proc.devRef .tc r)

theorem outs_5 (r : Ref sig .tc) (c : Dev nD) : outs m 5 r c = W5 m c (Proc.devRef .tc r) := rfl
theorem outs_7 (r : Ref sig .tc) (c : Dev nD) : outs m 7 r c = W7 m c (Proc.devRef .tc r) := rfl
theorem V5_outs (c : Dev nD) : Gen.V5 m (outs m) c = Gen.V5 m (outs0 m) c := rfl
theorem V6_outs (c : Dev nD) : Gen.V6 m (outs m) c = Gen.V6 m (outs0 m) c := rfl

abbrev Vout0 : (c : Dev nD) → (b : Ref sig .tc) → Buf (Elt F) ((c : Thread nD τ).loc b) := fun c b => Gen.V5 m (outs m) c b
abbrev Vout1 : (c : Dev nD) → (b : Ref sig .tc) → Buf (Elt F) ((c : Thread nD τ).loc b) := fun c b => Gen.V7 m (outs m) c b

theorem W5_arr (c : Dev nD) (w : Fin cfg0.W) :
    W5 m c (Proc.devRef .tc (Pipeline.arrRef spec0 w)) = (dat0 (Vin0 m) c).arrAt w cfg0.N := by
  unfold W5; exact Pipeline.withArrays_arr spec0 launch0.win.arr_inj c _ _ w
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w

/-- At the first region's exit each of its arrays holds what the pipeline leaves, -/
theorem hF0 (c : Dev nD) (w : Fin cfg0.W) : (dat0 (Vin0 m) c).arrAt w cfg0.N = Vout0 m c (Pipeline.arrRef spec0 w) := by
  match w with
  | ⟨0, _⟩ => exact (((dat0 (Vin0 m) c).arrAt_in 0 rfl _).trans (A_eq0 (Vin0 m) c 0)).trans (Gen.V5_of m (outs m) c main_v6 (by decide)).symm
  | ⟨1, _⟩ => exact (((dat0 (Vin0 m) c).arrAt_in 1 rfl _).trans (A_eq0 (Vin0 m) c 1)).trans (Gen.V5_of m (outs m) c main_v7 (by decide)).symm
  | ⟨2, _⟩ =>
    show _ = Function.update (Function.update (Gen.V4 m c) main_v8_0 (outs m 5 main_v8_0 c)) main_v8_1 (outs m 5 main_v8_1 c) main_v8_0
    rw [Function.update_of_ne (StableHlo.devRef_ne_of_ne (by decide)), Function.update_self, outs_5]
    exact (W5_arr m c 2).symm
  | ⟨3, _⟩ =>
    show _ = Function.update (Function.update (Gen.V4 m c) main_v8_0 (outs m 5 main_v8_0 c)) main_v8_1 (outs m 5 main_v8_1 c) main_v8_1
    rw [Function.update_self, outs_5]
    exact (W5_arr m c 3).symm
/-- and every other buffer what it held at entry. -/
theorem hrest0 (c : Dev nD) : ∀ b, b ∉ Finset.univ.image (Pipeline.arrRef spec0) → Vout0 m c b = Vin0 m c b := fun b hb =>
  Gen.V5_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

theorem hF1 (c : Dev nD) (w : Fin cfg1.W) : (dat1 (Vin1 m) c).arrAt w cfg1.N = Vout1 m c (Pipeline.arrRef spec1 w) := by
  match w with
  | ⟨0, _⟩ => exact (((dat1 (Vin1 m) c).arrAt_in 0 rfl _).trans (A_eq1 (Vin1 m) c 0)).trans (Gen.V7_of m (outs m) c main_arg2 (by decide)).symm
  | ⟨1, _⟩ => exact (((dat1 (Vin1 m) c).arrAt_in 1 rfl _).trans (A_eq1 (Vin1 m) c 1)).trans (Gen.V7_of m (outs m) c main_arg3 (by decide)).symm
  | ⟨2, _⟩ => exact (((dat1 (Vin1 m) c).arrAt_in 2 rfl _).trans (A_eq1 (Vin1 m) c 2)).trans (Gen.V7_of m (outs m) c main_v25 (by decide)).symm
  | ⟨3, _⟩ =>
    show _ = Function.update (Function.update (Function.update (Gen.V6 m (outs m) c) main_v26_0 (outs m 7 main_v26_0 c)) main_v26_1 (outs m 7 main_v26_1 c)) main_v26_2 (outs m 7 main_v26_2 c) main_v26_0
    rw [Function.update_of_ne (StableHlo.devRef_ne_of_ne (by decide)), Function.update_of_ne (StableHlo.devRef_ne_of_ne (by decide)), Function.update_self, outs_7]
    exact (W7_arr m c 3).symm
  | ⟨4, _⟩ =>
    show _ = Function.update (Function.update (Function.update (Gen.V6 m (outs m) c) main_v26_0 (outs m 7 main_v26_0 c)) main_v26_1 (outs m 7 main_v26_1 c)) main_v26_2 (outs m 7 main_v26_2 c) main_v26_1
    rw [Function.update_of_ne (StableHlo.devRef_ne_of_ne (by decide)), Function.update_self, outs_7]
    exact (W7_arr m c 4).symm
  | ⟨5, _⟩ =>
    show _ = Function.update (Function.update (Function.update (Gen.V6 m (outs m) c) main_v26_0 (outs m 7 main_v26_0 c)) main_v26_1 (outs m 7 main_v26_1 c)) main_v26_2 (outs m 7 main_v26_2 c) main_v26_2
    rw [Function.update_self, outs_7]
    exact (W7_arr m c 5).symm
theorem hrest1 (c : Dev nD) : ∀ b, b ∉ Finset.univ.image (Pipeline.arrRef spec1) → Vout1 m c b = Vin1 m c b := fun b hb =>
  Gen.V7_of m (outs m) c b (by
    intro h
    rcases List.mem_cons.mp h with h | h
    · exact hb (Finset.mem_image.mpr ⟨3, Finset.mem_univ _, h.symm⟩)
    · rcases List.mem_cons.mp h with h | h
      · exact hb (Finset.mem_image.mpr ⟨4, Finset.mem_univ _, h.symm⟩)
      · rcases List.mem_cons.mp h with h | h
        · exact hb (Finset.mem_image.mpr ⟨5, Finset.mem_univ _, h.symm⟩)
        · exact absurd h (List.not_mem_nil))

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-! ## The regions as segments -/

-- unification with the pinned configuration may unfold plain definitions in a metavariable's type
set_option backward.isDefEq.respectTransparency.types false in
/-- Region 0 over the thread state: entered from every unscoped buffer at the contents before it, left at the
    contents after it. Its arrays are split out of the unscoped buffers and put back at what the pipeline leaves; the
    generator register goes into the invariant and comes out; nothing is owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V4 m c) ∗ Rst c)
  post c := iprop(StableHlo.held (c : Thread nD τ) (Pipeline.ucRefs τ sig) (Gen.V5 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at the contents before it, left at the
    contents after it. Its arrays are split out of the unscoped buffers and put back at what the pipeline leaves; the
    generator register goes into the invariant and comes out; nothing is owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outs0 m) c) ∗ Rst c)
  post c := iprop(StableHlo.held (c : Thread nD τ) (Pipeline.ucRefs τ sig) (Gen.V7 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the launch theorem's implicit arguments are found by unifying its conclusion with this one
set_option backward.isDefEq.respectTransparency.types false in
/-- THE FRAME at any float instance: from any memory with zero counters every weakly fair execution of @main
    terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => .rfl) (fun c => .rfl)
    (reg1 m) (fun c => .rfl) (fun c => .rfl)

end Cert.KernelIdeal.Hand

end
-- ==== Proof.KI.RunCond.lean ====
/-
  The kernel program's run with its result named: every weakly fair execution of @main terminates with the result
  buffer at the last valuation's contents and every argument array as launched, given one segment record per kernel
  region. The host side is the conditional frame's, with the result buffer read off the last valuation beside the
  arguments.
-/
import proofs.«403987_j59588376264841_3_alg».proof.Proof.Gen.KernelIdeal.Regions

set_option maxRecDepth 1140

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any rest states the launch makes on every core at once and that end owing nothing, any contents the regions
    leave and any proof data: given, per region, a segment record entered from the thread state before it and left at
    the one after it, every weakly fair execution of @main from memory `m` with zero counters terminates, every final
    memory holds the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v68) = V16 m outs c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, hpre0 c, hpost0 c, hpre1 c, hpost1 c, .rfl, .rfl, .rfl, .rfl, .rfl, .rfl, .rfl, .rfl, sep_mono .rfl (hE2 c)⟩)
    (hinit := ?_) (QY := fun c s => s.mem ((c.tc : Thread nD τ).loc main_v68) = V16 m outs c main_v68 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v68) (Finset.mem_filter.mpr ⟨StableHlo.devRef_mem_tcRefs main_v68, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c)⟩
    · iexact HSI

end Cert.KernelIdeal.Hand

end
-- ==== Proof.KI.Run.lean ====
/-
  The idealized kernel program's run with its result named, from the two regions' segment records.
-/
import proofs.«403987_j59588376264841_3_alg».proof.Proof.KI.Launch
import proofs.«403987_j59588376264841_3_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one
set_option backward.isDefEq.respectTransparency.types false in
/-- From any memory with zero counters every weakly fair execution of @main terminates with the result buffer at
    the last valuation's contents — the host operations after the second region applied to what the regions leave —
    and every argument array as launched. -/
theorem run (ρ : Dev nD → PrngReg) : θ_run defs (onTc (τ := τ) (main (F := F))) ⟨m, fun _ => 0, ρ⟩ (fun r => ∀ c : Dev nD,
      r.2.mem ((c.tc : Thread nD τ).loc main_v68) = Gen.V16 m (outs m) c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => .rfl) (fun c => .rfl)
    (reg1 m) (fun c => .rfl) (fun c => .rfl)

end Cert.KernelIdeal.Hand

end
-- ==== Proof.KI.HostVals.lean ====
/-
  What the host operations of the kernel's program compute, read off the valuations between its items.

  The program is: a cross-entropy over the class scores (a log-softmax along the class axis, one entry of each row
  picked by the row's label, the negated mean of the picked entries); two reshapes of the image arguments; the first
  kernel region, which leaves two 16 × 128 arrays of partial results; host operations that add, respectively take the
  maximum of, the entries [0, 0] and [8, 0] of those arrays and turn them into a mean squared error and a peak
  signal-to-noise ratio; the second kernel region, which leaves three 1 × 128 rows (per class: a count and two sums);
  and a tail of host operations over the first 100 lanes of those rows that ends in a vector of seven numbers.

  Every value below is the operations' own term, nothing simplified, so that it can be compared with the reference's
  term by unfolding alone. The valuations are walked one stretch of host operations at a time, each stretch read over
  an arbitrary valuation so that no earlier stretch is ever opened while a later one is read.
-/
import proofs.«403987_j59588376264841_3_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-! ## The values -/

/-- The scores with each row's maximum taken off (the maximum started from −∞ and taken once more with −∞). -/
abbrev shiftedK (x0 : (⟨S4096x100, .f32⟩ : BufTy).Contents (Elt F)) : (⟨S4096x100, .f32⟩ : BufTy).Contents (Elt F) :=
  subf x0
    (broadcastInDim S4096x100 ![0, 1] bcast_S4096x1_S4096x100_0_1
      (broadcastInDim S4096x1 ![0] bcast_S4096_S4096x1_0
        (maximumf
          (broadcastInDim S4096 ![] bcast_S_S4096 (constant (F := F) S_ .f32 0xFF800000#32))
          (Host.reduce FloatOps.maximumf x0 (constant (F := F) S_ .f32 0xFF800000#32) reducesTo_S4096x100_S4096_d1 h_S_))))

/-- The log-softmax along the class axis: the shifted scores minus the logarithm of each row's sum of their exponentials. -/
abbrev logSoftmaxK (x0 : (⟨S4096x100, .f32⟩ : BufTy).Contents (Elt F)) : (⟨S4096x100, .f32⟩ : BufTy).Contents (Elt F) :=
  subf (shiftedK x0)
    (broadcastInDim S4096x100 ![0, 1] bcast_S4096x1_S4096x100_0_1
      (Host.log (F := F)
        (broadcastInDim S4096x1 ![0] bcast_S4096_S4096x1_0
          (Host.reduceAdd (F := F) (Host.exp (F := F) (shiftedK x0)) (constant (F := F) S_ .f32 0x00000000#32)
            reducesTo_S4096x100_S4096_d1 h_S_))))

/-- The labels as a column. -/
abbrev labelColK (x5 : (⟨S4096, .i32⟩ : BufTy).Contents (Elt F)) : (⟨S4096x1, .i32⟩ : BufTy).Contents (Elt F) :=
  broadcastInDim S4096x1 ![0] bcast_S4096_S4096x1_0 x5

/-- The labels as gather indices: a negative label has 100 added, and the column gets a trailing unit axis. -/
abbrev labelIdxK (col : (⟨S4096x1, .i32⟩ : BufTy).Contents (Elt F)) : (⟨S4096x1x1, .i32⟩ : BufTy).Contents (Elt F) :=
  shapeCast S4096x1x1
    (select
      (cmpi .slt col (broadcastInDim S4096x1 ![] bcast_S_S4096x1 (constantI S_ 32 0#32)))
      (addi col (broadcastInDim S4096x1 ![] bcast_S_S4096x1 (constantI S_ 32 100#32)))
      col)
    shapeCasts_S4096x1_S4096x1x1

/-- Per row, the entry of a 4096 × 100 array that the row's label picks, and a NaN where the index is outside 0 … 99. -/
abbrev pickedK (z : (⟨S4096x100, .f32⟩ : BufTy).Contents (Elt F)) (col : (⟨S4096x1, .i32⟩ : BufTy).Contents (Elt F)) :
    (⟨S4096x1, .f32⟩ : BufTy).Contents (Elt F) :=
  select
    (Host.reduce IntOp.andi
      (andi
        (cmpi .sge (labelIdxK (F := F) col) (broadcastInDim S4096x1x1 ![] bcast_S_S4096x1x1 (constantI S_ 32 0#32)))
        (cmpi .sle (labelIdxK (F := F) col)
          (broadcastInDim S4096x1x1 ![0, 1, 2] bcast_S1x1x1_S4096x1x1_0_1_2
            (broadcastInDim S1x1x1 ![2] bcast_S1_S1x1x1_2 (constantI S1 32 99#32)))))
      (constantI S_ 1 1#1) reducesTo_S4096x1x1_S4096x1_d2 h_S_)
    (Host.gather gather_S4096x100_S4096x1x1_S4096x1_n_1_0_0_1_2_11 z (labelIdxK (F := F) col))
    (broadcastInDim S4096x1 ![] bcast_S_S4096x1 (constant (F := F) S_ .f32 0x7FC00000#32))

/-- The cross-entropy scalar: the negated mean over the 4096 rows of the picked log-softmax entries. -/
def clsK (x0 : (⟨S4096x100, .f32⟩ : BufTy).Contents (Elt F)) (x5 : (⟨S4096, .i32⟩ : BufTy).Contents (Elt F)) :
    (⟨S_, .f32⟩ : BufTy).Contents (Elt F) :=
  Host.negf (F := F)
    (Host.divf (F := F)
      (Host.reduceAdd (F := F) (pickedK (logSoftmaxK x0) (labelColK (F := F) x5)) (constant (F := F) S_ .f32 0x00000000#32) reducesTo_S4096x1_S_d0_1 h_S_)
      (constant (F := F) S_ .f32 0x45800000#32))

/-- One entry of a 16 × 128 array of partial results, as a scalar. -/
abbrev entryK (p : (⟨S16x128, .f32⟩ : BufTy).Contents (Elt F)) (off : Fin S16x128.rank → Nat) (h : S16x128.Slices off S1x1) :
    (⟨S_, .f32⟩ : BufTy).Contents (Elt F) :=
  shapeCast S_ (extractStridedSlice S1x1 off p h) shapeCasts_S1x1_S_

/-- The sum of the two cores' partial sums: entries [0, 0] and [8, 0]. -/
def sumOfParts (p : (⟨S16x128, .f32⟩ : BufTy).Contents (Elt F)) : (⟨S_, .f32⟩ : BufTy).Contents (Elt F) :=
  addf (entryK p ![0, 0] slices_S16x128_S1x1_0_0) (entryK p ![8, 0] slices_S16x128_S1x1_8_0)

/-- The maximum of the two cores' partial maxima: entries [0, 0] and [8, 0]. -/
def maxOfParts (p : (⟨S16x128, .f32⟩ : BufTy).Contents (Elt F)) : (⟨S_, .f32⟩ : BufTy).Contents (Elt F) :=
  maximumf (entryK p ![0, 0] slices_S16x128_S1x1_0_0) (entryK p ![8, 0] slices_S16x128_S1x1_8_0)

/-- The first 100 lanes of a 1 × 128 row, as a vector. -/
def row100 (r : (⟨S1x128, .f32⟩ : BufTy).Contents (Elt F)) : (⟨S100, .f32⟩ : BufTy).Contents (Elt F) :=
  shapeCast S100 (extractStridedSlice S1x100 ![0, 0] r slices_S1x128_S1x100_0_0) shapeCasts_S1x100_S100

/-- Which classes occur in the batch: those whose count is positive. -/
abbrev presentK (cnt : (⟨S100, .f32⟩ : BufTy).Contents (Elt F)) : (⟨S100, .i1⟩ : BufTy).Contents (Elt F) :=
  cmpf (F := F) .ogt cnt (broadcastInDim S100 ![] bcast_S_S100 (constant (F := F) S_ .f32 0x00000000#32))

/-- How many classes occur. -/
abbrev presentCountK (cnt : (⟨S100, .f32⟩ : BufTy).Contents (Elt F)) : (⟨S_, .f32⟩ : BufTy).Contents (Elt F) :=
  Host.reduceAdd (F := F) (uitofp (F := F) .f32 (presentK cnt)) (constant (F := F) S_ .f32 0x00000000#32)
    reducesTo_S100_S_d0 h_S_

/-- The mean, over the classes that occur, of a per-class value clamped below at zero (a class that does not occur
    contributes zero to the sum). -/
abbrev presentMeanK (cnt v : (⟨S100, .f32⟩ : BufTy).Contents (Elt F)) : (⟨S_, .f32⟩ : BufTy).Contents (Elt F) :=
  Host.divf (F := F)
    (Host.reduceAdd (F := F)
      (select (presentK cnt)
        (maximumf v (broadcastInDim S100 ![] bcast_S_S100 (constant (F := F) S_ .f32 0x00000000#32)))
        (broadcastInDim S100 ![] bcast_S_S100 (id (constant (F := F) S_ .f32 0x00000000#32))))
      (constant (F := F) S_ .f32 0x00000000#32) reducesTo_S100_S_d0 h_S_)
    (presentCountK cnt)

/-- The reconstruction loss: the sum of squared differences over the number of pixels. -/
abbrev recLossK (sumsq : (⟨S_, .f32⟩ : BufTy).Contents (Elt F)) : (⟨S_, .f32⟩ : BufTy).Contents (Elt F) :=
  Host.divf (F := F) sumsq (constant (F := F) S_ .f32 0x4C400000#32)

/-- The peak signal-to-noise ratio: 20 · (log (peak / √loss) · log₁₀ e). -/
abbrev psnrK (sumsq mx : (⟨S_, .f32⟩ : BufTy).Contents (Elt F)) : (⟨S_, .f32⟩ : BufTy).Contents (Elt F) :=
  mulf (constant (F := F) S_ .f32 0x41A00000#32)
    (mulf (Host.log (F := F) (Host.divf (F := F) mx (Host.sqrt (F := F) (recLossK sumsq))))
      (constant (F := F) S_ .f32 0x3EDE5BD9#32))

/-- The first per-class term: the mean over occurring classes of the first per-class sum plus 10⁻⁴, clamped at zero. -/
abbrev termXK (cnt sx : (⟨S100, .f32⟩ : BufTy).Contents (Elt F)) : (⟨S_, .f32⟩ : BufTy).Contents (Elt F) :=
  presentMeanK cnt (addf sx (broadcastInDim S100 ![] bcast_S_S100 (constant (F := F) S_ .f32 0x38D1B717#32)))

/-- The second per-class term: the mean over occurring classes of one minus (the second per-class sum plus 10⁻⁴),
    clamped at zero. -/
abbrev termYK (cnt sy : (⟨S100, .f32⟩ : BufTy).Contents (Elt F)) : (⟨S_, .f32⟩ : BufTy).Contents (Elt F) :=
  presentMeanK cnt
    (subf (broadcastInDim S100 ![] bcast_S_S100 (constant (F := F) S_ .f32 0x3F800000#32))
      (addf sy (broadcastInDim S100 ![] bcast_S_S100 (constant (F := F) S_ .f32 0x38D1B717#32))))

/-- Seven scalars, each as a vector of length one, laid side by side. -/
abbrev sideBySide7 (u0 u1 u2 u3 u4 u5 u6 : (⟨S1, .f32⟩ : BufTy).Contents (Elt F)) : (⟨S7, .f32⟩ : BufTy).Contents (Elt F) :=
  concatenate S7 0 [⟨S1, u0⟩, ⟨S1, u1⟩, ⟨S1, u2⟩, ⟨S1, u3⟩, ⟨S1, u4⟩, ⟨S1, u5⟩, ⟨S1, u6⟩]
    concatenates_S1_S1_S1_S1_S1_S1_S1_S7_d0

/-- Seven scalars side by side: the cross-entropy, the loss, the ratio, the two per-class terms, then
    1·first term + 1·cross-entropy, and ((1·loss + 1·first term) + 1·second term) + 1·cross-entropy. -/
abbrev sevenK (cls rec psnr tx ty : (⟨S_, .f32⟩ : BufTy).Contents (Elt F)) : (⟨S7, .f32⟩ : BufTy).Contents (Elt F) :=
  sideBySide7
    (broadcastInDim S1 ![] bcast_S_S1 cls)
    (broadcastInDim S1 ![] bcast_S_S1 rec)
    (broadcastInDim S1 ![] bcast_S_S1 psnr)
    (broadcastInDim S1 ![] bcast_S_S1 tx)
    (broadcastInDim S1 ![] bcast_S_S1 ty)
    (broadcastInDim S1 ![] bcast_S_S1
      (addf (mulf (constant (F := F) S_ .f32 0x3F800000#32) tx) (mulf (constant (F := F) S_ .f32 0x3F800000#32) cls)))
    (broadcastInDim S1 ![] bcast_S_S1
      (addf
        (addf
          (addf (mulf (constant (F := F) S_ .f32 0x3F800000#32) rec) (mulf (constant (F := F) S_ .f32 0x3F800000#32) tx))
          (mulf (constant (F := F) S_ .f32 0x3F800000#32) ty))
        (mulf (constant (F := F) S_ .f32 0x3F800000#32) cls)))

/-- The result over the six values the host tail is fed: the cross-entropy, the sum of squared differences and the
    peak, and the first 100 lanes of the three per-class rows. -/
def tailK (cls sumsq mx : (⟨S_, .f32⟩ : BufTy).Contents (Elt F)) (cnt sx sy : (⟨S100, .f32⟩ : BufTy).Contents (Elt F)) :
    (⟨S7, .f32⟩ : BufTy).Contents (Elt F) :=
  sevenK cls (recLossK sumsq) (psnrK sumsq mx) (termXK cnt sx) (termYK cnt sy)

/-! ## One stretch of host operations at a time

Each lemma below reads one buffer after one stretch of host operations, over an arbitrary valuation `X` before the
stretch: the stretch's operations applied to what `X` holds at the buffers the stretch reads. -/

/-- Reads one buffer after a literal list of operations: every operation's result at its own buffer is its function
    of its operands' contents, any other buffer keeps what it held; the transports along a buffer's own type cancel. -/
local macro "read_stretch" : tactic =>
  `(tactic| (after_results_simp; (try simp only [cast_cast, cast_eq]); first | done | rfl))

section Stretches

variable (X : Valuation τ sig (Elt F))

/-- The log-softmax stretch. -/
theorem after0_v0 : StableHlo.after hostOps0 X (Proc.devRef .tc main_v0) = logSoftmaxK (X (Proc.devRef .tc main_arg0)) := by
  read_stretch

/-- The label column. -/
theorem after0_1_v1 : StableHlo.after hostOps0_1 X (Proc.devRef .tc main_v1) = labelColK (F := F) (X (Proc.devRef .tc main_arg5)) := by
  read_stretch

/-- The stretch that picks one entry per row. -/
theorem after0_2_v2 :
    StableHlo.after hostOps0_2 X (Proc.devRef .tc main_v2)
      = pickedK (X (Proc.devRef .tc main_v0)) (X (Proc.devRef .tc main_v1)) := by
  read_stretch

/-- The negated mean, and the two reshapes. -/
theorem after0_3_v5 :
    StableHlo.after hostOps0_3 X (Proc.devRef .tc main_v5)
      = Host.negf (F := F)
          (Host.divf (F := F)
            (Host.reduceAdd (F := F) (X (Proc.devRef .tc main_v2)) (constant (F := F) S_ .f32 0x00000000#32)
              reducesTo_S4096x1_S_d0_1 h_S_)
            (constant (F := F) S_ .f32 0x45800000#32)) := by
  read_stretch
theorem after0_3_v6 :
    StableHlo.after hostOps0_3 X (Proc.devRef .tc main_v6)
      = shapeCast S4096x12288 (X (Proc.devRef .tc main_arg1)) shapeCasts_S4096x3x64x64_S4096x12288 := by
  read_stretch
theorem after0_3_v7 :
    StableHlo.after hostOps0_3 X (Proc.devRef .tc main_v7)
      = shapeCast S4096x12288 (X (Proc.devRef .tc main_arg4)) shapeCasts_S4096x3x64x64_S4096x12288 := by
  read_stretch

/-- Between the regions: the loss, the ratio, the label column. -/
theorem after1_v19 :
    StableHlo.after hostOps1 X (Proc.devRef .tc main_v19) = recLossK (sumOfParts (X (Proc.devRef .tc main_v8_0))) := by
  read_stretch
theorem after1_v24 :
    StableHlo.after hostOps1 X (Proc.devRef .tc main_v24)
      = psnrK (sumOfParts (X (Proc.devRef .tc main_v8_0))) (maxOfParts (X (Proc.devRef .tc main_v8_1))) := by
  read_stretch
theorem after1_v25 :
    StableHlo.after hostOps1 X (Proc.devRef .tc main_v25) = labelColK (F := F) (X (Proc.devRef .tc main_arg5)) := by
  read_stretch

end Stretches

section TailStretches

variable (X : Valuation τ sig (Elt F))

/-- After the second region: the three rows' first 100 lanes, which classes occur and how many, and the first
    per-class sum with 10⁻⁴ added. -/
theorem after2_v32 : StableHlo.after hostOps2 X (Proc.devRef .tc main_v32) = row100 (X (Proc.devRef .tc main_v26_2)) := by
  read_stretch
theorem after2_v34 :
    StableHlo.after hostOps2 X (Proc.devRef .tc main_v34) = presentK (row100 (X (Proc.devRef .tc main_v26_0))) := by
  read_stretch
theorem after2_v36 :
    StableHlo.after hostOps2 X (Proc.devRef .tc main_v36) = presentCountK (row100 (X (Proc.devRef .tc main_v26_0))) := by
  read_stretch
theorem after2_v38 :
    StableHlo.after hostOps2 X (Proc.devRef .tc main_v38)
      = addf (row100 (X (Proc.devRef .tc main_v26_1)))
          (broadcastInDim S100 ![] bcast_S_S100 (constant (F := F) S_ .f32 0x38D1B717#32)) := by
  read_stretch

/-- The first clamp at zero. -/
theorem after2_1_v39 :
    StableHlo.after hostOps2_1 X (Proc.devRef .tc main_v39)
      = maximumf (X (Proc.devRef .tc main_v38))
          (broadcastInDim S100 ![] bcast_S_S100 (constant (F := F) S_ .f32 0x00000000#32)) := by
  read_stretch

/-- The zero the first masking falls back to. -/
theorem after2_2_cst7 :
    StableHlo.after hostOps2_2 X (Proc.devRef .tc main_cst_7) = constant (F := F) S_ .f32 0x00000000#32 := by
  read_stretch

/-- The first masking: the clamped value where the class occurs, zero elsewhere. -/
theorem after2_3_v40 :
    StableHlo.after hostOps2_3 X (Proc.devRef .tc main_v40)
      = select (X (Proc.devRef .tc main_v34)) (X (Proc.devRef .tc main_v39))
          (broadcastInDim S100 ![] bcast_S_S100 (id (X (Proc.devRef .tc main_cst_7)))) := by
  read_stretch

/-- The first per-class term, and one minus (the second per-class sum plus 10⁻⁴). -/
theorem after2_4_v42 :
    StableHlo.after hostOps2_4 X (Proc.devRef .tc main_v42)
      = Host.divf (F := F)
          (Host.reduceAdd (F := F) (X (Proc.devRef .tc main_v40)) (constant (F := F) S_ .f32 0x00000000#32)
            reducesTo_S100_S_d0 h_S_)
          (X (Proc.devRef .tc main_v36)) := by
  read_stretch
theorem after2_4_v46 :
    StableHlo.after hostOps2_4 X (Proc.devRef .tc main_v46)
      = subf (broadcastInDim S100 ![] bcast_S_S100 (constant (F := F) S_ .f32 0x3F800000#32))
          (addf (X (Proc.devRef .tc main_v32))
            (broadcastInDim S100 ![] bcast_S_S100 (constant (F := F) S_ .f32 0x38D1B717#32))) := by
  read_stretch

/-- The second clamp at zero. -/
theorem after2_5_v47 :
    StableHlo.after hostOps2_5 X (Proc.devRef .tc main_v47)
      = maximumf (X (Proc.devRef .tc main_v46))
          (broadcastInDim S100 ![] bcast_S_S100 (constant (F := F) S_ .f32 0x00000000#32)) := by
  read_stretch

/-- The zero the second masking falls back to. -/
theorem after2_6_cst11 :
    StableHlo.after hostOps2_6 X (Proc.devRef .tc main_cst_11) = constant (F := F) S_ .f32 0x00000000#32 := by
  read_stretch

/-- The second masking. -/
theorem after2_7_v48 :
    StableHlo.after hostOps2_7 X (Proc.devRef .tc main_v48)
      = select (X (Proc.devRef .tc main_v34)) (X (Proc.devRef .tc main_v47))
          (broadcastInDim S100 ![] bcast_S_S100 (id (X (Proc.devRef .tc main_cst_11)))) := by
  read_stretch

end TailStretches

section Last

variable (X : Valuation τ sig (Elt F))

/-- The closing operation lays its seven operands side by side, each read at its own buffer. -/
theorem concat_result (V : Valuation τ sig (Elt F)) (hxs hy) :
    (StableHlo.nary (τ := τ) ![main_v61, main_v62, main_v63, main_v64, main_v65, main_v66, main_v67] main_v68
        (fun u => concatenate S7 0 [⟨S1, u 0⟩, ⟨S1, u 1⟩, ⟨S1, u 2⟩, ⟨S1, u 3⟩, ⟨S1, u 4⟩, ⟨S1, u 5⟩, ⟨S1, u 6⟩]
          concatenates_S1_S1_S1_S1_S1_S1_S1_S7_d0) hxs hy).result V (Proc.devRef .tc main_v68)
      = sideBySide7 (V (Proc.devRef .tc main_v61)) (V (Proc.devRef .tc main_v62)) (V (Proc.devRef .tc main_v63))
          (V (Proc.devRef .tc main_v64)) (V (Proc.devRef .tc main_v65)) (V (Proc.devRef .tc main_v66))
          (V (Proc.devRef .tc main_v67)) := by
  rw [nary_result]
  rfl

/-- The last stretch: the second per-class term, the two weighted sums, and the seven results side by side. -/
theorem after2_8_v68 :
    StableHlo.after hostOps2_8 X (Proc.devRef .tc main_v68)
      = sevenK (X (Proc.devRef .tc main_v5)) (X (Proc.devRef .tc main_v19)) (X (Proc.devRef .tc main_v24))
          (X (Proc.devRef .tc main_v42))
          (Host.divf (F := F)
            (Host.reduceAdd (F := F) (X (Proc.devRef .tc main_v48)) (constant (F := F) S_ .f32 0x00000000#32)
              reducesTo_S100_S_d0 h_S_)
            (X (Proc.devRef .tc main_v36))) := by
  simp only [after_cons, after_nil]
  rw [concat_result]
  read_stretch

end Last

/-! ## The valuations, item by item

What the buffers that matter hold after each item, in terms of the launch contents and of what the two regions
leave. A buffer an item does not write keeps what it held; a region's step is an update at the buffers it may change. -/

section Chain

variable (m : (ℓ : Loc nD τ sig) → Buf (Elt F) ℓ) (outs : Outs (F := F)) (c : Dev nD)

/-! ### Up to the first region: the cross-entropy and the flattened images -/

theorem v1_arg5 : V1 m c main_arg5 = (m ((c : Thread nD τ).loc main_arg5)) := (V1_of m c main_arg5 (by decide)).trans <| rfl
theorem v3_arg1 : V3 m c main_arg1 = (m ((c : Thread nD τ).loc main_arg1)) := (V3_of m c main_arg1 (by decide)).trans <| (V2_of m c main_arg1 (by decide)).trans <| (V1_of m c main_arg1 (by decide)).trans <| rfl
theorem v3_arg4 : V3 m c main_arg4 = (m ((c : Thread nD τ).loc main_arg4)) := (V3_of m c main_arg4 (by decide)).trans <| (V2_of m c main_arg4 (by decide)).trans <| (V1_of m c main_arg4 (by decide)).trans <| rfl
theorem v1_v0 : V1 m c main_v0 = logSoftmaxK (m ((c : Thread nD τ).loc main_arg0)) := after0_v0 (V0 m c)
theorem v2_v0 : V2 m c main_v0 = logSoftmaxK (m ((c : Thread nD τ).loc main_arg0)) := (V2_of m c main_v0 (by decide)).trans <| v1_v0 m c
theorem v2_v1 : V2 m c main_v1 = labelColK (F := F) (m ((c : Thread nD τ).loc main_arg5)) :=
  (after0_1_v1 (V1 m c)).trans (by rw [v1_arg5])
theorem v3_v2 : V3 m c main_v2 = pickedK (logSoftmaxK (m ((c : Thread nD τ).loc main_arg0))) (labelColK (F := F) (m ((c : Thread nD τ).loc main_arg5))) :=
  (after0_2_v2 (V2 m c)).trans (by rw [v2_v0, v2_v1])
theorem V4_v5 : V4 m c main_v5 = (clsK (m ((c : Thread nD τ).loc main_arg0)) (m ((c : Thread nD τ).loc main_arg5))) :=
  (after0_3_v5 (V3 m c)).trans (by rw [v3_v2]; rfl)

/-- The first image argument, flattened to 4096 × 12288, is what the first region reads. -/
theorem V4_v6 :
    V4 m c main_v6 = shapeCast S4096x12288 (m ((c : Thread nD τ).loc main_arg1)) shapeCasts_S4096x3x64x64_S4096x12288 :=
  (after0_3_v6 (V3 m c)).trans (by rw [v3_arg1])
/-- The second image argument, flattened likewise. -/
theorem V4_v7 :
    V4 m c main_v7 = shapeCast S4096x12288 (m ((c : Thread nD τ).loc main_arg4)) shapeCasts_S4096x3x64x64_S4096x12288 :=
  (after0_3_v7 (V3 m c)).trans (by rw [v3_arg4])

/-! ### The first region's step, and the host operations up to the second region -/

theorem v5_v8_0 : V5 m outs c main_v8_0 = (outs 5 main_v8_0 c) :=
  (Function.update_of_ne (StableHlo.devRef_ne_of_ne (by decide)) _ _).trans (Function.update_self _ _ _)
theorem v5_v8_1 : V5 m outs c main_v8_1 = (outs 5 main_v8_1 c) := Function.update_self _ _ _
theorem v5_arg5 : V5 m outs c main_arg5 = (m ((c : Thread nD τ).loc main_arg5)) := (V5_of m outs c main_arg5 (by decide)).trans <| (V4_of m c main_arg5 (by decide)).trans <| (V3_of m c main_arg5 (by decide)).trans <| (V2_of m c main_arg5 (by decide)).trans <| v1_arg5 m c
theorem v6_v5 : V6 m outs c main_v5 = (clsK (m ((c : Thread nD τ).loc main_arg0)) (m ((c : Thread nD τ).loc main_arg5))) := (V6_of m outs c main_v5 (by decide)).trans <| (V5_of m outs c main_v5 (by decide)).trans <| V4_v5 m c
theorem v6_v19 : V6 m outs c main_v19 = recLossK (sumOfParts (outs 5 main_v8_0 c)) :=
  (after1_v19 (V5 m outs c)).trans (by rw [v5_v8_0])
theorem v6_v24 : V6 m outs c main_v24 = psnrK (sumOfParts (outs 5 main_v8_0 c)) (maxOfParts (outs 5 main_v8_1 c)) :=
  (after1_v24 (V5 m outs c)).trans (by rw [v5_v8_0, v5_v8_1])

/-- The label column the second region reads. -/
theorem V6_v25 :
    V6 m outs c main_v25 = broadcastInDim S4096x1 ![0] bcast_S4096_S4096x1_0 (m ((c : Thread nD τ).loc main_arg5)) :=
  (after1_v25 (V5 m outs c)).trans (by rw [v5_arg5])
/-- The two feature arguments reach the second region as launched. -/
theorem V6_arg2 : V6 m outs c main_arg2 = (m ((c : Thread nD τ).loc main_arg2)) := (V6_of m outs c main_arg2 (by decide)).trans <| (V5_of m outs c main_arg2 (by decide)).trans <| (V4_of m c main_arg2 (by decide)).trans <| (V3_of m c main_arg2 (by decide)).trans <| (V2_of m c main_arg2 (by decide)).trans <| (V1_of m c main_arg2 (by decide)).trans <| rfl
theorem V6_arg3 : V6 m outs c main_arg3 = (m ((c : Thread nD τ).loc main_arg3)) := (V6_of m outs c main_arg3 (by decide)).trans <| (V5_of m outs c main_arg3 (by decide)).trans <| (V4_of m c main_arg3 (by decide)).trans <| (V3_of m c main_arg3 (by decide)).trans <| (V2_of m c main_arg3 (by decide)).trans <| (V1_of m c main_arg3 (by decide)).trans <| rfl

/-! ### The second region's step, and the host tail -/

theorem v7_v26_0 : V7 m outs c main_v26_0 = (outs 7 main_v26_0 c) :=
  (Function.update_of_ne (StableHlo.devRef_ne_of_ne (by decide)) _ _).trans <|
    (Function.update_of_ne (StableHlo.devRef_ne_of_ne (by decide)) _ _).trans (Function.update_self _ _ _)
theorem v7_v26_1 : V7 m outs c main_v26_1 = (outs 7 main_v26_1 c) :=
  (Function.update_of_ne (StableHlo.devRef_ne_of_ne (by decide)) _ _).trans (Function.update_self _ _ _)
theorem v7_v26_2 : V7 m outs c main_v26_2 = (outs 7 main_v26_2 c) := Function.update_self _ _ _

theorem v8_v32 : V8 m outs c main_v32 = (row100 (outs 7 main_v26_2 c)) := (after2_v32 (V7 m outs c)).trans (by rw [v7_v26_2])
theorem v8_v34 : V8 m outs c main_v34 = presentK (row100 (outs 7 main_v26_0 c)) := (after2_v34 (V7 m outs c)).trans (by rw [v7_v26_0])
theorem v8_v36 : V8 m outs c main_v36 = presentCountK (row100 (outs 7 main_v26_0 c)) := (after2_v36 (V7 m outs c)).trans (by rw [v7_v26_0])
theorem v8_v38 : V8 m outs c main_v38 = addf (row100 (outs 7 main_v26_1 c)) (broadcastInDim S100 ![] bcast_S_S100 (constant (F := F) S_ .f32 0x38D1B717#32)) :=
  (after2_v38 (V7 m outs c)).trans (by rw [v7_v26_1])

theorem v9_v39 : V9 m outs c main_v39 = maximumf (addf (row100 (outs 7 main_v26_1 c)) (broadcastInDim S100 ![] bcast_S_S100 (constant (F := F) S_ .f32 0x38D1B717#32))) (broadcastInDim S100 ![] bcast_S_S100 (constant (F := F) S_ .f32 0x00000000#32)) :=
  (after2_1_v39 (V8 m outs c)).trans (by rw [v8_v38])

theorem v10_cst7 : V10 m outs c main_cst_7 = constant (F := F) S_ .f32 0x00000000#32 := after2_2_cst7 (V9 m outs c)
theorem v10_v39 : V10 m outs c main_v39 = maximumf (addf (row100 (outs 7 main_v26_1 c)) (broadcastInDim S100 ![] bcast_S_S100 (constant (F := F) S_ .f32 0x38D1B717#32))) (broadcastInDim S100 ![] bcast_S_S100 (constant (F := F) S_ .f32 0x00000000#32)) :=
  (V10_of m outs c main_v39 (by decide)).trans <| v9_v39 m outs c
theorem v10_v34 : V10 m outs c main_v34 = presentK (row100 (outs 7 main_v26_0 c)) := (V10_of m outs c main_v34 (by decide)).trans <| (V9_of m outs c main_v34 (by decide)).trans <| v8_v34 m outs c

theorem v11_v40 :
    V11 m outs c main_v40 = select (presentK (row100 (outs 7 main_v26_0 c))) (maximumf (addf (row100 (outs 7 main_v26_1 c)) (broadcastInDim S100 ![] bcast_S_S100 (constant (F := F) S_ .f32 0x38D1B717#32))) (broadcastInDim S100 ![] bcast_S_S100 (constant (F := F) S_ .f32 0x00000000#32))) (broadcastInDim S100 ![] bcast_S_S100 (id (constant (F := F) S_ .f32 0x00000000#32))) :=
  (after2_3_v40 (V10 m outs c)).trans (by rw [v10_v34, v10_v39, v10_cst7])
theorem v11_v36 : V11 m outs c main_v36 = presentCountK (row100 (outs 7 main_v26_0 c)) := (V11_of m outs c main_v36 (by decide)).trans <| (V10_of m outs c main_v36 (by decide)).trans <| (V9_of m outs c main_v36 (by decide)).trans <| v8_v36 m outs c
theorem v11_v32 : V11 m outs c main_v32 = (row100 (outs 7 main_v26_2 c)) := (V11_of m outs c main_v32 (by decide)).trans <| (V10_of m outs c main_v32 (by decide)).trans <| (V9_of m outs c main_v32 (by decide)).trans <| v8_v32 m outs c

theorem v12_v42 : V12 m outs c main_v42 = termXK (row100 (outs 7 main_v26_0 c)) (row100 (outs 7 main_v26_1 c)) :=
  (after2_4_v42 (V11 m outs c)).trans (by rw [v11_v40, v11_v36])
theorem v12_v46 : V12 m outs c main_v46 = subf (broadcastInDim S100 ![] bcast_S_S100 (constant (F := F) S_ .f32 0x3F800000#32)) (addf (row100 (outs 7 main_v26_2 c)) (broadcastInDim S100 ![] bcast_S_S100 (constant (F := F) S_ .f32 0x38D1B717#32))) :=
  (after2_4_v46 (V11 m outs c)).trans (by rw [v11_v32])
theorem v12_v34 : V12 m outs c main_v34 = presentK (row100 (outs 7 main_v26_0 c)) := (V12_of m outs c main_v34 (by decide)).trans <| (V11_of m outs c main_v34 (by decide)).trans <| v10_v34 m outs c

theorem v13_v47 : V13 m outs c main_v47 = maximumf (subf (broadcastInDim S100 ![] bcast_S_S100 (constant (F := F) S_ .f32 0x3F800000#32)) (addf (row100 (outs 7 main_v26_2 c)) (broadcastInDim S100 ![] bcast_S_S100 (constant (F := F) S_ .f32 0x38D1B717#32)))) (broadcastInDim S100 ![] bcast_S_S100 (constant (F := F) S_ .f32 0x00000000#32)) :=
  (after2_5_v47 (V12 m outs c)).trans (by rw [v12_v46])

theorem v14_cst11 : V14 m outs c main_cst_11 = constant (F := F) S_ .f32 0x00000000#32 := after2_6_cst11 (V13 m outs c)
theorem v14_v47 : V14 m outs c main_v47 = maximumf (subf (broadcastInDim S100 ![] bcast_S_S100 (constant (F := F) S_ .f32 0x3F800000#32)) (addf (row100 (outs 7 main_v26_2 c)) (broadcastInDim S100 ![] bcast_S_S100 (constant (F := F) S_ .f32 0x38D1B717#32)))) (broadcastInDim S100 ![] bcast_S_S100 (constant (F := F) S_ .f32 0x00000000#32)) :=
  (V14_of m outs c main_v47 (by decide)).trans <| v13_v47 m outs c
theorem v14_v34 : V14 m outs c main_v34 = presentK (row100 (outs 7 main_v26_0 c)) := (V14_of m outs c main_v34 (by decide)).trans <| (V13_of m outs c main_v34 (by decide)).trans <| v12_v34 m outs c

theorem v15_v48 :
    V15 m outs c main_v48
      = select (presentK (row100 (outs 7 main_v26_0 c))) (maximumf (subf (broadcastInDim S100 ![] bcast_S_S100 (constant (F := F) S_ .f32 0x3F800000#32)) (addf (row100 (outs 7 main_v26_2 c)) (broadcastInDim S100 ![] bcast_S_S100 (constant (F := F) S_ .f32 0x38D1B717#32)))) (broadcastInDim S100 ![] bcast_S_S100 (constant (F := F) S_ .f32 0x00000000#32))) (broadcastInDim S100 ![] bcast_S_S100 (id (constant (F := F) S_ .f32 0x00000000#32))) :=
  (after2_7_v48 (V14 m outs c)).trans (by rw [v14_v34, v14_v47, v14_cst11])
theorem v15_v36 : V15 m outs c main_v36 = presentCountK (row100 (outs 7 main_v26_0 c)) := (V15_of m outs c main_v36 (by decide)).trans <| (V14_of m outs c main_v36 (by decide)).trans <| (V13_of m outs c main_v36 (by decide)).trans <| (V12_of m outs c main_v36 (by decide)).trans <| v11_v36 m outs c
theorem v15_v42 : V15 m outs c main_v42 = termXK (row100 (outs 7 main_v26_0 c)) (row100 (outs 7 main_v26_1 c)) := (V15_of m outs c main_v42 (by decide)).trans <| (V14_of m outs c main_v42 (by decide)).trans <| (V13_of m outs c main_v42 (by decide)).trans <| v12_v42 m outs c
theorem v15_v5 : V15 m outs c main_v5 = (clsK (m ((c : Thread nD τ).loc main_arg0)) (m ((c : Thread nD τ).loc main_arg5))) := (V15_of m outs c main_v5 (by decide)).trans <| (V14_of m outs c main_v5 (by decide)).trans <| (V13_of m outs c main_v5 (by decide)).trans <| (V12_of m outs c main_v5 (by decide)).trans <| (V11_of m outs c main_v5 (by decide)).trans <| (V10_of m outs c main_v5 (by decide)).trans <| (V9_of m outs c main_v5 (by decide)).trans <| (V8_of m outs c main_v5 (by decide)).trans <| (V7_of m outs c main_v5 (by decide)).trans <| v6_v5 m outs c
theorem v15_v19 : V15 m outs c main_v19 = recLossK (sumOfParts (outs 5 main_v8_0 c)) := (V15_of m outs c main_v19 (by decide)).trans <| (V14_of m outs c main_v19 (by decide)).trans <| (V13_of m outs c main_v19 (by decide)).trans <| (V12_of m outs c main_v19 (by decide)).trans <| (V11_of m outs c main_v19 (by decide)).trans <| (V10_of m outs c main_v19 (by decide)).trans <| (V9_of m outs c main_v19 (by decide)).trans <| (V8_of m outs c main_v19 (by decide)).trans <| (V7_of m outs c main_v19 (by decide)).trans <| v6_v19 m outs c
theorem v15_v24 : V15 m outs c main_v24 = psnrK (sumOfParts (outs 5 main_v8_0 c)) (maxOfParts (outs 5 main_v8_1 c)) := (V15_of m outs c main_v24 (by decide)).trans <| (V14_of m outs c main_v24 (by decide)).trans <| (V13_of m outs c main_v24 (by decide)).trans <| (V12_of m outs c main_v24 (by decide)).trans <| (V11_of m outs c main_v24 (by decide)).trans <| (V10_of m outs c main_v24 (by decide)).trans <| (V9_of m outs c main_v24 (by decide)).trans <| (V8_of m outs c main_v24 (by decide)).trans <| (V7_of m outs c main_v24 (by decide)).trans <| v6_v24 m outs c

/-- The result, over whatever the two regions leave. -/
theorem V16_v68 :
    V16 m outs c main_v68
      = tailK (clsK (m ((c : Thread nD τ).loc main_arg0)) (m ((c : Thread nD τ).loc main_arg5)))
          (sumOfParts (outs 5 main_v8_0 c)) (maxOfParts (outs 5 main_v8_1 c))
          (row100 (outs 7 main_v26_0 c)) (row100 (outs 7 main_v26_1 c)) (row100 (outs 7 main_v26_2 c)) :=
  (after2_8_v68 (V15 m outs c)).trans
    (by rw [v15_v5, v15_v19, v15_v24, v15_v42, v15_v48, v15_v36]; rfl)

end Chain

/-! ## Reading the layout pieces at an index, over the extended reals -/

section Reads

open Idealize.ShloMosaic.ValueIdx

/-- A lane of the first 100 of a 1 × 128 row is that lane of the row. -/
theorem row100_apply (r : (⟨S1x128, .f32⟩ : BufTy).Contents (Elt Ideal)) (j : Fin 100) :
    row100 (F := Ideal) r (ix1 j) = r (ix2 0 ⟨j.val, by have := j.isLt; omega⟩) := by
  unfold row100
  refine (shapeCast_apply _ shapeCasts_S1x100_S100 (ix1 j) (ix2 0 j) ?_).trans ?_
  · rw [Shape.rowMajor_val_two, Shape.rowMajor_val_one]
    show 0 * 100 + j.val = j.val
    omega
  · refine extractStridedSlice_apply _ r slices_S1x128_S1x100_0_0 (ix2 0 j) (ix2 0 ⟨j.val, by have := j.isLt; omega⟩)
      fun a => ?_
    match a with
    | ⟨0, _⟩ => rfl
    | ⟨1, _⟩ => show j.val = 0 + j.val; omega

/-- One entry of a 16 × 128 array, taken out as a scalar, is that entry. -/
theorem entryK_apply (p : (⟨S16x128, .f32⟩ : BufTy).Contents (Elt Ideal)) (a : Fin 16) (b : Fin 128)
    (h : S16x128.Slices ![a.val, b.val] S1x1) (i : S_.Idx) :
    entryK (F := Ideal) p ![a.val, b.val] h i = p (ix2 a b) := by
  refine (shapeCast_apply _ shapeCasts_S1x1_S_ i (ix2 0 0) ?_).trans ?_
  · rw [Shape.rowMajor_val_two]
    exact (Nat.lt_one_iff.mp (S_.rowMajor i).isLt).symm
  · refine extractStridedSlice_apply _ p h (ix2 0 0) (ix2 a b) fun d => ?_
    match d with
    | ⟨0, _⟩ => show a.val = a.val + 0; omega
    | ⟨1, _⟩ => show b.val = b.val + 0; omega

/-- The sum of the two partial sums is the sum of the entries [0, 0] and [8, 0]. -/
theorem sumOfParts_apply (p : (⟨S16x128, .f32⟩ : BufTy).Contents (Elt Ideal)) (i : S_.Idx) :
    sumOfParts (F := Ideal) p i = p (ix2 0 0) + p (ix2 8 0) := by
  unfold sumOfParts
  rw [addf_apply]
  exact congrArg₂ (· + ·) (entryK_apply p 0 0 _ i) (entryK_apply p 8 0 _ i)

/-- The maximum of the two partial maxima is the larger of the entries [0, 0] and [8, 0]. -/
theorem maxOfParts_apply (p : (⟨S16x128, .f32⟩ : BufTy).Contents (Elt Ideal)) (i : S_.Idx) :
    maxOfParts (F := Ideal) p i = max (p (ix2 0 0)) (p (ix2 8 0)) := by
  unfold maxOfParts
  rw [maximumf_apply]
  exact congrArg₂ max (entryK_apply p 0 0 _ i) (entryK_apply p 8 0 _ i)

end Reads

end Cert.KernelIdeal.Hand

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.Val.PerClassSpec.lean ====
/-
  Per-class statistics of a batch of 4096 rows of 512 features, each row labelled by a 32-bit word: the mathematics
  that a one-hot formulation and a segment-sum formulation both compute, over the extended reals.

  A row "carries" class j when its label, read as a signed integer, is j. For a class j:
    * its count is the number of rows that carry it, and its safe count the larger of that and 1;
    * its sum, per feature, adds the feature over the rows that carry it, and its mean divides by the safe count;
    * its deviation adds, over the rows that carry it, the row's total absolute distance from the class mean, and
      the mean absolute deviation divides by the safe count times 512.
  A row whose label is negative or names no class in range carries none of the classes read here and enters no sum.
-/
import Idealize.ShloMosaic.PureOps.Ideal
import Idealize.ShloMosaic.Lib.ValueIdx

noncomputable section

namespace Cert.KernelIdeal.Hand

open Idealize.ShloMosaic Idealize.ShloMosaic.ValueIdx
open scoped BigOperators

/-- Row b of the label column carries class j: its word, read as a signed integer, is j. -/
def carries (col : IVec ⟨2, ![4096, 1]⟩ 32) (b : Fin 4096) (j : ℕ) : Prop := (col (ix2 b (0 : Fin 1))).toInt = (j : ℤ)

instance (col : IVec ⟨2, ![4096, 1]⟩ 32) (b : Fin 4096) (j : ℕ) : Decidable (carries col b j) :=
  inferInstanceAs (Decidable ((col (ix2 b (0 : Fin 1))).toInt = (j : ℤ)))

/-- A row carries at most one class. -/
theorem carries_unique {col : IVec ⟨2, ![4096, 1]⟩ 32} {b : Fin 4096} {j j' : ℕ} (h : carries col b j) (h' : carries col b j') :
    j = j' := by
  unfold carries at h h'; omega

/-- The number of rows that carry class j. -/
def classCount (col : IVec ⟨2, ![4096, 1]⟩ 32) (j : ℕ) : EReal :=
  ∑ b : Fin 4096, if carries col b j then (1 : EReal) else 0

/-- … and the larger of it and 1 (the f32 word of 1.0), so that an empty class divides by one. -/
def classSafe (col : IVec ⟨2, ![4096, 1]⟩ 32) (j : ℕ) : EReal :=
  max (classCount col j) (Ideal.ofBits .f32 0x3F800000#32)

/-- Feature d added over the rows that carry class j. -/
def classSum (col : IVec ⟨2, ![4096, 1]⟩ 32) (x : (⟨2, ![4096, 512]⟩ : Shape).Idx → EReal) (j : ℕ) (d : Fin 512) : EReal :=
  ∑ b : Fin 4096, if carries col b j then x (ix2 b d) else 0

/-- The class mean of feature d. -/
def classMean (col : IVec ⟨2, ![4096, 1]⟩ 32) (x : (⟨2, ![4096, 512]⟩ : Shape).Idx → EReal) (j : ℕ) (d : Fin 512) : EReal :=
  Ideal.div (classSum col x j d) (classSafe col j)

/-- Row b's total absolute distance from the mean of class j, over the 512 features. -/
def rowDev (col : IVec ⟨2, ![4096, 1]⟩ 32) (x : (⟨2, ![4096, 512]⟩ : Shape).Idx → EReal) (j : ℕ) (b : Fin 4096) : EReal :=
  ∑ d : Fin 512, FloatOps.absf (F := Ideal) (φ := .f32) (x (ix2 b d) - classMean col x j d)

/-- Those distances added over the rows that carry class j. -/
def classDev (col : IVec ⟨2, ![4096, 1]⟩ 32) (x : (⟨2, ![4096, 512]⟩ : Shape).Idx → EReal) (j : ℕ) : EReal :=
  ∑ b : Fin 4096, if carries col b j then rowDev col x j b else 0

/-- The mean absolute deviation of class j: the deviations over the safe count times 512 (the f32 word of 512.0). -/
def classMad (col : IVec ⟨2, ![4096, 1]⟩ 32) (x : (⟨2, ![4096, 512]⟩ : Shape).Idx → EReal) (j : ℕ) : EReal :=
  Ideal.div (classDev col x j) (classSafe col j * Ideal.ofBits .f32 0x44000000#32)

end Cert.KernelIdeal.Hand

end
-- ==== Proof.Val.PerClassK.lean ====
/-
  The per-class kernel's three stored rows, read at a lane, against the per-class statistics (Val/PerClassSpec.lean),
  over the extended reals.

  The kernel makes the one-hot matrix of the labels — entry (b, j) is 1 where the label of row b equals lane number j
  and 0 elsewhere; as lane numbers are below 128, that is exactly "row b carries class j" — and computes every
  statistic as a contraction with it:
    * the counts are its column sums;
    * the class sums are its transpose times the features, the means those over the safe counts;
    * its product with the table of means gives every row the mean of the class the row carries: on such a row one
      lane's entry is 1 and the others are 0, and 0 · m = 0, 1 · m = m hold for every extended real;
    * the deviations are its transpose times the column of row distances: a row that does not carry class j has its
      distance multiplied by 0 and drops out of lane j, whatever that distance is.
  So no entry needs to be finite.
-/
import proofs.«403987_j59588376264841_3_alg».proof.Proof.KI.R1Run
import proofs.«403987_j59588376264841_3_alg».proof.Proof.LibPlainMatmul
import proofs.«403987_j59588376264841_3_alg».proof.Proof.LibRowOps
import proofs.«403987_j59588376264841_3_alg».proof.Proof.LibIdealReal
import proofs.«403987_j59588376264841_3_alg».proof.Proof.Val.PerClassSpec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators
/-! ## The one-hot matrix and its column sums -/

/-- A lane number below 128, written as a 32-bit word, equals a word exactly when the word read signed is that number. -/
theorem ofNat_eq_iff_carries (w : BitVec 32) (j : ℕ) (hj : j < 128) : BitVec.ofNat 32 j = w ↔ w.toInt = (j : ℤ) := by
  constructor
  · intro h; subst h; exact StableHlo.Predicate.toInt_ofNat_small j (by omega)
  · intro h
    apply BitVec.eq_of_toInt_eq
    rw [StableHlo.Predicate.toInt_ofNat_small j (by omega), h]

/-- The one-hot entry (b, j): the lane number compared with the row's label, the bit widened and read as a float. -/
theorem onehot_apply (col : Vec Ideal S4096x1 .i32) (b : Fin 4096) (j : Fin 128) :
    k1_pay2 (F := Ideal) col (ix2 b j) = if carries col b j.val then 1 else 0 := by
  have e1 : iota .tc S4096x128 32 [1] iota_S4096x128_d1_w32 (ix2 b j) = BitVec.ofNat 32 j.val :=
    iota_single_apply .tc S4096x128 32 1 iota_S4096x128_d1_w32 (ix2 b j)
  have e2 : broadcastTo S4096x128 (shapeCast S4096x1 col shapeCasts_S4096x1_S4096x1) broadcasts_S4096x1_S4096x128 (ix2 b j)
      = col (ix2 b (0 : Fin 1)) := by
    rw [shapeCast_self]
    exact Cert.RowOps.broadcastTo_a1_ab_apply (by decide) col _ b j
  show FloatOps.sitofp (F := Ideal) .f32 ((IntOp.cmpi .eq (iota .tc S4096x128 32 [1] iota_S4096x128_d1_w32 (ix2 b j))
    (broadcastTo S4096x128 (shapeCast S4096x1 col shapeCasts_S4096x1_S4096x1) broadcasts_S4096x1_S4096x128 (ix2 b j))).setWidth 32) = _
  rw [e1, e2]
  show FloatOps.sitofp (F := Ideal) .f32 ((BitVec.ofBool (BitVec.ofNat 32 j.val == col (ix2 b (0 : Fin 1)))).setWidth 32) = _
  rw [IdealReal.sitofp_setWidth_ofBool]
  by_cases h : carries col b j.val
  · have e : BitVec.ofNat 32 j.val = col (ix2 b (0 : Fin 1)) := (ofNat_eq_iff_carries _ _ j.isLt).mpr h
    rw [if_pos h, e]; simp
  · have e : ¬ BitVec.ofNat 32 j.val = col (ix2 b (0 : Fin 1)) := fun e => h ((ofNat_eq_iff_carries _ _ j.isLt).mp e)
    rw [if_neg h]; simp [e]

/-- Over lane j, the source index whose coordinate on the dropped axis 0 is k is (k, j). -/
theorem lift_col {n m : ℕ} (h : (⟨2, ![n, m]⟩ : Shape).Reduces [0] ⟨1, ![m]⟩) (c : Fin m)
    (k : Fin ((⟨2, ![n, m]⟩ : Shape).size 0)) : h.lift (ix1 c) k = ix2 (⟨k.val, k.isLt⟩ : Fin n) c := by
  funext a; apply Fin.ext
  fin_cases a <;> rfl

/-- A float sum along axis 0, at column c, is the sum of the column's entries. -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ) (c : Fin m) :
    multiReduction .add [0] ⟨1, ![m]⟩ src acc h hφ hacc (ix1 c) = ∑ k : Fin n, src (ix2 k c) := by
  refine (Ideal.multiReduction_add_single src acc h hφ hacc (ix1 c)).trans ?_
  exact Finset.sum_congr rfl fun k _ => congrArg src (lift_col h c k)

/-- The count row at lane j: how many rows carry class j. -/
theorem counts_apply (col : Vec Ideal S4096x1 .i32) (u : Fin 1) (j : Fin 128) :
    k1_pay3 (F := Ideal) col (ix2 u j) = ∑ b : Fin 4096, if carries col b j.val then (1 : EReal) else 0 := by
  unfold k1_pay3
  refine (shapeCast_a_1a_apply _ _ u j).trans ?_
  refine (colSum_apply _ _ _ _ _ j).trans ?_
  exact Finset.sum_congr rfl fun b _ => onehot_apply col b j

/-! ## The three one-hot contractions -/

/-- Class sums: [128, 4096] times [4096, 512]. -/
theorem mm_rows (a : FVec Ideal S128x4096 .f32) (x : FVec Ideal S4096x512 .f32) (r : Fin 128) (c : Fin 512) :
    matmul dot_S128x4096_S4096x512_S128x512_1_0_0_1_n_n none a x (constant S128x512 .f32 0x00000000#32) (ix2 r c)
      = ∑ k : Fin 4096, a (ix2 r k) * x (ix2 k c) :=
  Cert.PlainMatmul.apply none a x r c

/-- The means spread back over the rows: [4096, 128] times [128, 512]. -/
theorem mm_spread (a : FVec Ideal S4096x128 .f32) (m : FVec Ideal S128x512 .f32) (r : Fin 4096) (c : Fin 512) :
    matmul dot_S4096x128_S128x512_S4096x512_1_0_0_1_n_n none a m (constant S4096x512 .f32 0x00000000#32) (ix2 r c)
      = ∑ k : Fin 128, a (ix2 r k) * m (ix2 k c) :=
  Cert.PlainMatmul.apply none a m r c

/-- Class sums of a column: [128, 4096] times [4096, 1]. -/
theorem mm_col (a : FVec Ideal S128x4096 .f32) (v : FVec Ideal S4096x1 .f32) (r : Fin 128) (c : Fin 1) :
    matmul dot_S128x4096_S4096x1_S128x1_1_0_0_1_n_n none a v (constant S128x1 .f32 0x00000000#32) (ix2 r c)
      = ∑ k : Fin 4096, a (ix2 r k) * v (ix2 k c) :=
  Cert.PlainMatmul.apply none a v r c

/-- The final quotient over any one-hot matrix, safe-count row and column of row values: at lane j, the column
    contracted with the matrix's column j, over the safe count times 512. -/
theorem mad_row_apply (oh : FVec Ideal S4096x128 .f32) (sf : FVec Ideal S1x128 .f32) (rs : FVec Ideal S4096x1 .f32) (u : Fin 1) (j : Fin 128) :
    k1_pay1 (F := Ideal) oh sf rs (ix2 u j)
      = Ideal.div (∑ b : Fin 4096, oh (ix2 b j) * rs (ix2 b (0 : Fin 1))) (sf (ix2 u j) * Ideal.ofBits .f32 0x44000000#32) := by
  obtain rfl : u = 0 := Subsingleton.elim _ _
  unfold k1_pay1
  dsimp only
  rw [divf_apply, mulf_apply, broadcast_apply, transpose_ix2_apply, mm_col]
  refine congrArg (fun t => Ideal.div t _) (Finset.sum_congr rfl fun b _ => ?_)
  rw [transpose_ix2_apply]

/-- The column of row distances: row b's entries less the one-hot row times the table of class means, in absolute
    value, added over the 512 features. -/
theorem rowdev_col_apply (col : Vec Ideal S4096x1 .i32) (x : Vec Ideal S4096x512 .f32) (b : Fin 4096) (u : Fin 1) :
    k1_pay6 (F := Ideal) col x (ix2 b u)
      = ∑ d : Fin 512, FloatOps.absf (F := Ideal) (φ := .f32) (x (ix2 b d) - ∑ j' : Fin 128, k1_pay2 (F := Ideal) col (ix2 b j') *
            Ideal.div (∑ b' : Fin 4096, k1_pay2 (F := Ideal) col (ix2 b' j') * x (ix2 b' d)) (k1_pay4 (F := Ideal) col (ix2 (0 : Fin 1) j'))) := by
  unfold k1_pay6
  dsimp only
  rw [Cert.RowOps.shapeCast_a_a1_apply]
  refine (Cert.RowOps.rowSum_apply _ _ _ _ _ b).trans ?_
  refine Finset.sum_congr rfl fun d _ => ?_
  show FloatOps.absf (F := Ideal) (φ := .f32) (x (ix2 b d) - matmul dot_S4096x128_S128x512_S4096x512_1_0_0_1_n_n none (k1_pay2 (F := Ideal) col) _ _ (ix2 b d)) = _
  rw [mm_spread]
  refine congrArg (fun t => FloatOps.absf (F := Ideal) (φ := .f32) (x (ix2 b d) - t)) (Finset.sum_congr rfl fun j' _ => ?_)
  refine congrArg (fun t => k1_pay2 (F := Ideal) col (ix2 b j') * t) ?_
  rw [divf_apply, mm_rows, Cert.RowOps.broadcastTo_a1_ab_apply (by decide), transpose_ix2_apply]
  refine congrArg (fun t => Ideal.div t _) (Finset.sum_congr rfl fun b' _ => ?_)
  rw [transpose_ix2_apply]

/-! ## The payloads against the per-class statistics -/

/-- The zero offsets of a whole-block access. -/
theorem zeros2 : (![0, 0] : Fin 2 → ℕ) = fun _ => 0 := by funext a; fin_cases a <;> rfl

/-- The count row is the class count. -/
theorem counts_row (col : Vec Ideal S4096x1 .i32) (u : Fin 1) (j : Fin 128) :
    k1_pay3 (F := Ideal) col (ix2 u j) = classCount col j.val := counts_apply col u j

/-- The safe-count row is the safe class count. -/
theorem safe_row (col : Vec Ideal S4096x1 .i32) (u : Fin 1) (j : Fin 128) :
    k1_pay4 (F := Ideal) col (ix2 u j) = classSafe col j.val := by
  unfold k1_pay4
  rw [maximumf_apply, broadcast_apply, counts_row]
  rfl

/-- A one-hot entry times a value keeps the value on a row that carries the class and is zero elsewhere:
    1 · v = v and 0 · v = 0 for every extended real, the infinities included. -/
theorem onehot_mul (col : Vec Ideal S4096x1 .i32) (b : Fin 4096) (j : Fin 128) (v : EReal) :
    k1_pay2 (F := Ideal) col (ix2 b j) * v = if carries col b j.val then v else 0 := by
  rw [onehot_apply]
  by_cases h : carries col b j.val
  · rw [if_pos h, if_pos h, one_mul]
  · rw [if_neg h, if_neg h, zero_mul]

/-- On a row that carries class j, the one-hot row times a table of per-class values picks the table's entry j:
    the other lanes' entries are multiplied by zero. -/
theorem spread_of_carries (col : Vec Ideal S4096x1 .i32) (b : Fin 4096) (j : Fin 128) (h : carries col b j.val) (M : Fin 128 → EReal) :
    ∑ j' : Fin 128, k1_pay2 (F := Ideal) col (ix2 b j') * M j' = M j := by
  rw [Finset.sum_eq_single j]
  · rw [onehot_mul, if_pos h]
  · intro j' _ hne
    rw [onehot_mul, if_neg]
    intro h'
    exact hne (Fin.ext (carries_unique h' h))
  · intro hj; exact absurd (Finset.mem_univ j) hj

/-- On a row that carries class j, the row-deviation column holds the row's distance from the mean of class j. -/
theorem rowdev_of_carries (col : Vec Ideal S4096x1 .i32) (x : Vec Ideal S4096x512 .f32) (b : Fin 4096) (j : Fin 128)
    (h : carries col b j.val) (u : Fin 1) : k1_pay6 (F := Ideal) col x (ix2 b u) = rowDev col x j.val b := by
  rw [rowdev_col_apply]
  unfold rowDev
  refine Finset.sum_congr rfl fun d _ => ?_
  refine congrArg (fun t => FloatOps.absf (F := Ideal) (φ := .f32) (x (ix2 b d) - t)) ((spread_of_carries col b j h _).trans ?_)
  unfold classMean classSum
  rw [safe_row]
  exact congrArg (fun t => Ideal.div t _) (Finset.sum_congr rfl fun b' _ => onehot_mul col b' j _)

/-- The deviation row at lane j is the mean absolute deviation of class j. -/
theorem mad_row (col : Vec Ideal S4096x1 .i32) (x : Vec Ideal S4096x512 .f32) (u : Fin 1) (j : Fin 128) :
    k1_pay1 (F := Ideal) (k1_pay2 col) (k1_pay4 col) (k1_pay6 col x) (ix2 u j) = classMad col x j.val := by
  rw [mad_row_apply, safe_row]
  unfold classMad classDev
  refine congrArg (fun t => Ideal.div t _) (Finset.sum_congr rfl fun b _ => ?_)
  rw [onehot_mul]
  by_cases h : carries col b j.val
  · rw [if_pos h, if_pos h, rowdev_of_carries col x b j h]
  · rw [if_neg h, if_neg h]

/-- The first matrix's payload is the same composition as the second's. -/
theorem pay5_eq (col : Vec Ideal S4096x1 .i32) (x : Vec Ideal S4096x512 .f32) :
    k1_pay5 (F := Ideal) col x = k1_pay1 (k1_pay2 col) (k1_pay4 col) (k1_pay6 col x) := rfl

/-! ## The rows the body leaves -/

/-- The stored count row at lane j. -/
theorem cntRow_apply (col : Vec Ideal S4096x1 .i32) (u : Fin 1) (j : Fin 128) :
    cntRow (F := Ideal) col (ix2 u j) = classCount col j.val := by
  unfold cntRow
  rw [View.canon_unit_zero (S := S1x128) zeros2, View.ld_unit_zero (S := S4096x1) zeros2]
  exact counts_row col u j

/-- The first matrix's stored deviation row at lane j. -/
theorem devRowX_apply (col : Vec Ideal S4096x1 .i32) (x : Vec Ideal S4096x512 .f32) (u : Fin 1) (j : Fin 128) :
    devRowX (F := Ideal) col x (ix2 u j) = classMad col x j.val := by
  unfold devRowX
  rw [View.canon_unit_zero (S := S1x128) zeros2, View.ld_unit_zero (S := S4096x1) zeros2, View.ld_unit_zero (S := S4096x512) zeros2, pay5_eq]
  exact mad_row col x u j

/-- The second matrix's stored deviation row at lane j. -/
theorem devRowY_apply (col : Vec Ideal S4096x1 .i32) (y : Vec Ideal S4096x512 .f32) (u : Fin 1) (j : Fin 128) :
    devRowY (F := Ideal) col y (ix2 u j) = classMad col y j.val := by
  unfold devRowY
  rw [View.canon_unit_zero (S := S1x128) zeros2, View.ld_unit_zero (S := S4096x1) zeros2, View.ld_unit_zero (S := S4096x512) zeros2]
  exact mad_row col y u j

end Cert.KernelIdeal.Hand

end
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.Val.PerClassR.lean ====
/-
  The reference's per-class stages, read at a class below 100, against the per-class statistics
  (Val/PerClassSpec.lean), over the extended reals.

  The reference computes by segments: a scatter-add by the label column adds an update into the class its row's label
  names, the label read signed and not clamped, and an update whose label is negative or 100 and more lands nowhere.
  Read at class k that is the sum over the rows that carry k:
    * the counts scatter ones, the class sums scatter the rows of features, the deviations scatter the row sums;
    * the row gather of the means reads, at a row that carries k, row k of the table of means: the label is then not
      negative, so the wrap-around of negative labels leaves it, and below 100, so the clamp leaves it;
    * rows that carry no class below 100 reach the gather with some other row of the table, but their row sums land in
      no class read here.
  The two chains of stages, one per feature matrix, are the same functions under other names.
-/
import proofs.«403987_j59588376264841_3_alg».proof.Proof.RefRead
import proofs.«403987_j59588376264841_3_alg».proof.Proof.LibScatterAddRows
import proofs.«403987_j59588376264841_3_alg».proof.Proof.LibGatherRows
import proofs.«403987_j59588376264841_3_alg».proof.Proof.LibRowOps
import proofs.«403987_j59588376264841_3_alg».proof.Proof.LibIdealReal
import proofs.«403987_j59588376264841_3_alg».proof.Proof.Val.PerClassSpec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Hand

open Cert.ReferenceIdeal Cert.ReferenceIdeal.Gen Cert.ReferenceIdeal.Read
open Idealize.ShloMosaic Idealize.ShloMosaic.ValueIdx
open scoped BigOperators

/-! ## The reference's two renamed chains are one function -/

/-- The second feature matrix's chain is the first's, stage for stage. -/
theorem v71_eq_v43 {F : FTy → Type} [FloatOps F] (y : (⟨S4096x512, .f32⟩ : BufTy).Contents (Elt F)) (label : (⟨S4096, .i32⟩ : BufTy).Contents (Elt F)) :
    val_main_v71 (F := F) y label = val_main_v43 (F := F) y label := rfl

/-! ## Zeros and ones -/

/-- The f32 word of 0.0 is zero, -/
theorem zeroF : FloatOps.ofBits (F := Ideal) .f32 0x00000000#32 = 0 := Ideal.ofBits_zero_f32
/-- and that of 1.0 is one. -/
theorem oneF : FloatOps.ofBits (F := Ideal) .f32 0x3F800000#32 = 1 := IdealReal.ofBits_one_f32.trans EReal.coe_one

/-- The reference's class counts: a scatter-add of ones by the label column. -/
theorem ref_counts (label : (⟨S4096, .i32⟩ : BufTy).Contents (Elt Ideal)) (k : Fin 100) :
    val_main_v19 (F := Ideal) label (ix1 k) = classCount (val_main_v18 (F := Ideal) label) k.val := by
  unfold val_main_v19
  refine (ScatterAddRows.scatterAdd_entries_apply scatter_S100_S4096x1_S4096_n_0_0_1_wf _ _ _ k).trans ?_
  have h0 : val_main_v17 (F := Ideal) (ix1 k) = 0 := by
    rw [val_main_v17_apply, val_main_cst_7_apply]; exact zeroF
  have h1 : ∀ p : Fin 4096, val_main_v16 (F := Ideal) (ix1 p) = 1 := fun p => by
    rw [val_main_v16_apply, val_main_cst_6_apply]; exact oneF
  rw [h0, zero_add]
  unfold classCount
  exact Finset.sum_congr rfl fun p _ => by rw [h1 p]; rfl

/-! ## The label column -/

/-- The label column at row p is the label vector's entry p. -/
theorem col_apply (label : (⟨S4096, .i32⟩ : BufTy).Contents (Elt Ideal)) (p : Fin 4096) (u : Fin 1) :
    val_main_v18 (F := Ideal) label (ix2 p u) = label (ix1 p) := by
  rw [val_main_v18_apply]
  exact congrArg label (funext fun a => Fin.ext (by match a with | ⟨0, _⟩ => rfl))

/-- The reference's safe counts. -/
theorem ref_safe (label : (⟨S4096, .i32⟩ : BufTy).Contents (Elt Ideal)) (k : Fin 100) :
    val_main_v21 (F := Ideal) label (ix1 k) = classSafe (val_main_v18 (F := Ideal) label) k.val := by
  rw [val_main_v21_apply, ref_counts, val_main_v20_apply, val_main_cst_8_apply]
  rfl

/-- The reference's class means: the row scatter-add of the features over the broadcast safe counts. -/
theorem ref_mean (x : (⟨S4096x512, .f32⟩ : BufTy).Contents (Elt Ideal)) (label : (⟨S4096, .i32⟩ : BufTy).Contents (Elt Ideal))
    (k : Fin 100) (d : Fin 512) :
    val_main_v27 (F := Ideal) x label (ix2 k d) = classMean (val_main_v18 (F := Ideal) label) x k.val d := by
  have hn : val_main_v24 (F := Ideal) x label (ix2 k d) = classSum (val_main_v18 (F := Ideal) label) x k.val d := by
    unfold val_main_v24
    refine (ScatterAddRows.scatterAdd_rows_apply scatter_S100x512_S4096x1_S4096x512_1_0_0_1_wf _ _ _ k d).trans ?_
    rw [val_main_v22_apply, val_main_cst_9_apply, zeroF, zero_add]
    rfl
  have hd : val_main_v26 (F := Ideal) label (ix2 k d) = classSafe (val_main_v18 (F := Ideal) label) k.val := by
    rw [val_main_v26_apply, val_main_v25_apply]
    refine Eq.trans (congrArg (val_main_v21 (F := Ideal) label) ?_) (ref_safe label k)
    funext a; match a with | ⟨0, _⟩ => rfl
  rw [val_main_v27_apply, hn, hd]
  rfl

/-- On a row that carries a class below 100 the label is not negative, so the wrap-around of negative labels leaves it. -/
theorem wrapped_of_carries (label : (⟨S4096, .i32⟩ : BufTy).Contents (Elt Ideal)) (k : Fin 100) (p : Fin 4096)
    (h : carries (val_main_v18 (F := Ideal) label) p k.val) (u : Fin 1) :
    val_main_v33 (F := Ideal) label (ix2 p u) = label (ix1 p) := by
  have hl : (label (ix1 p)).toInt = (k.val : ℤ) := by rw [← col_apply label p 0]; exact h
  have hi : idx_main_v33 (ix2 p u) = ix1 p := by funext a; match a with | ⟨0, _⟩ => rfl
  have hs : IntOp.cmpi .slt (label (ix1 p)) 0#32 = 0#1 := by
    show BitVec.ofBool ((label (ix1 p)).slt 0#32) = 0#1
    have hf : (label (ix1 p)).slt 0#32 = false := by
      rw [BitVec.slt, hl]; simp
    rw [hf]; rfl
  rw [val_main_v33_apply, hi, val_main_v32_apply, val_main_v29_apply, val_main_v28_apply, val_main_c_apply, hs, select_zero]

/-- On such a row the row gather reads the mean of the class the row carries. -/
theorem ref_gather (x : (⟨S4096x512, .f32⟩ : BufTy).Contents (Elt Ideal)) (label : (⟨S4096, .i32⟩ : BufTy).Contents (Elt Ideal))
    (k : Fin 100) (p : Fin 4096) (h : carries (val_main_v18 (F := Ideal) label) p k.val) (d : Fin 512) :
    val_main_v34 (F := Ideal) x label (ix2 p d) = classMean (val_main_v18 (F := Ideal) label) x k.val d := by
  have hl : (label (ix1 p)).toInt = (k.val : ℤ) := by rw [← col_apply label p 0]; exact h
  unfold val_main_v34
  refine (GatherRows.gather_rows_apply (by decide) gather_S100x512_S4096x1_S4096x512_1_0_n_n_0_1_1512_wf _ _ p d).trans ?_
  refine Eq.trans (congrArg (fun r => val_main_v27 (F := Ideal) x label (ix2 r d)) (Fin.ext ?_)) (ref_mean x label k d)
  show min (val_main_v33 (F := Ideal) label (ix2 p ⟨0, Nat.one_pos⟩)).toInt.toNat (100 - 1) = k.val
  rw [wrapped_of_carries label k p h, hl, Int.toNat_natCast]
  have := k.isLt; omega

/-- On such a row the reference's row sum is the row's distance from that class mean. -/
theorem ref_rowdev (x : (⟨S4096x512, .f32⟩ : BufTy).Contents (Elt Ideal)) (label : (⟨S4096, .i32⟩ : BufTy).Contents (Elt Ideal))
    (k : Fin 100) (p : Fin 4096) (h : carries (val_main_v18 (F := Ideal) label) p k.val) :
    val_main_v37 (F := Ideal) x label (ix1 p) = rowDev (val_main_v18 (F := Ideal) label) x k.val p := by
  rw [val_main_v37_apply, val_main_cst_11_apply, zeroF, zero_add]
  unfold rowDev
  refine Finset.sum_congr rfl fun d _ => ?_
  have hi : idx_main_v37 (ix1 p) d = ix2 p d := by funext a; match a with | ⟨0, _⟩ => rfl | ⟨1, _⟩ => rfl
  rw [hi, val_main_v36_apply, val_main_v35_apply, ref_gather x label k p h d]
  rfl

/-- The reference's class deviations: the scatter-add of the row sums. -/
theorem ref_dev (x : (⟨S4096x512, .f32⟩ : BufTy).Contents (Elt Ideal)) (label : (⟨S4096, .i32⟩ : BufTy).Contents (Elt Ideal))
    (k : Fin 100) : val_main_v40 (F := Ideal) x label (ix1 k) = classDev (val_main_v18 (F := Ideal) label) x k.val := by
  unfold val_main_v40
  refine (ScatterAddRows.scatterAdd_entries_apply scatter_S100_S4096x1_S4096_n_0_0_1_wf _ _ _ k).trans ?_
  rw [val_main_v38_apply, val_main_cst_12_apply, zeroF, zero_add]
  unfold classDev
  refine Finset.sum_congr rfl fun p _ => ?_
  show (if carries (val_main_v18 (F := Ideal) label) p k.val then val_main_v37 (F := Ideal) x label (ix1 p) else 0) = _
  by_cases h : carries (val_main_v18 (F := Ideal) label) p k.val
  · rw [if_pos h, if_pos h, ref_rowdev x label k p h]
  · rw [if_neg h, if_neg h]

/-- The reference's mean absolute deviation of class k. -/
theorem ref_mad (x : (⟨S4096x512, .f32⟩ : BufTy).Contents (Elt Ideal)) (label : (⟨S4096, .i32⟩ : BufTy).Contents (Elt Ideal))
    (k : Fin 100) : val_main_v43 (F := Ideal) x label (ix1 k) = classMad (val_main_v18 (F := Ideal) label) x k.val := by
  rw [val_main_v43_apply, ref_dev, val_main_v42_apply, ref_safe, val_main_v41_apply, val_main_cst_13_apply]
  rfl

end Cert.KernelIdeal.Hand

end
-- ==== Proof.Val.PerClass.lean ====
/-
  The per-class kernel against the reference, class by class, over the extended reals.

  Both sides compute the per-class statistics of Val/PerClassSpec.lean: the kernel as contractions with the one-hot
  matrix of the labels (Val/PerClassK.lean), the reference as segment sums and a row gather (Val/PerClassR.lean). So
  lane j of each row the kernel stores is entry j of the reference's vector, for every class j below 100 and for
  arbitrary 32-bit labels and arbitrary extended-real features: a label outside [0, 100) names no class read here on
  either side. The lanes 100 to 127 of the kernel's rows are not compared: the reference has no such classes.
-/
import proofs.«403987_j59588376264841_3_alg».proof.Proof.Val.PerClassK
import proofs.«403987_j59588376264841_3_alg».proof.Proof.Val.PerClassR

set_option maxRecDepth 16384

noncomputable section

namespace Cert.KernelIdeal.Hand

open Cert.KernelIdeal Cert.KernelIdeal.Gen
open Idealize.ShloMosaic Idealize.ShloMosaic.ValueIdx
open scoped BigOperators

/-- The label vector laid out as the column the kernel's block holds. -/
abbrev lblCol (label : (⟨S4096, .i32⟩ : BufTy).Contents (Elt Ideal)) : Vec Ideal S4096x1 .i32 :=
  broadcastInDim S4096x1 ![0] bcast_S4096_S4096x1_0 label

/-- That column is the reference's own column of scatter indices. -/
theorem lblCol_eq (label : (⟨S4096, .i32⟩ : BufTy).Contents (Elt Ideal)) :
    lblCol label = Cert.ReferenceIdeal.Read.val_main_v18 (F := Ideal) label := rfl

/-- Lane j of the kernel's count row is the reference's count of class j, for every class below 100. -/
theorem counts_eq (label : (⟨S4096, .i32⟩ : BufTy).Contents (Elt Ideal)) (j : Fin 100) :
    cntRow (F := Ideal) (lblCol label) (ix2 (0 : Fin 1) (⟨j.val, Nat.lt_of_lt_of_le j.isLt (by decide)⟩ : Fin 128))
      = Cert.ReferenceIdeal.Read.val_main_v19 (F := Ideal) label (ix1 j) :=
  (cntRow_apply (lblCol label) 0 ⟨j.val, Nat.lt_of_lt_of_le j.isLt (by decide)⟩).trans (ref_counts label j).symm

/-- Lane j of the kernel's first deviation row is the reference's mean absolute deviation of class j. -/
theorem devX_eq (label : (⟨S4096, .i32⟩ : BufTy).Contents (Elt Ideal)) (x : (⟨S4096x512, .f32⟩ : BufTy).Contents (Elt Ideal)) (j : Fin 100) :
    devRowX (F := Ideal) (lblCol label) x (ix2 (0 : Fin 1) (⟨j.val, Nat.lt_of_lt_of_le j.isLt (by decide)⟩ : Fin 128))
      = Cert.ReferenceIdeal.Read.val_main_v43 (F := Ideal) x label (ix1 j) :=
  (devRowX_apply (lblCol label) x 0 ⟨j.val, Nat.lt_of_lt_of_le j.isLt (by decide)⟩).trans (ref_mad x label j).symm

/-- … and of its second deviation row, the same for the second feature matrix. -/
theorem devY_eq (label : (⟨S4096, .i32⟩ : BufTy).Contents (Elt Ideal)) (y : (⟨S4096x512, .f32⟩ : BufTy).Contents (Elt Ideal)) (j : Fin 100) :
    devRowY (F := Ideal) (lblCol label) y (ix2 (0 : Fin 1) (⟨j.val, Nat.lt_of_lt_of_le j.isLt (by decide)⟩ : Fin 128))
      = Cert.ReferenceIdeal.Read.val_main_v71 (F := Ideal) y label (ix1 j) :=
  (devRowY_apply (lblCol label) y 0 ⟨j.val, Nat.lt_of_lt_of_le j.isLt (by decide)⟩).trans
    ((ref_mad y label j).symm.trans (congrFun (v71_eq_v43 y label).symm (ix1 j)))

end Cert.KernelIdeal.Hand

end
-- ==== Proof.Val.PerClassArr.lean ====
/-
  The per-class kernel's region, read as arrays: what its three output arrays hold after the region, as
  functions of the arrays the region is entered with.

  The grid has one point, every window's block is its whole array, and each output block is written back at
  that point. So an input block read off its array is the array itself, and an output array ends holding the
  row the body left in its buffer.
-/
import proofs.«403987_j59588376264841_3_alg».proof.Proof.KI.R1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (V : (c : Dev nD) → (b : Ref sig .tc) → Buf (Elt F) ((c : Thread nD τ).loc b))

/-! ## Where the blocks sit

At the grid's one point every window's block index is zero on both axes: the block starts at the array's
first element. -/

theorem index1_0_zero : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem index1_1_zero : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem index1_2_zero : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem index1_3_zero : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem index1_4_zero : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem index1_5_zero : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-! ## A whole-array block read off contents of the array is those contents

A block's element `y` sits in the array, on each axis, at block index × block size + `y`'s coordinate; the
index is zero and the block is as large as the array, so the element sits at `y`. -/

theorem read_blk1_0 (X : Vec F S4096x512 .f32) (t : Fin cfg1.N) : ((cfg1.win 0).blk t).view.read (Elt F) X = X := by
  obtain ⟨e0, e1⟩ := index1_0_zero t
  funext y
  show X (((cfg1.win 0).blk t).view.emb y) = X y
  congr 1
  funext a; apply Fin.ext
  match a with
  | ⟨0, _⟩ => show win1_0.index t (0 : Fin 2) * 4096 + 1 * (y 0).val = (y 0).val; omega
  | ⟨1, _⟩ => show win1_0.index t (1 : Fin 2) * 512 + 1 * (y 1).val = (y 1).val; omega

theorem read_blk1_1 (X : Vec F S4096x512 .f32) (t : Fin cfg1.N) : ((cfg1.win 1).blk t).view.read (Elt F) X = X := by
  obtain ⟨e0, e1⟩ := index1_1_zero t
  funext y
  show X (((cfg1.win 1).blk t).view.emb y) = X y
  congr 1
  funext a; apply Fin.ext
  match a with
  | ⟨0, _⟩ => show win1_1.index t (0 : Fin 2) * 4096 + 1 * (y 0).val = (y 0).val; omega
  | ⟨1, _⟩ => show win1_1.index t (1 : Fin 2) * 512 + 1 * (y 1).val = (y 1).val; omega

theorem read_blk1_2 (X : Vec F S4096x1 .i32) (t : Fin cfg1.N) : ((cfg1.win 2).blk t).view.read (Elt F) X = X := by
  obtain ⟨e0, e1⟩ := index1_2_zero t
  funext y
  show X (((cfg1.win 2).blk t).view.emb y) = X y
  congr 1
  funext a; apply Fin.ext
  match a with
  | ⟨0, _⟩ => show win1_2.index t (0 : Fin 2) * 4096 + 1 * (y 0).val = (y 0).val; omega
  | ⟨1, _⟩ => show win1_2.index t (1 : Fin 2) * 1 + 1 * (y 1).val = (y 1).val; omega

theorem read_blk1_3 (X : Vec F S1x128 .f32) (t : Fin cfg1.N) : ((cfg1.win 3).blk t).view.read (Elt F) X = X := by
  obtain ⟨e0, e1⟩ := index1_3_zero t
  funext y
  show X (((cfg1.win 3).blk t).view.emb y) = X y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem read_blk1_4 (X : Vec F S1x128 .f32) (t : Fin cfg1.N) : ((cfg1.win 4).blk t).view.read (Elt F) X = X := by
  obtain ⟨e0, e1⟩ := index1_4_zero t
  funext y
  show X (((cfg1.win 4).blk t).view.emb y) = X y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem read_blk1_5 (X : Vec F S1x128 .f32) (t : Fin cfg1.N) : ((cfg1.win 5).blk t).view.read (Elt F) X = X := by
  obtain ⟨e0, e1⟩ := index1_5_zero t
  funext y
  show X (((cfg1.win 5).blk t).view.emb y) = X y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The first feature matrix's block, read off its array as the region finds it, is the array. -/
theorem iblk1_whole_0 (c : Dev nD) (t : Fin cfg1.N) : iblk1 V c 0 t = V c main_arg2 :=
  read_blk1_0 (V c main_arg2) t

/-- The second feature matrix's. -/
theorem iblk1_whole_1 (c : Dev nD) (t : Fin cfg1.N) : iblk1 V c 1 t = V c main_arg3 :=
  read_blk1_1 (V c main_arg3) t

/-- The label column's. -/
theorem iblk1_whole_2 (c : Dev nD) (t : Fin cfg1.N) : iblk1 V c 2 t = V c main_v25 :=
  read_blk1_2 (V c main_v25) t

/-! ## The write-back moves the whole buffer

The output blocks are not cut at the array's end, so the part of a buffer's contents the transfer moves is all
of it. -/

theorem cut1_3 (X : Vec F S1x128 .f32) (t : Fin cfg1.N) : (cfg1.win 3).cut (grid1.coords t) X = X := rfl
theorem cut1_4 (X : Vec F S1x128 .f32) (t : Fin cfg1.N) : (cfg1.win 4).cut (grid1.coords t) X = X := rfl
theorem cut1_5 (X : Vec F S1x128 .f32) (t : Fin cfg1.N) : (cfg1.win 5).cut (grid1.coords t) X = X := rfl

/-! ## What the one point writes back

What is written back is the moved part of what the body left in the buffer, so all of it: the named row of the
input blocks, which are the arrays. Read through the point's block, a row is itself. -/

theorem flushed1_counts (c : Dev nD) (t : Fin cfg1.N) :
    (dat1 V c).flushed 3 t = ((cfg1.win 3).blk t).view.read (Elt F) (cntRow (V c main_v25)) := by
  show (cfg1.win 3).cut (grid1.coords t) ((dat1 V c).after 3 t) = _
  rw [after1_3, iblk1_whole_2, read_blk1_3, cut1_3]

theorem flushed1_devX (c : Dev nD) (t : Fin cfg1.N) :
    (dat1 V c).flushed 4 t = ((cfg1.win 4).blk t).view.read (Elt F) (devRowX (V c main_v25) (V c main_arg2)) := by
  show (cfg1.win 4).cut (grid1.coords t) ((dat1 V c).after 4 t) = _
  rw [after1_4, iblk1_whole_2, iblk1_whole_0, read_blk1_4, cut1_4]

theorem flushed1_devY (c : Dev nD) (t : Fin cfg1.N) :
    (dat1 V c).flushed 5 t = ((cfg1.win 5).blk t).view.read (Elt F) (devRowY (V c main_v25) (V c main_arg3)) := by
  show (cfg1.win 5).cut (grid1.coords t) ((dat1 V c).after 5 t) = _
  rw [after1_5, iblk1_whole_2, iblk1_whole_1, read_blk1_5, cut1_5]

/-! ## The one block covers its array

An index of the array is in the point's block iff each coordinate lies in the block's range on its axis; the
block starts at zero and has the array's sizes, so every index does. -/

theorem mem_blk1_3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v26_0).slice (win1_3.rect t)).set ↔ _
  rw [View.set_slice_whole, Rect.mem_set_unit]
  exact Iff.rfl

theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v26_1).slice (win1_4.rect t)).set ↔ _
  rw [View.set_slice_whole, Rect.mem_set_unit]
  exact Iff.rfl

theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v26_2).slice (win1_5.rect t)).set ↔ _
  rw [View.set_slice_whole, Rect.mem_set_unit]
  exact Iff.rfl

theorem cover1_3 (i : S1x128.Idx) : ∃ t : Fin cfg1.N, (cfg1.win 3).flush t = true ∧ i ∈ ((cfg1.win 3).blk t).view.set := by
  obtain ⟨e0, e1⟩ := index1_3_zero t1_0
  have h0 : (i 0).val < 1 := (i 0).isLt
  have h1 : (i 1).val < 128 := (i 1).isLt
  refine ⟨t1_0, flush1_3 t1_0, ?_⟩
  rw [mem_blk1_3]
  intro a
  match a with
  | ⟨0, _⟩ => show win1_3.index t1_0 (0 : Fin 2) * 1 ≤ (i 0).val ∧ (i 0).val < win1_3.index t1_0 (0 : Fin 2) * 1 + 1; omega
  | ⟨1, _⟩ => show win1_3.index t1_0 (1 : Fin 2) * 128 ≤ (i 1).val ∧ (i 1).val < win1_3.index t1_0 (1 : Fin 2) * 128 + 128; omega

theorem cover1_4 (i : S1x128.Idx) : ∃ t : Fin cfg1.N, (cfg1.win 4).flush t = true ∧ i ∈ ((cfg1.win 4).blk t).view.set := by
  obtain ⟨e0, e1⟩ := index1_4_zero t1_0
  have h0 : (i 0).val < 1 := (i 0).isLt
  have h1 : (i 1).val < 128 := (i 1).isLt
  refine ⟨t1_0, flush1_4 t1_0, ?_⟩
  rw [mem_blk1_4]
  intro a
  match a with
  | ⟨0, _⟩ => show win1_4.index t1_0 (0 : Fin 2) * 1 ≤ (i 0).val ∧ (i 0).val < win1_4.index t1_0 (0 : Fin 2) * 1 + 1; omega
  | ⟨1, _⟩ => show win1_4.index t1_0 (1 : Fin 2) * 128 ≤ (i 1).val ∧ (i 1).val < win1_4.index t1_0 (1 : Fin 2) * 128 + 128; omega

theorem cover1_5 (i : S1x128.Idx) : ∃ t : Fin cfg1.N, (cfg1.win 5).flush t = true ∧ i ∈ ((cfg1.win 5).blk t).view.set := by
  obtain ⟨e0, e1⟩ := index1_5_zero t1_0
  have h0 : (i 0).val < 1 := (i 0).isLt
  have h1 : (i 1).val < 128 := (i 1).isLt
  refine ⟨t1_0, flush1_5 t1_0, ?_⟩
  rw [mem_blk1_5]
  intro a
  match a with
  | ⟨0, _⟩ => show win1_5.index t1_0 (0 : Fin 2) * 1 ≤ (i 0).val ∧ (i 0).val < win1_5.index t1_0 (0 : Fin 2) * 1 + 1; omega
  | ⟨1, _⟩ => show win1_5.index t1_0 (1 : Fin 2) * 128 ≤ (i 1).val ∧ (i 1).val < win1_5.index t1_0 (1 : Fin 2) * 128 + 128; omega

/-! ## The output arrays after the region -/

/-- The counts' array ends holding the class counts of the label column. -/
theorem arr1_counts (c : Dev nD) : (dat1 V c).arrAt 3 cfg1.N = cntRow (V c main_v25) :=
  (dat1 V c).arrAt_eq_of_cover 3 (cntRow (V c main_v25)) (fun t _ => flushed1_counts V c t) cover1_3

/-- The first deviation array ends holding the first feature matrix's per-class mean absolute deviation. -/
theorem arr1_devX (c : Dev nD) : (dat1 V c).arrAt 4 cfg1.N = devRowX (V c main_v25) (V c main_arg2) :=
  (dat1 V c).arrAt_eq_of_cover 4 (devRowX (V c main_v25) (V c main_arg2)) (fun t _ => flushed1_devX V c t) cover1_4

/-- The second deviation array, the second feature matrix's. -/
theorem arr1_devY (c : Dev nD) : (dat1 V c).arrAt 5 cfg1.N = devRowY (V c main_v25) (V c main_arg3) :=
  (dat1 V c).arrAt_eq_of_cover 5 (devRowY (V c main_v25) (V c main_arg3)) (fun t _ => flushed1_devY V c t) cover1_5

end

end Cert.KernelIdeal.Hand

end
-- ==== Proof.Val.RecStatsArr.lean ====
/-
  The reconstruction-statistics region read at an index: an input block's entry is an entry of its array, and an entry
  of an output array after the region is an entry of the running value the grid row's last position left.

  Row `k` of the grid (positions 16k … 16k + 15) owns rows 8k … 8k + 7 of each 16 × 128 output array; that block is
  written back once, when the row ends, and the two rows' blocks do not meet.
-/
import proofs.«403987_j59588376264841_3_alg».proof.Proof.KI.R0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The input windows walk the row blocks in position order. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
/-- The output windows sit on the grid row's block. -/
theorem index0_2 : ∀ t : Fin cfg0.N, win0_2.index t 0 = t.val / 16 ∧ win0_2.index t 1 = 0 :=
  (by decide +kernel : ∀ t : Fin grid0.N, win0_2.index t 0 = t.val / 16 ∧ win0_2.index t 1 = 0)
theorem index0_3 : ∀ t : Fin cfg0.N, win0_3.index t 0 = t.val / 16 ∧ win0_3.index t 1 = 0 :=
  (by decide +kernel : ∀ t : Fin grid0.N, win0_3.index t 0 = t.val / 16 ∧ win0_3.index t 1 = 0)

/-- The first input's block at position `t` is rows 128t … 128t + 127 of its array. -/
theorem iblk0_entry0 (c : Dev nD) (t : Fin cfg0.N) (x : S128x12288.Idx) (k : S4096x12288.Idx)
    (hk0 : (k 0).val = 128 * t.val + (x 0).val) (hk1 : (k 1).val = (x 1).val) :
    (iblk0 V c 0 t : Vec F S128x12288 .f32) x = (V c main_v6 : S4096x12288.Idx → Elt F .f32) k := by
  have hi := index0_0 t
  unfold iblk0
  rw [View.read_apply]
  show V c main_v6 _ = V c main_v6 _
  congr 1
  funext a
  apply Fin.ext
  match a with
  | ⟨0, _⟩ => show win0_0.index t 0 * 128 + 1 * (x 0).val = (k 0).val; rw [hi.1, hk0]; omega
  | ⟨1, _⟩ => show win0_0.index t 1 * 12288 + 1 * (x 1).val = (k 1).val; rw [hi.2, hk1]; omega

/-- The second input's likewise. -/
theorem iblk0_entry1 (c : Dev nD) (t : Fin cfg0.N) (x : S128x12288.Idx) (k : S4096x12288.Idx)
    (hk0 : (k 0).val = 128 * t.val + (x 0).val) (hk1 : (k 1).val = (x 1).val) :
    (iblk0 V c 1 t : Vec F S128x12288 .f32) x = (V c main_v7 : S4096x12288.Idx → Elt F .f32) k := by
  have hi := index0_1 t
  unfold iblk0
  rw [View.read_apply]
  show V c main_v7 _ = V c main_v7 _
  congr 1
  funext a
  apply Fin.ext
  match a with
  | ⟨0, _⟩ => show win0_1.index t 0 * 128 + 1 * (x 0).val = (k 0).val; rw [hi.1, hk0]; omega
  | ⟨1, _⟩ => show win0_1.index t 1 * 12288 + 1 * (x 1).val = (k 1).val; rw [hi.2, hk1]; omega

/-- The sum array's two flushed blocks do not meet. -/
theorem flush_disjoint0_2 (c : Dev nD) : ∀ t t' : Fin cfg0.N, (cfg0.win 2).flush t = true → (cfg0.win 2).flush t' = true → t ≠ t' →
    Disjoint ((cfg0.win 2).blk t).view.set ((cfg0.win 2).blk t').view.set := by
  intro t t' hf hf' hne
  have h1 := (flush0_2 t).mp hf
  have h2 := (flush0_2 t').mp hf'
  have hN : cfg0.N = 32 := N_0
  have ht := t.isLt
  have ht' := t'.isLt
  refine Finset.disjoint_left.mpr fun i hi hi' => ?_
  have hi : i ∈ ((View.whole main_v8_0).slice (win0_2.rect t)).set := hi
  have hi' : i ∈ ((View.whole main_v8_0).slice (win0_2.rect t')).set := hi'
  rw [View.set_slice_whole, Rect.mem_set_unit] at hi hi'
  have a0 := hi 0
  have b0 := hi' 0
  have a0 : win0_2.index t 0 * win0_2.size 0 ≤ (i 0 : Nat) ∧ (i 0 : Nat) < win0_2.index t 0 * win0_2.size 0 + win0_2.xsize (grid0.coords t) 0 := a0
  have b0 : win0_2.index t' 0 * win0_2.size 0 ≤ (i 0 : Nat) ∧ (i 0 : Nat) < win0_2.index t' 0 * win0_2.size 0 + win0_2.xsize (grid0.coords t') 0 := b0
  rw [(index0_2 t).1, show win0_2.size 0 = 8 from rfl, show win0_2.xsize (grid0.coords t) 0 = 8 from rfl] at a0
  rw [(index0_2 t').1, show win0_2.size 0 = 8 from rfl, show win0_2.xsize (grid0.coords t') 0 = 8 from rfl] at b0
  exact hne (Fin.ext (by omega))

/-- An entry of the sum array after the region: rows 8k … 8k + 7 hold what grid row `k`'s last position left. -/
theorem arr0_sum (c : Dev nD) (k : Fin 2) (y : S8x128.Idx) (i : S16x128.Idx)
    (hi0 : (i 0).val = 8 * k.val + (y 0).val) (hi1 : (i 1).val = (y 1).val) :
    ((dat0 V c).arrAt 2 cfg0.N : S16x128.Idx → Elt F .f32) i
      = (accAt0 V c (16 * k.val + 15) (by have : cfg0.N = 32 := N_0; have := k.isLt; omega)).1 y := by
  have hN : cfg0.N = 32 := N_0
  have hk := k.isLt
  let t : Fin cfg0.N := ⟨16 * k.val + 15, by omega⟩
  have hf : (cfg0.win 2).flush t = true := (flush0_2 t).mpr (by show (16 * k.val + 15) % 16 = 15; omega)
  have h := (dat0 V c).arrAt_emb_eq_flushed 2 (flush_disjoint0_2 c) t hf y
  have he : ((cfg0.win 2).blk t).view.emb y = i := by
    funext a
    apply Fin.ext
    match a with
    | ⟨0, _⟩ => show win0_2.index t 0 * 8 + 1 * (y 0).val = (i 0).val; rw [(index0_2 t).1, hi0]; show (16 * k.val + 15) / 16 * 8 + 1 * (y 0).val = _; omega
    | ⟨1, _⟩ => show win0_2.index t 1 * 128 + 1 * (y 1).val = (i 1).val; rw [(index0_2 t).2, hi1]; omega
  rw [he] at h
  refine h.trans ?_
  rw [cast_eq]
  show (cfg0.win 2).cut (grid0.coords t) ((dat0 V c).after 2 t) y = _
  rw [after0_2]
  rfl

/-- The max array's two flushed blocks do not meet. -/
theorem flush_disjoint0_3 (c : Dev nD) : ∀ t t' : Fin cfg0.N, (cfg0.win 3).flush t = true → (cfg0.win 3).flush t' = true → t ≠ t' →
    Disjoint ((cfg0.win 3).blk t).view.set ((cfg0.win 3).blk t').view.set := by
  intro t t' hf hf' hne
  have h1 := (flush0_3 t).mp hf
  have h2 := (flush0_3 t').mp hf'
  have hN : cfg0.N = 32 := N_0
  have ht := t.isLt
  have ht' := t'.isLt
  refine Finset.disjoint_left.mpr fun i hi hi' => ?_
  have hi : i ∈ ((View.whole main_v8_1).slice (win0_3.rect t)).set := hi
  have hi' : i ∈ ((View.whole main_v8_1).slice (win0_3.rect t')).set := hi'
  rw [View.set_slice_whole, Rect.mem_set_unit] at hi hi'
  have a0 := hi 0
  have b0 := hi' 0
  have a0 : win0_3.index t 0 * win0_3.size 0 ≤ (i 0 : Nat) ∧ (i 0 : Nat) < win0_3.index t 0 * win0_3.size 0 + win0_3.xsize (grid0.coords t) 0 := a0
  have b0 : win0_3.index t' 0 * win0_3.size 0 ≤ (i 0 : Nat) ∧ (i 0 : Nat) < win0_3.index t' 0 * win0_3.size 0 + win0_3.xsize (grid0.coords t') 0 := b0
  rw [(index0_3 t).1, show win0_3.size 0 = 8 from rfl, show win0_3.xsize (grid0.coords t) 0 = 8 from rfl] at a0
  rw [(index0_3 t').1, show win0_3.size 0 = 8 from rfl, show win0_3.xsize (grid0.coords t') 0 = 8 from rfl] at b0
  exact hne (Fin.ext (by omega))

/-- An entry of the max array after the region: rows 8k … 8k + 7 hold what grid row `k`'s last position left. -/
theorem arr0_max (c : Dev nD) (k : Fin 2) (y : S8x128.Idx) (i : S16x128.Idx)
    (hi0 : (i 0).val = 8 * k.val + (y 0).val) (hi1 : (i 1).val = (y 1).val) :
    ((dat0 V c).arrAt 3 cfg0.N : S16x128.Idx → Elt F .f32) i
      = (accAt0 V c (16 * k.val + 15) (by have : cfg0.N = 32 := N_0; have := k.isLt; omega)).2 y := by
  have hN : cfg0.N = 32 := N_0
  have hk := k.isLt
  let t : Fin cfg0.N := ⟨16 * k.val + 15, by omega⟩
  have hf : (cfg0.win 3).flush t = true := (flush0_3 t).mpr (by show (16 * k.val + 15) % 16 = 15; omega)
  have h := (dat0 V c).arrAt_emb_eq_flushed 3 (flush_disjoint0_3 c) t hf y
  have he : ((cfg0.win 3).blk t).view.emb y = i := by
    funext a
    apply Fin.ext
    match a with
    | ⟨0, _⟩ => show win0_3.index t 0 * 8 + 1 * (y 0).val = (i 0).val; rw [(index0_3 t).1, hi0]; show (16 * k.val + 15) / 16 * 8 + 1 * (y 0).val = _; omega
    | ⟨1, _⟩ => show win0_3.index t 1 * 128 + 1 * (y 1).val = (i 1).val; rw [(index0_3 t).2, hi1]; omega
  rw [he] at h
  refine h.trans ?_
  rw [cast_eq]
  show (cfg0.win 3).cut (grid0.coords t) ((dat0 V c).after 3 t) y = _
  rw [after0_3]
  rfl

end

end Cert.KernelIdeal.Hand

end
-- ==== Proof.Val.RecStats.lean ====
/-
  The value of the reconstruction-statistics kernel at the ideal float values, where every operation is the exact
  operation on the extended reals.

  The kernel walks a 2 × 16 grid row by row. At position t = 16 k + i it holds rows 128 t … 128 t + 127 of two arrays
  X, Y : 4096 × 12288, and two carried 8 × 128 buffers: a running sum, to which it adds the sum over the block of
  (X − Y)², and a running maximum, which it joins with the maximum over the block of Y; both are reset at the start
  of a grid row (to 0 and to −∞) and copied to the grid row's output block, which is written back when the row ends.

  What is shown: (1) each of the four stored values at an entry, as a plain sum or maximum over the block; (2) by
  induction along a grid row, what the two carried buffers hold after each position, as a sum or a maximum over a run of
  consecutive rows of the arrays; (3) so the two entries the host reads from each output, combined, are the sum and
  the maximum over all 4096 rows; (4) the arrays are the row-major views of two arrays 4096 × 3 × 64 × 64, a
  one-to-one pairing of the index sets, so these are the reference's sum and maximum over all four axes. No
  finiteness is used: sums of extended reals regroup freely, the maximum is a lattice join, 0 + s = s and −∞ ⊔ s = s.
-/
import proofs.«403987_j59588376264841_3_alg».proof.Proof.Val.RecStatsArr
import proofs.«403987_j59588376264841_3_alg».proof.Proof.RefRead
import Idealize.ShloMosaic.Lib.Pipeline.Value
import Idealize.ShloMosaic.Lib.ValueIdx
import Idealize.ShloMosaic.PureOps.Ideal.Laws
import Mathlib.Algebra.BigOperators.Intervals
import Mathlib.Algebra.BigOperators.Fin
import Mathlib.Data.Finset.Lattice.Fold
import Mathlib.Order.Interval.Finset.Nat

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat)
open scoped BigOperators

/-! ## The four stored values at an entry -/

/-- The pattern of minus infinity denotes the least extended real. -/
theorem ofBits_neg_inf : Ideal.ofBits .f32 0xFF800000#32 = ⊥ := by simp [Ideal.ofBits, Ideal.ieee]

/-- The reset value of the running sum is zero at every entry. -/
theorem pay1_apply (a : Fin 8) (b : Fin 128) : k0_pay1 (F := Ideal) (ix2 a b) = 0 := by
  unfold k0_pay1
  rw [shapeCast_self]
  exact Ideal.ofBits_zero_f32

/-- The reset value of the running maximum is minus infinity at every entry. -/
theorem pay2_apply (a : Fin 8) (b : Fin 128) : k0_pay2 (F := Ideal) (ix2 a b) = ⊥ := by
  unfold k0_pay2
  rw [shapeCast_self]
  exact ofBits_neg_inf

/-- Inserting a column coordinate into a row index of the block gives the entry (row, column). -/
theorem lift_row (h : S128x12288.Reduces [1] S128) (r : Fin 128) (q : Fin 12288) :
    h.lift (ix1 r) q = ix2 r q := by
  funext c
  match c with
  | ⟨0, _⟩ => exact Fin.ext rfl
  | ⟨1, _⟩ => exact Fin.ext rfl

/-- Inserting a row coordinate into the one index of the reduced column gives the entry (row, 0). -/
theorem lift_col128 (h : S128x1.Reduces [0] S1) (r : Fin 128) :
    h.lift (ix1 (0 : Fin 1)) r = ix2 r (0 : Fin 1) := by
  funext c
  match c with
  | ⟨0, _⟩ => exact Fin.ext rfl
  | ⟨1, _⟩ => exact Fin.ext rfl

/-- A vector of 128 entries viewed as a column: the entry (r, 0) of the column is entry r of the vector. -/
theorem col128_apply {α : Type} (v : S128.Idx → α) (h : S128.ShapeCasts S128x1) (j : S128x1.Idx) (r : Fin 128)
    (hj : j = ix2 r (0 : Fin 1)) : shapeCast S128x1 v h j = v (ix1 r) := by
  subst hj
  refine shapeCast_apply v h _ (ix1 r) ?_
  rw [Shape.rowMajor_val_one, Shape.rowMajor_val_two]
  show r.val = r.val * 1 + 0
  omega

theorem pay3_apply (x y : Vec Ideal S128x12288 .f32) (s : Vec Ideal S8x128 .f32) (a : Fin 8) (b : Fin 128) :
    k0_pay3 (F := Ideal) x y s (ix2 a b)
      = s (ix2 a b) + ∑ r : Fin 128, ∑ q : Fin 12288, (x (ix2 r q) - y (ix2 r q)) * (x (ix2 r q) - y (ix2 r q)) := by
  unfold k0_pay3
  simp only [shapeCast_self]
  refine congrArg (s (ix2 a b) + ·) ?_
  refine (broadcastTo_apply _ Facts₀.broadcasts_S1x1_S8x128 (ix2 a b) (ix2 (0 : Fin 1) (0 : Fin 1)) ?_).trans ?_
  · intro c
    match c with
    | ⟨0, _⟩ => rfl
    | ⟨1, _⟩ => rfl
  refine (shapeCast_apply _ Facts₀.shapeCasts_S1_S1x1 (ix2 (0 : Fin 1) (0 : Fin 1)) (ix1 (0 : Fin 1)) ?_).trans ?_
  · rfl
  refine (Ideal.multiReduction_add_single _ _ Facts₀.reduces_S128x1_S1 (.inl rfl) rfl (ix1 (0 : Fin 1))).trans ?_
  refine Finset.sum_congr rfl fun (r : Fin 128) _ => ?_
  refine (col128_apply _ Facts₀.shapeCasts_S128_S128x1 _ r (lift_col128 _ r)).trans ?_
  refine (Ideal.multiReduction_add_single _ _ Facts₀.reduces_S128x12288_S128 (.inl rfl) rfl (ix1 r)).trans ?_
  refine Finset.sum_congr rfl fun (q : Fin 12288) _ => ?_
  exact congrArg (fun i => (x i - y i) * (x i - y i)) (lift_row _ r q)

/-- A fold of the maximum from minus infinity over a finite set is the supremum over the set. -/
theorem fold_max_neg_inf {ι : Type} (s : Finset ι) (f : ι → EReal) :
    Finset.fold max (FloatOps.ofBits (F := Ideal) .f32 0xFF800000#32) f s = s.sup f := by
  show Finset.fold max (Ideal.ofBits .f32 0xFF800000#32) f s = s.sup f
  rw [ofBits_neg_inf]
  rfl

theorem pay4_apply (y : Vec Ideal S128x12288 .f32) (s : Vec Ideal S8x128 .f32) (a : Fin 8) (b : Fin 128) :
    k0_pay4 (F := Ideal) y s (ix2 a b)
      = max (s (ix2 a b)) (Finset.univ.sup fun r : Fin 128 => Finset.univ.sup fun q : Fin 12288 => y (ix2 r q)) := by
  unfold k0_pay4
  simp only [shapeCast_self]
  refine congrArg (max (s (ix2 a b))) ?_
  refine (broadcastTo_apply _ Facts₀.broadcasts_S1x1_S8x128 (ix2 a b) (ix2 (0 : Fin 1) (0 : Fin 1)) ?_).trans ?_
  · intro c
    match c with
    | ⟨0, _⟩ => rfl
    | ⟨1, _⟩ => rfl
  refine (shapeCast_apply _ Facts₀.shapeCasts_S1_S1x1 (ix2 (0 : Fin 1) (0 : Fin 1)) (ix1 (0 : Fin 1)) ?_).trans ?_
  · rfl
  refine (Ideal.multiReduction_maximumf_single _ _ Facts₀.reduces_S128x1_S1 (.inl rfl) rfl (ix1 (0 : Fin 1))).trans ?_
  refine (fold_max_neg_inf _ _).trans ?_
  refine Finset.sup_congr rfl fun (r : Fin 128) _ => ?_
  refine Eq.trans (Function.comp_apply) ?_
  refine (col128_apply _ Facts₀.shapeCasts_S128_S128x1 _ r (lift_col128 _ r)).trans ?_
  refine (Ideal.multiReduction_maximumf_single _ _ Facts₀.reduces_S128x12288_S128 (.inl rfl) rfl (ix1 r)).trans ?_
  refine (fold_max_neg_inf _ _).trans ?_
  refine Finset.sup_congr rfl fun (q : Fin 12288) _ => ?_
  refine Eq.trans (Function.comp_apply) ?_
  exact congrArg y (lift_row _ r q)

/-! ## A block's entry is an entry of its array -/

section
variable (V : (c : Dev nD) → (b : Ref sig .tc) → Buf (Elt Ideal) ((c : Thread nD τ).loc b))

/-- The two arrays the kernel reads, at their literal type. -/
abbrev Xarr (c : Dev nD) : Vec Ideal S4096x12288 .f32 := V c main_v6
abbrev Yarr (c : Dev nD) : Vec Ideal S4096x12288 .f32 := V c main_v7
/-- Their blocks at position t, at their literal type. -/
abbrev xblk (c : Dev nD) (t : Fin cfg0.N) : Vec Ideal S128x12288 .f32 := iblk0 V c 0 t
abbrev yblk (c : Dev nD) (t : Fin cfg0.N) : Vec Ideal S128x12288 .f32 := iblk0 V c 1 t

/-- Entry (r, q) of the first input's block at position t is entry (128 t + r, q) of the array. -/
theorem xblk_apply (c : Dev nD) (t : Fin cfg0.N) (r : Fin 128) (q : Fin 12288) (R : Fin 4096)
    (hR : R.val = 128 * t.val + r.val) : xblk V c t (ix2 r q) = Xarr V c (ix2 R q) :=
  iblk0_entry0 V c t (ix2 r q) (ix2 R q) hR rfl

/-- The second input's likewise. -/
theorem yblk_apply (c : Dev nD) (t : Fin cfg0.N) (r : Fin 128) (q : Fin 12288) (R : Fin 4096)
    (hR : R.val = 128 * t.val + r.val) : yblk V c t (ix2 r q) = Yarr V c (ix2 R q) :=
  iblk0_entry1 V c t (ix2 r q) (ix2 R q) hR rfl

end

/-! ## The rows of the arrays, and a block's contribution -/

section
variable (V : (c : Dev nD) → (b : Ref sig .tc) → Buf (Elt Ideal) ((c : Thread nD τ).loc b))

/-- Row R of the two arrays: the sum over the row's columns of the squared difference; zero past the last row, so
    that it is a function of every natural number. -/
def sqRow (c : Dev nD) (R : ℕ) : EReal :=
  if h : R < 4096 then
    ∑ q : Fin 12288, (Xarr V c (ix2 ⟨R, h⟩ q) - Yarr V c (ix2 ⟨R, h⟩ q)) * (Xarr V c (ix2 ⟨R, h⟩ q) - Yarr V c (ix2 ⟨R, h⟩ q))
  else 0

/-- Row R of the second array: the maximum over the row's columns; minus infinity past the last row. -/
def mxRow (c : Dev nD) (R : ℕ) : EReal :=
  if h : R < 4096 then Finset.univ.sup fun q : Fin 12288 => Yarr V c (ix2 ⟨R, h⟩ q) else ⊥

/-- The block at position t contributes the rows 128 t … 128 t + 127 to the sum. -/
theorem blockSum_eq (c : Dev nD) (n : ℕ) (hn : n < cfg0.N) :
    (∑ r : Fin 128, ∑ q : Fin 12288, (xblk V c ⟨n, hn⟩ (ix2 r q) - yblk V c ⟨n, hn⟩ (ix2 r q)) * (xblk V c ⟨n, hn⟩ (ix2 r q) - yblk V c ⟨n, hn⟩ (ix2 r q)))
      = ∑ R ∈ Finset.Ico (128 * n) (128 * n + 128), sqRow V c R := by
  have hN : cfg0.N = 32 := N_0
  have ht : n < 32 := hN ▸ hn
  rw [Finset.sum_Ico_eq_sum_range, Nat.add_sub_cancel_left, ← Fin.sum_univ_eq_sum_range (fun r => sqRow V c (128 * n + r)) 128]
  refine Finset.sum_congr rfl fun r _ => ?_
  have hr : r.val < 128 := r.isLt
  have hR : 128 * n + r.val < 4096 := by omega
  unfold sqRow
  rw [dif_pos hR]
  refine Finset.sum_congr rfl fun q _ => ?_
  rw [xblk_apply V c ⟨n, hn⟩ r q ⟨128 * n + r.val, hR⟩ rfl, yblk_apply V c ⟨n, hn⟩ r q ⟨128 * n + r.val, hR⟩ rfl]

/-- and to the maximum. -/
theorem blockMax_eq (c : Dev nD) (n : ℕ) (hn : n < cfg0.N) :
    (Finset.univ.sup fun r : Fin 128 => Finset.univ.sup fun q : Fin 12288 => yblk V c ⟨n, hn⟩ (ix2 r q))
      = (Finset.Ico (128 * n) (128 * n + 128)).sup (mxRow V c) := by
  have hN : cfg0.N = 32 := N_0
  have ht : n < 32 := hN ▸ hn
  apply le_antisymm
  · refine Finset.sup_le fun r _ => ?_
    have hr : r.val < 128 := r.isLt
    have hR : 128 * n + r.val < 4096 := by omega
    refine le_trans (le_of_eq ?_) (Finset.le_sup (f := mxRow V c) (Finset.mem_Ico.mpr ⟨Nat.le_add_right _ r.val, by omega⟩))
    unfold mxRow
    rw [dif_pos hR]
    refine Finset.sup_congr rfl fun q _ => ?_
    exact yblk_apply V c ⟨n, hn⟩ r q ⟨128 * n + r.val, hR⟩ rfl
  · refine Finset.sup_le fun R hRm => ?_
    obtain ⟨hlo, hhi⟩ := Finset.mem_Ico.mp hRm
    have hR : R < 4096 := by omega
    have hr : R - 128 * n < 128 := by omega
    refine le_trans (le_of_eq ?_) (Finset.le_sup (f := fun r : Fin 128 => Finset.univ.sup fun q : Fin 12288 => yblk V c ⟨n, hn⟩ (ix2 r q)) (Finset.mem_univ ⟨R - 128 * n, hr⟩))
    unfold mxRow
    rw [dif_pos hR]
    refine Finset.sup_congr rfl fun q _ => ?_
    exact (yblk_apply V c ⟨n, hn⟩ ⟨R - 128 * n, hr⟩ q ⟨R, hR⟩ (by show R = 128 * n + (R - 128 * n); omega)).symm

end

/-! ## What the carried buffers hold after each position -/

section
variable (V : (c : Dev nD) → (b : Ref sig .tc) → Buf (Elt Ideal) ((c : Thread nD τ).loc b))

/-- The running pair one position after position n, away from a row's start: this position's block folded into
    what position n left. -/
theorem accAt0_succ (c : Dev nD) (n : ℕ) (hn : n + 1 < cfg0.N) (h : ¬ (n + 1) % 16 = 0) :
    accAt0 V c (n + 1) hn
      = (k0_pay3 (xblk V c ⟨n + 1, hn⟩) (yblk V c ⟨n + 1, hn⟩) (accAt0 V c n (Nat.lt_of_succ_lt hn)).1,
          k0_pay4 (yblk V c ⟨n + 1, hn⟩) (accAt0 V c n (Nat.lt_of_succ_lt hn)).2) :=
  if_neg h

/-- THE RUNNING SUM. After position 16 k + i of row k of the grid, every entry of the first scratch buffer holds the
    sum of the squared differences over the rows 2048 k … 2048 k + 128 (i + 1) − 1: by induction on i, the row's first
    position adding its block to zero, every later one adding its block to what the position before left. -/
theorem sum_inv (c : Dev nD) (k : ℕ) (a : Fin 8) (b : Fin 128) :
    ∀ (i : ℕ) (hi : i < 16) (h : 16 * k + i < cfg0.N),
      (accAt0 V c (16 * k + i) h).1 (ix2 a b) = ∑ R ∈ Finset.Ico (2048 * k) (2048 * k + 128 * (i + 1)), sqRow V c R
  | 0, _, h => by
    have e := accAt0_first V c ⟨16 * k + 0, h⟩ (by show (16 * k + 0) % 16 = 0; omega)
    rw [show accAt0 V c (16 * k + 0) h = _ from e]
    dsimp only
    refine (pay3_apply (xblk V c ⟨16 * k + 0, h⟩) (yblk V c ⟨16 * k + 0, h⟩) (k0_pay1 (F := Ideal)) a b).trans ?_
    rw [pay1_apply, zero_add, blockSum_eq V c (16 * k + 0) h]
    rw [show 128 * (16 * k + 0) = 2048 * k from by omega]
  | i + 1, hi, h => by
    have e := accAt0_succ V c (16 * k + i) h (by omega)
    rw [show accAt0 V c (16 * k + (i + 1)) h = _ from e]
    dsimp only
    refine (pay3_apply (xblk V c ⟨16 * k + i + 1, h⟩) (yblk V c ⟨16 * k + i + 1, h⟩) (accAt0 V c (16 * k + i) (Nat.lt_of_succ_lt h)).1 a b).trans ?_
    rw [sum_inv c k a b i (by omega) (Nat.lt_of_succ_lt h), blockSum_eq V c (16 * k + i + 1) h]
    rw [show 128 * (16 * k + i + 1) = 2048 * k + 128 * (i + 1) from by omega,
      show 2048 * k + 128 * (i + 1) + 128 = 2048 * k + 128 * (i + 1 + 1) from by omega]
    exact Finset.sum_Ico_consecutive _ (by omega) (by omega)

/-- THE RUNNING MAXIMUM, likewise: the maximum of the second array over the same rows. -/
theorem max_inv (c : Dev nD) (k : ℕ) (a : Fin 8) (b : Fin 128) :
    ∀ (i : ℕ) (hi : i < 16) (h : 16 * k + i < cfg0.N),
      (accAt0 V c (16 * k + i) h).2 (ix2 a b) = (Finset.Ico (2048 * k) (2048 * k + 128 * (i + 1))).sup (mxRow V c)
  | 0, _, h => by
    have e := accAt0_first V c ⟨16 * k + 0, h⟩ (by show (16 * k + 0) % 16 = 0; omega)
    rw [show accAt0 V c (16 * k + 0) h = _ from e]
    dsimp only
    refine (pay4_apply (yblk V c ⟨16 * k + 0, h⟩) (k0_pay2 (F := Ideal)) a b).trans ?_
    rw [pay2_apply, blockMax_eq V c (16 * k + 0) h]
    rw [show 128 * (16 * k + 0) = 2048 * k from by omega]
    exact max_bot_left _
  | i + 1, hi, h => by
    have e := accAt0_succ V c (16 * k + i) h (by omega)
    rw [show accAt0 V c (16 * k + (i + 1)) h = _ from e]
    dsimp only
    refine (pay4_apply (yblk V c ⟨16 * k + i + 1, h⟩) (accAt0 V c (16 * k + i) (Nat.lt_of_succ_lt h)).2 a b).trans ?_
    rw [max_inv c k a b i (by omega) (Nat.lt_of_succ_lt h), blockMax_eq V c (16 * k + i + 1) h]
    rw [show 128 * (16 * k + i + 1) = 2048 * k + 128 * (i + 1) from by omega,
      show 2048 * k + 128 * (i + 1) + 128 = 2048 * k + 128 * (i + 1 + 1) from by omega]
    rw [← Finset.Ico_union_Ico_eq_Ico (show 2048 * k ≤ 2048 * k + 128 * (i + 1) from by omega)
      (show 2048 * k + 128 * (i + 1) ≤ 2048 * k + 128 * (i + 1 + 1) from by omega), Finset.sup_union]

end

/-! ## The two entries the host reads -/

section
variable (V : (c : Dev nD) → (b : Ref sig .tc) → Buf (Elt Ideal) ((c : Thread nD τ).loc b))

/-- The two output arrays after the region, at their literal type. -/
abbrev out2 (c : Dev nD) : Vec Ideal S16x128 .f32 := (dat0 V c).arrAt 2 cfg0.N
abbrev out3 (c : Dev nD) : Vec Ideal S16x128 .f32 := (dat0 V c).arrAt 3 cfg0.N

/-- Entry (8 k, 0) of the first output: the sum over grid row k's half of the rows, 2048 k … 2048 k + 2047 — what the
    grid row's last position left, by the running sum at i = 15. -/
theorem sum_entry (c : Dev nD) (k : Fin 2) (i : S16x128.Idx) (hi0 : (i 0).val = 8 * k.val) (hi1 : (i 1).val = 0) :
    out2 V c i = ∑ R ∈ Finset.Ico (2048 * k.val) (2048 * k.val + 2048), sqRow V c R :=
  (arr0_sum V c k (ix2 (0 : Fin 8) (0 : Fin 128)) i hi0 hi1).trans (sum_inv V c k.val 0 0 15 (by omega) _)

/-- Entry (8 k, 0) of the second output: the maximum over the same rows. -/
theorem max_entry (c : Dev nD) (k : Fin 2) (i : S16x128.Idx) (hi0 : (i 0).val = 8 * k.val) (hi1 : (i 1).val = 0) :
    out3 V c i = (Finset.Ico (2048 * k.val) (2048 * k.val + 2048)).sup (mxRow V c) :=
  (arr0_max V c k (ix2 (0 : Fin 8) (0 : Fin 128)) i hi0 hi1).trans (max_inv V c k.val 0 0 15 (by omega) _)

/-- The two entries the host reads, added: the two halves make the sum over all 4096 rows. -/
theorem sum_total (c : Dev nD) :
    out2 V c (ix2 (0 : Fin 16) (0 : Fin 128)) + out2 V c (ix2 (8 : Fin 16) (0 : Fin 128))
      = ∑ R ∈ Finset.range 4096, sqRow V c R := by
  rw [sum_entry V c 0 (ix2 (0 : Fin 16) (0 : Fin 128)) rfl rfl, sum_entry V c 1 (ix2 (8 : Fin 16) (0 : Fin 128)) rfl rfl]
  rw [Finset.range_eq_Ico]
  exact Finset.sum_Ico_consecutive _ (by decide) (by decide)

/-- Their maximum: the two halves make the maximum over all 4096 rows. -/
theorem max_total (c : Dev nD) :
    max (out3 V c (ix2 (0 : Fin 16) (0 : Fin 128))) (out3 V c (ix2 (8 : Fin 16) (0 : Fin 128)))
      = (Finset.range 4096).sup (mxRow V c) := by
  rw [max_entry V c 0 (ix2 (0 : Fin 16) (0 : Fin 128)) rfl rfl, max_entry V c 1 (ix2 (8 : Fin 16) (0 : Fin 128)) rfl rfl]
  rw [Finset.range_eq_Ico, ← Finset.Ico_union_Ico_eq_Ico (show 0 ≤ 2048 from by decide) (show 2048 ≤ 4096 from by decide), Finset.sup_union]
  rfl

end

/-! ## The reshape, and the reference's reductions -/

section
variable (V : (c : Dev nD) → (b : Ref sig .tc) → Buf (Elt Ideal) ((c : Thread nD τ).loc b))

/-- THE RESHAPE. The two arrays are the row-major views, 4096 × 12288, of two arrays 4096 × 3 × 64 × 64; the view
    pairs the two index sets one to one, so the sum over all rows and columns is the sum over the four-dimensional
    index set. -/
theorem sqRow_total (c : Dev nD) (x1 x4 : Vec Ideal S4096x3x64x64 .f32) (hsc : S4096x3x64x64.ShapeCasts S4096x12288)
    (hX : Xarr V c = shapeCast S4096x12288 x1 hsc) (hY : Yarr V c = shapeCast S4096x12288 x4 hsc) :
    ∑ R ∈ Finset.range 4096, sqRow V c R = ∑ i : S4096x3x64x64.Idx, (x1 i - x4 i) * (x1 i - x4 i) := by
  rw [Finset.sum_range]
  have hrow : ∀ R : Fin 4096, sqRow V c R.val
      = ∑ q : Fin 12288, (fun i : S4096x12288.Idx =>
          (x1 (Shape.reshapeEquiv hsc i) - x4 (Shape.reshapeEquiv hsc i)) * (x1 (Shape.reshapeEquiv hsc i) - x4 (Shape.reshapeEquiv hsc i))) (ix2 R q) := by
    intro R
    unfold sqRow
    rw [dif_pos R.isLt, hX, hY]
    rfl
  rw [Finset.sum_congr rfl fun R _ => hrow R]
  exact (sum_idx2 (n0 := 4096) (n1 := 12288) fun i : S4096x12288.Idx =>
      (x1 (Shape.reshapeEquiv hsc i) - x4 (Shape.reshapeEquiv hsc i)) * (x1 (Shape.reshapeEquiv hsc i) - x4 (Shape.reshapeEquiv hsc i))).symm.trans
    (Equiv.sum_comp (Shape.reshapeEquiv hsc) fun i => (x1 i - x4 i) * (x1 i - x4 i))

/-- Likewise the maximum over all rows and columns of the second array is the maximum over the four-dimensional
    index set: each is below the other, entry by entry. -/
theorem mxRow_total (c : Dev nD) (x4 : Vec Ideal S4096x3x64x64 .f32) (hsc : S4096x3x64x64.ShapeCasts S4096x12288)
    (hY : Yarr V c = shapeCast S4096x12288 x4 hsc) :
    (Finset.range 4096).sup (mxRow V c) = Finset.univ.sup x4 := by
  apply le_antisymm
  · refine Finset.sup_le fun R hR => ?_
    have hR' : R < 4096 := Finset.mem_range.mp hR
    unfold mxRow
    rw [dif_pos hR', hY]
    refine Finset.sup_le fun q _ => ?_
    exact Finset.le_sup (f := x4) (Finset.mem_univ (Shape.reshapeEquiv hsc (ix2 ⟨R, hR'⟩ q)))
  · refine Finset.sup_le fun i _ => ?_
    obtain ⟨j, rfl⟩ := (Shape.reshapeEquiv hsc).surjective i
    obtain ⟨R, q, rfl⟩ : ∃ (R : Fin 4096) (q : Fin 12288), j = ix2 R q := ⟨j 0, j 1, eq_ix2 j⟩
    refine le_trans ?_ (Finset.le_sup (f := mxRow V c) (Finset.mem_range.mpr R.isLt))
    unfold mxRow
    rw [dif_pos R.isLt, hY]
    exact Finset.le_sup (f := fun q : Fin 12288 => shapeCast S4096x12288 x4 hsc (ix2 ⟨R.val, R.isLt⟩ q)) (Finset.mem_univ q)

/-- THE SUM OF SQUARES. The two entries the host reads from the first output, added, are the reference's sum over all
    four axes, from zero, of the squared difference of the two four-dimensional arrays. -/
theorem sumsq_eq (c : Dev nD) (x1 x4 : Vec Ideal S4096x3x64x64 .f32) (hsc : S4096x3x64x64.ShapeCasts S4096x12288)
    (hX : Xarr V c = shapeCast S4096x12288 x1 hsc) (hY : Yarr V c = shapeCast S4096x12288 x4 hsc)
    (hr : S4096x3x64x64.ReducesTo [0, 1, 2, 3] S_) (hu : 0 < S_.numel) (i₀ : S_.Idx) :
    out2 V c (ix2 (0 : Fin 16) (0 : Fin 128)) + out2 V c (ix2 (8 : Fin 16) (0 : Fin 128))
      = Host.reduceAdd (F := Ideal) (mulf (subf x1 x4) (subf x1 x4)) (constant (F := Ideal) S_ .f32 0x00000000#32) hr hu i₀ := by
  rw [sum_total, sqRow_total V c x1 x4 hsc hX hY]
  refine Eq.symm ((Ideal.hostReduceAdd_total hr (fun b => b.elim0) _ _ i₀).trans ?_)
  show Ideal.ofBits .f32 0x00000000#32 + _ = _
  rw [Ideal.ofBits_zero_f32, zero_add]
  rfl

/-- THE MAXIMUM. The two entries the host reads from the second output, the larger of them, are the reference's maximum
    over all four axes, from minus infinity, of the second four-dimensional array. -/
theorem max_eq (c : Dev nD) (x4 : Vec Ideal S4096x3x64x64 .f32) (hsc : S4096x3x64x64.ShapeCasts S4096x12288)
    (hY : Yarr V c = shapeCast S4096x12288 x4 hsc)
    (hr : S4096x3x64x64.ReducesTo [0, 1, 2, 3] S_) (hu : 0 < S_.numel) (i₀ : S_.Idx) :
    max (out3 V c (ix2 (0 : Fin 16) (0 : Fin 128))) (out3 V c (ix2 (8 : Fin 16) (0 : Fin 128)))
      = Host.reduce (FloatOps.maximumf (F := Ideal) (φ := .f32)) x4 (constant (F := Ideal) S_ .f32 0xFF800000#32) hr hu i₀ := by
  rw [max_total, mxRow_total V c x4 hsc hY]
  refine Eq.symm ((Host.reduce_eq_fold (FloatOps.maximumf (F := Ideal) (φ := .f32)) x4 _ hr hu i₀).trans ?_)
  rw [Finset.filter_true_of_mem fun i _ => funext fun b => b.elim0]
  exact fold_max_neg_inf Finset.univ x4

end

/-! ## Against the reference's two stages -/

section
variable (V : (c : Dev nD) → (b : Ref sig .tc) → Buf (Elt Ideal) ((c : Thread nD τ).loc b))

/-- The first output's two entries, added, are the reference's stage that sums the squared difference over all four axes. -/
theorem sumsq_eq_ref (c : Dev nD) (x1 x4 : (⟨Cert.ReferenceIdeal.S4096x3x64x64, .f32⟩ : BufTy).Contents (Elt Ideal))
    (hsc : S4096x3x64x64.ShapeCasts S4096x12288)
    (hX : Xarr V c = shapeCast S4096x12288 x1 hsc) (hY : Yarr V c = shapeCast S4096x12288 x4 hsc) (i₀ : Cert.ReferenceIdeal.S_.Idx) :
    out2 V c (ix2 (0 : Fin 16) (0 : Fin 128)) + out2 V c (ix2 (8 : Fin 16) (0 : Fin 128))
      = Cert.ReferenceIdeal.Read.val_main_v8 (F := Ideal) x1 x4 i₀ :=
  sumsq_eq V c x1 x4 hsc hX hY _ _ i₀

/-- The second output's two entries, the larger, are the reference's stage that takes the maximum over all four axes. -/
theorem max_eq_ref (c : Dev nD) (x4 : (⟨Cert.ReferenceIdeal.S4096x3x64x64, .f32⟩ : BufTy).Contents (Elt Ideal))
    (hsc : S4096x3x64x64.ShapeCasts S4096x12288)
    (hY : Yarr V c = shapeCast S4096x12288 x4 hsc) (i₀ : Cert.ReferenceIdeal.S_.Idx) :
    max (out3 V c (ix2 (0 : Fin 16) (0 : Fin 128))) (out3 V c (ix2 (8 : Fin 16) (0 : Fin 128)))
      = Cert.ReferenceIdeal.Read.val_main_v10 (F := Ideal) x4 i₀ :=
  max_eq V c x4 hsc hY _ _ i₀

end

end Cert.KernelIdeal.Hand

end
-- ==== Proof.Ref.Tail.lean ====
/- The reference program's last stretch as one function.

   The reference computes six intermediate values from its inputs (a cross-entropy term, a sum of
   squared differences, a maximum, the per-class row counts and two per-class deviation vectors) and
   then combines them, by scalar arithmetic and sums over the 100 classes, into the seven scalars it
   returns. This module names that combination `tailR` and shows that the reference's result is
   `tailR` of the six values. -/
import proofs.«403987_j59588376264841_3_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The reference's seven reported scalars as one function of six intermediate values:
    `cls` the cross-entropy term, `sumsq` the sum of squared differences, `mx` the largest target
    entry, `cnt` the number of rows per class, and `sx`, `sy` the two per-class mean absolute
    deviations. Everything here is a scalar or a vector over the 100 classes. -/
def tailR (cls sumsq mx : (⟨S_, .f32⟩ : BufTy).Contents (Elt F))
    (cnt sx sy : (⟨S100, .f32⟩ : BufTy).Contents (Elt F)) : (⟨S7, .f32⟩ : BufTy).Contents (Elt F) :=
  -- the scalar constants 0 and 1, and 0 spread over the classes
  let zero : (⟨S_, .f32⟩ : BufTy).Contents (Elt F) := constant S_ .f32 0x00000000#32
  let one : (⟨S_, .f32⟩ : BufTy).Contents (Elt F) := constant S_ .f32 0x3F800000#32
  let zeros : (⟨S100, .f32⟩ : BufTy).Contents (Elt F) := broadcastInDim S100 ![] bcast_S_S100 zero
  -- reconstruction loss: the sum of squares over the number of entries, 4096 * 3 * 64 * 64
  let rec_loss : (⟨S_, .f32⟩ : BufTy).Contents (Elt F) := Host.divf sumsq (constant S_ .f32 0x4C400000#32)
  -- peak signal-to-noise ratio: 20 * (log (mx / sqrt rec_loss) * log10 e)
  let psnr : (⟨S_, .f32⟩ : BufTy).Contents (Elt F) :=
    mulf (constant S_ .f32 0x41A00000#32)
      (mulf (Host.log (Host.divf mx (Host.sqrt rec_loss))) (constant S_ .f32 0x3EDE5BD9#32))
  -- a class is present when it has a row; n_present counts the present classes
  let present : (⟨S100, .i1⟩ : BufTy).Contents (Elt F) := cmpf (F := F) .ogt cnt zeros
  let n_present : (⟨S_, .f32⟩ : BufTy).Contents (Elt F) :=
    Host.reduceAdd (uitofp (F := F) .f32 present) zero reducesTo_S100_S_d0 h_S_
  -- first penalty: max (sx + 1e-4) 0 on the present classes, 0 elsewhere, averaged over the present classes
  let pen_x : (⟨S_, .f32⟩ : BufTy).Contents (Elt F) :=
    Host.divf
      (Host.reduceAdd
        (select present
          (maximumf (addf sx (broadcastInDim S100 ![] bcast_S_S100 (constant S_ .f32 0x38D1B717#32))) zeros)
          (broadcastInDim S100 ![] bcast_S_S100 (id zero)))
        zero reducesTo_S100_S_d0 h_S_)
      n_present
  -- second penalty: max (1 - (sy + 1e-4)) 0 on the present classes, 0 elsewhere, averaged the same way
  let pen_y : (⟨S_, .f32⟩ : BufTy).Contents (Elt F) :=
    Host.divf
      (Host.reduceAdd
        (select present
          (maximumf
            (subf (broadcastInDim S100 ![] bcast_S_S100 one)
              (addf sy (broadcastInDim S100 ![] bcast_S_S100 (constant S_ .f32 0x38D1B717#32))))
            zeros)
          (broadcastInDim S100 ![] bcast_S_S100 (id zero)))
        zero reducesTo_S100_S_d0 h_S_)
      n_present
  -- the two weighted totals, every weight 1
  let total : (⟨S_, .f32⟩ : BufTy).Contents (Elt F) :=
    addf (addf (addf (mulf one rec_loss) (mulf one pen_x)) (mulf one pen_y)) (mulf one cls)
  let total_cls : (⟨S_, .f32⟩ : BufTy).Contents (Elt F) := addf (mulf one pen_x) (mulf one cls)
  -- the seven scalars side by side
  concatenate S7 0
    [⟨S1, broadcastInDim S1 ![] bcast_S_S1 cls⟩, ⟨S1, broadcastInDim S1 ![] bcast_S_S1 rec_loss⟩,
     ⟨S1, broadcastInDim S1 ![] bcast_S_S1 psnr⟩, ⟨S1, broadcastInDim S1 ![] bcast_S_S1 pen_x⟩,
     ⟨S1, broadcastInDim S1 ![] bcast_S_S1 pen_y⟩, ⟨S1, broadcastInDim S1 ![] bcast_S_S1 total_cls⟩,
     ⟨S1, broadcastInDim S1 ![] bcast_S_S1 total⟩]
    concatenates_S1_S1_S1_S1_S1_S1_S1_S7_d0

/-- The reference's result is `tailR` of its six intermediate values: between those values and the
    result the stages are exactly the operations `tailR` spells, so unfolding the stages (never the
    six values themselves) leaves the same term on both sides. -/
theorem result_eq (x0 : (⟨S4096x100, .f32⟩ : BufTy).Contents (Elt F))
    (x1 : (⟨S4096x3x64x64, .f32⟩ : BufTy).Contents (Elt F))
    (x2 x3 : (⟨S4096x512, .f32⟩ : BufTy).Contents (Elt F))
    (x4 : (⟨S4096x3x64x64, .f32⟩ : BufTy).Contents (Elt F))
    (x5 : (⟨S4096, .i32⟩ : BufTy).Contents (Elt F)) :
    val_main_v107 (F := F) x0 x1 x2 x3 x4 x5
      = tailR (val_main_v5 (F := F) x0 x5) (val_main_v8 (F := F) x1 x4) (val_main_v10 (F := F) x4)
          (val_main_v19 (F := F) x5) (val_main_v43 (F := F) x2 x5) (val_main_v71 (F := F) x3 x5) := by
  simp only [val_main_v107, val_main_v106, val_main_v105, val_main_v104, val_main_v103, val_main_v102,
    val_main_v101, val_main_v100, val_main_v99, val_main_v98, val_main_v97, val_main_v96, val_main_v95,
    val_main_v94, val_main_v93, val_main_v92, val_main_v91, val_main_v90, val_main_v89, val_main_v88,
    val_main_v87, val_main_v86, val_main_v85, val_main_v84, val_main_v83, val_main_v82, val_main_v81,
    val_main_v80, val_main_v79, val_main_v78, val_main_v77, val_main_v76, val_main_v75, val_main_v74,
    val_main_v73, val_main_v72, val_main_v15, val_main_v14, val_main_v13, val_main_v12, val_main_v11,
    val_main_v9, val_main_cst_2, val_main_cst_4, val_main_cst_5, val_main_cst_23, val_main_cst_24,
    val_main_cst_25, val_main_cst_26, val_main_cst_27, val_main_cst_28, val_main_cst_29, val_main_cst_30,
    val_main_cst_31, val_main_cst_32, val_main_cst_33, val_main_cst_34, val_main_cst_35, val_main_cst_36,
    val_main_cst_37, val_main_call2_cst, val_main_call2_v0, val_main_call3_v0, val_main_call3_v1,
    val_main_call4_cst, val_main_call4_v0, val_main_call5_v0, val_main_call5_v1]
  rfl

end Cert.ReferenceIdeal.Hand

end
-- ==== Proof.Ref.TailEq.lean ====
/- The kernel program and the reference share their host arithmetic.

   The kernel's program ends in the same host operations as the reference (the seven scalars from
   six intermediate values), and it computes its cross-entropy term on the host by the reference's
   own operations. Both equalities hold because the two sides are one term: the shape names are
   abbreviations of the same literals in two namespaces and the side conditions are proofs. -/
import proofs.«403987_j59588376264841_3_alg».proof.Proof.Ref.Tail
import proofs.«403987_j59588376264841_3_alg».proof.Proof.KI.HostVals

noncomputable section

namespace Cert.ReferenceIdeal.Hand

open Idealize.ShloMosaic Idealize.ShloMosaic.TcCoe Idealize.SL.Sem Idealize.ShloMosaic.StableHlo

variable {F : FTy → Type} [FloatOps F]

/-- The kernel program's closing host operations and the reference's are the same operations on the
    same six values: the two spell one term (shape names and side conditions live in two namespaces,
    the shapes being the same literals and the side conditions proofs). -/
theorem tail_eq (a b c : (⟨Cert.KernelIdeal.S_, .f32⟩ : BufTy).Contents (Elt F))
    (d e f : (⟨Cert.KernelIdeal.S100, .f32⟩ : BufTy).Contents (Elt F)) :
    Cert.KernelIdeal.Hand.tailK (F := F) a b c d e f = tailR (F := F) a b c d e f := by
  unfold Cert.KernelIdeal.Hand.tailK tailR
  rfl

open Cert.ReferenceIdeal.Read in
/-- The kernel program computes its cross-entropy term on the host by the reference's own operations:
    a log-softmax along the class axis, the entry each row's label picks, the negated mean. -/
theorem cls_eq (x0 : (⟨Cert.ReferenceIdeal.S4096x100, .f32⟩ : BufTy).Contents (Elt F))
    (x5 : (⟨Cert.ReferenceIdeal.S4096, .i32⟩ : BufTy).Contents (Elt F)) :
    Cert.KernelIdeal.Hand.clsK (F := F) x0 x5 = Cert.ReferenceIdeal.Read.val_main_v5 (F := F) x0 x5 := by
  unfold Cert.KernelIdeal.Hand.clsK
  simp only [val_main_call0_cst, val_main_call0_v0, val_main_call0_cst_0, val_main_call0_v1, val_main_call0_v2, val_main_call0_v3, val_main_call0_v4, val_main_call0_v5, val_main_call0_v6, val_main_call0_cst_1, val_main_call0_v7, val_main_call0_v8, val_main_call0_v9, val_main_call0_v10, val_main_v0, val_main_v1, val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_v13, val_main_call1_cst, val_main_call1_v14, val_main_v2, val_main_cst, val_main_v3, val_main_cst_0, val_main_v4, val_main_v5]
  rfl

end Cert.ReferenceIdeal.Hand

end
-- ==== Proof.Bridge.lean ====
/-
  The two idealized programs compute one result.

  Both end in the same host operations applied to six intermediate values: the cross-entropy scalar, the sum of
  squared differences, the maximum, the class counts and the two per-class deviation vectors. The cross-entropy is
  the same host chain on both sides. The kernel forms the other five inside its two kernel regions: the first
  accumulates block sums and block maxima over a 2 × 16 grid, the second writes the segment sums as one-hot matrix
  products. Each is the reference's value: sums of extended reals regroup freely, a maximum is a lattice operation,
  and a product with a one-hot row selects the rows of one class.
-/
import proofs.«403987_j59588376264841_3_alg».proof.Proof.KI.Run
import proofs.«403987_j59588376264841_3_alg».proof.Proof.KI.HostVals
import proofs.«403987_j59588376264841_3_alg».proof.Proof.Val.PerClass
import proofs.«403987_j59588376264841_3_alg».proof.Proof.Val.PerClassArr
import proofs.«403987_j59588376264841_3_alg».proof.Proof.Val.RecStats
import proofs.«403987_j59588376264841_3_alg».proof.Proof.Ref.TailEq
import proofs.«403987_j59588376264841_3_alg».proof.Proof.RefReadEq

set_option maxRecDepth 16384

noncomputable section

namespace Cert.Proof.Bridge

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-! ## The second region's three rows are the reference's three vectors -/

theorem lbl_in (c : Dev nD) : Vin1 m c main_v25 = lblCol (m ((c : Thread nD τ).loc main_arg5)) := V6_v25 m (outs0 m) c
theorem x_in (c : Dev nD) : Vin1 m c main_arg2 = m ((c : Thread nD τ).loc main_arg2) := V6_arg2 m (outs0 m) c
theorem y_in (c : Dev nD) : Vin1 m c main_arg3 = m ((c : Thread nD τ).loc main_arg3) := V6_arg3 m (outs0 m) c

/-- The class counts: the kernel's count row, its first hundred lanes, is the reference's scatter-add of ones. -/
theorem counts_bridge (c : Dev nD) :
    row100 (outs m 7 main_v26_0 c) = Cert.ReferenceIdeal.Read.val_main_v19 (F := Ideal) (m ((c : Thread nD τ).loc main_arg5)) := by
  funext i
  obtain ⟨j, rfl⟩ : ∃ j : Fin 100, i = ix1 j := ⟨i 0, eq_ix1 i⟩
  refine (row100_apply _ j).trans ?_
  rw [outs_7]
  have h : W7 m c (Proc.devRef .tc main_v26_0) = cntRow (F := Ideal) (lblCol (m ((c : Thread nD τ).loc main_arg5))) :=
    (W7_arr m c 3).trans ((arr1_counts (Vin1 m) c).trans (by rw [lbl_in]))
  rw [h]
  exact counts_eq _ _

/-- The first deviation vector. -/
theorem devX_bridge (c : Dev nD) :
    row100 (outs m 7 main_v26_1 c) = Cert.ReferenceIdeal.Read.val_main_v43 (F := Ideal) (m ((c : Thread nD τ).loc main_arg2)) (m ((c : Thread nD τ).loc main_arg5)) := by
  funext i
  obtain ⟨j, rfl⟩ : ∃ j : Fin 100, i = ix1 j := ⟨i 0, eq_ix1 i⟩
  refine (row100_apply _ j).trans ?_
  rw [outs_7]
  have h : W7 m c (Proc.devRef .tc main_v26_1) = devRowX (F := Ideal) (lblCol (m ((c : Thread nD τ).loc main_arg5))) (m ((c : Thread nD τ).loc main_arg2)) :=
    (W7_arr m c 4).trans ((arr1_devX (Vin1 m) c).trans (by rw [lbl_in, x_in]))
  rw [h]
  exact devX_eq _ _ _

/-- The second. -/
theorem devY_bridge (c : Dev nD) :
    row100 (outs m 7 main_v26_2 c) = Cert.ReferenceIdeal.Read.val_main_v71 (F := Ideal) (m ((c : Thread nD τ).loc main_arg3)) (m ((c : Thread nD τ).loc main_arg5)) := by
  funext i
  obtain ⟨j, rfl⟩ : ∃ j : Fin 100, i = ix1 j := ⟨i 0, eq_ix1 i⟩
  refine (row100_apply _ j).trans ?_
  rw [outs_7]
  have h : W7 m c (Proc.devRef .tc main_v26_2) = devRowY (F := Ideal) (lblCol (m ((c : Thread nD τ).loc main_arg5))) (m ((c : Thread nD τ).loc main_arg3)) :=
    (W7_arr m c 5).trans ((arr1_devY (Vin1 m) c).trans (by rw [lbl_in, y_in]))
  rw [h]
  exact devY_eq _ _ _

/-! ## The first region's two arrays give the reference's sum and maximum -/

/-- The sum of squared differences: the two cores' partial sums added. -/
theorem sumsq_bridge (c : Dev nD) :
    sumOfParts (outs m 5 main_v8_0 c) = Cert.ReferenceIdeal.Read.val_main_v8 (F := Ideal) (m ((c : Thread nD τ).loc main_arg1)) (m ((c : Thread nD τ).loc main_arg4)) := by
  funext i
  refine (sumOfParts_apply _ i).trans ?_
  rw [outs_5]
  have h : W5 m c (Proc.devRef .tc main_v8_0) = out2 (Vin0 m) c := W5_arr m c 2
  rw [h]
  exact sumsq_eq_ref (Vin0 m) c _ _ shapeCasts_S4096x3x64x64_S4096x12288 (V4_v6 m c) (V4_v7 m c) i

/-- The maximum: the larger of the two cores' partial maxima. -/
theorem max_bridge (c : Dev nD) :
    maxOfParts (outs m 5 main_v8_1 c) = Cert.ReferenceIdeal.Read.val_main_v10 (F := Ideal) (m ((c : Thread nD τ).loc main_arg4)) := by
  funext i
  refine (maxOfParts_apply _ i).trans ?_
  rw [outs_5]
  have h : W5 m c (Proc.devRef .tc main_v8_1) = out3 (Vin0 m) c := W5_arr m c 3
  rw [h]
  exact max_eq_ref (Vin0 m) c _ shapeCasts_S4096x3x64x64_S4096x12288 (V4_v7 m c) i

/-! ## The results -/

/-- The kernel program's result buffer holds the reference's last stage of the kernel's own arguments: its six
    intermediate values are the reference's, and the closing host operations are the same. -/
theorem kernel_result (c : Dev nD) :
    V16 m (outs m) c main_v68
      = Cert.ReferenceIdeal.Read.val_main_v107 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (V16_v68 m (outs m) c).trans <|
    (congr (congr (congr (congr (congr (congrArg (tailK (F := Ideal)) (Cert.ReferenceIdeal.Hand.cls_eq (F := Ideal) (m ((c : Thread nD τ).loc main_arg0)) (m ((c : Thread nD τ).loc main_arg5))))
      (sumsq_bridge m c)) (max_bridge m c)) (counts_bridge m c)) (devX_bridge m c)) (devY_bridge m c)).trans <|
    (Cert.ReferenceIdeal.Hand.tail_eq (F := Ideal) _ _ _ _ _ _).trans
      (Cert.ReferenceIdeal.Hand.result_eq (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

/-- From memories that agree on the arguments, the reference's result term is what the kernel program's last
    valuation holds in its result buffer. -/
theorem result_eq (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (c : Dev nD) :
    Cert.ReferenceIdeal.Value.res_main_v107 (F := Ideal) m' c = V16 m (outs m) c main_v68 := by
  rw [Cert.ReferenceIdeal.Read.val_main_v107_eq, (hagree c).1, (hagree c).2.1, (hagree c).2.2.1, (hagree c).2.2.2.1, (hagree c).2.2.2.2.1, (hagree c).2.2.2.2.2]
  exact (kernel_result m c).symm

end Cert.Proof.Bridge

end
-- ==== Proof.lean ====
/-
  The certificate's five claims.

  The three frames: the word-level kernel program and its idealization run to the end, fault nowhere and leave the
  argument arrays as launched — each from its two kernel regions' segment records (the reconstruction-statistics
  kernel carries a running sum and a running maximum in scratch buffers across its grid; the per-class kernel is one
  grid point) around the host operations — and the reference, a host program, by its run read back. The
  idealization rewrote nothing, so it is sanctioned trivially. The two idealized programs end with equal results: the
  kernel program's run names its result buffer's contents, and those are the reference's result term.
-/
import proofs.«403987_j59588376264841_3_alg».proof.Defs
import proofs.«403987_j59588376264841_3_alg».proof.Proof.Gen.Kernel
import proofs.«403987_j59588376264841_3_alg».proof.Proof.Gen.KernelIdeal
import proofs.«403987_j59588376264841_3_alg».proof.Proof.Gen.ReferenceIdeal
import proofs.«403987_j59588376264841_3_alg».proof.Proof.Gen.Pre_finite_inputs
import proofs.«403987_j59588376264841_3_alg».proof.Proof.K.Launch
import proofs.«403987_j59588376264841_3_alg».proof.Proof.KI.Run
import proofs.«403987_j59588376264841_3_alg».proof.Proof.RefRun
import proofs.«403987_j59588376264841_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V16 m (Cert.KernelIdeal.Hand.outs m) c Cert.KernelIdeal.main_v68, Cert.KernelIdeal.Hand.run m ρ, ?_⟩
  exact (θ_run Cert.ReferenceIdeal.defs _ _).mono (fun _ h c => ⟨(h c).1.trans (Cert.Proof.Bridge.result_eq m m' hagree c), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
